-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S8x128 : Shape := ⟨2, ![8, 128]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S8x128 : S_.BroadcastsInDim S8x128 (![] : Fin 0 → Fin S8x128.rank)
  reducesTo_S8x128_S_d0_1 : S8x128.ReducesTo [0, 1] S_
  reducesTo_S_S_d : S_.ReducesTo [] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part6 {F : FTy → Type} [FloatOps F] (main_v97 : IVec S_ 1) (main_v102 : IVec S1600000 1) : IVec S_ 1 :=
  let main_c_39 : IVec S_ 1 := constantI S_ 1 1#1
  let main_v103 : IVec S_ 1 := (fun x v => Host.reduce IntOp.andi x v reducesTo_S1600000_S_d0 h_S_) main_v102 main_c_39
  let main_v104 : IVec S_ 1 := andi main_v97 main_v103
  main_v104

def fn_part5 {F : FTy → Type} [FloatOps F] (main_arg1 : IVec S2x1600000 32) (main_arg2 : IVec S1600000 32) (main_v81 : IVec S_ 1) (main_v84 : IVec S128 1) : IVec S_ 1 :=
  let main_c_33 : IVec S_ 1 := constantI S_ 1 1#1
  let main_v85 : IVec S_ 1 := (fun x v => Host.reduce IntOp.andi x v reducesTo_S128_S_d0 h_S_) main_v84 main_c_33
  let main_v86 : IVec S_ 1 := andi main_v81 main_v85
  let main_v87 : IVec S1x1600000 32 := (extractStridedSlice S1x1600000 ![0, 0] · slices_S2x1600000_S1x1600000_0_0) main_arg1
  let main_v88 : IVec S1600000 32 := shapeCast S1600000 main_v87 shapeCasts_S1x1600000_S1600000
  let main_c_34 : IVec S_ 32 := constantI S_ 32 0#32
  let main_v89 : IVec S1600000 32 := broadcastInDim S1600000 ![] bcast_S_S1600000 main_c_34
  let main_v90 : IVec S1600000 1 := cmpi .sge main_v88 main_v89
  let main_v91 : IVec S1x1600000 32 := (extractStridedSlice S1x1600000 ![0, 0] · slices_S2x1600000_S1x1600000_0_0) main_arg1
  let main_v92 : IVec S1600000 32 := shapeCast S1600000 main_v91 shapeCasts_S1x1600000_S1600000
  let main_c_35 : IVec S_ 32 := constantI S_ 32 100000#32
  let main_v93 : IVec S1600000 32 := broadcastInDim S1600000 ![] bcast_S_S1600000 main_c_35
  let main_v94 : IVec S1600000 1 := cmpi .slt main_v92 main_v93
  let main_v95 : IVec S1600000 1 := andi main_v90 main_v94
  let main_c_36 : IVec S_ 1 := constantI S_ 1 1#1
  let main_v96 : IVec S_ 1 := (fun x v => Host.reduce IntOp.andi x v reducesTo_S1600000_S_d0 h_S_) main_v95 main_c_36
  let main_v97 : IVec S_ 1 := andi main_v86 main_v96
  let main_c_37 : IVec S_ 32 := constantI S_ 32 0#32
  let main_v98 : IVec S1600000 32 := broadcastInDim S1600000 ![] bcast_S_S1600000 main_c_37
  let main_v99 : IVec S1600000 1 := cmpi .sge main_arg2 main_v98
  let main_c_38 : IVec S_ 32 := constantI S_ 32 8#32
  let main_v100 : IVec S1600000 32 := broadcastInDim S1600000 ![] bcast_S_S1600000 main_c_38
  let main_v101 : IVec S1600000 1 := cmpi .slt main_arg2 main_v100
  let main_v102 : IVec S1600000 1 := andi main_v99 main_v101
  fn_part6 (F := F) main_v97 main_v102

def fn_part4 {F : FTy → Type} [FloatOps F] (main_arg1 : IVec S2x1600000 32) (main_arg2 : IVec S1600000 32) (main_arg17 : FVec F S128 .f32) (main_arg18 : FVec F S128x128 .f32) (main_arg19 : FVec F S128 .f32) (main_v66 : IVec S_ 1) (main_v67 : FVec F S128x128 .f32) : IVec S_ 1 :=
  let main_cst_26 : FVec F S_ .f32 := constant S_ .f32 0x7F800000#32
  let main_v68 : FVec F S128x128 .f32 := broadcastInDim S128x128 ![] bcast_S_S128x128 main_cst_26
  let main_v69 : IVec S128x128 1 := cmpf .olt main_v67 main_v68
  let main_c_27 : IVec S_ 1 := constantI S_ 1 1#1
  let main_v70 : IVec S_ 1 := (fun x v => Host.reduce IntOp.andi x v reducesTo_S128x128_S_d0_1 h_S_) main_v69 main_c_27
  let main_v71 : IVec S_ 1 := andi main_v66 main_v70
  let main_v72 : FVec F S128 .f32 := Host.absf main_arg17
  let main_cst_28 : FVec F S_ .f32 := constant S_ .f32 0x7F800000#32
  let main_v73 : FVec F S128 .f32 := broadcastInDim S128 ![] bcast_S_S128 main_cst_28
  let main_v74 : IVec S128 1 := cmpf .olt main_v72 main_v73
  let main_c_29 : IVec S_ 1 := constantI S_ 1 1#1
  let main_v75 : IVec S_ 1 := (fun x v => Host.reduce IntOp.andi x v reducesTo_S128_S_d0 h_S_) main_v74 main_c_29
  let main_v76 : IVec S_ 1 := andi main_v71 main_v75
  let main_v77 : FVec F S128x128 .f32 := Host.absf main_arg18
  let main_cst_30 : FVec F S_ .f32 := constant S_ .f32 0x7F800000#32
  let main_v78 : FVec F S128x128 .f32 := broadcastInDim S128x128 ![] bcast_S_S128x128 main_cst_30
  let main_v79 : IVec S128x128 1 := cmpf .olt main_v77 main_v78
  let main_c_31 : IVec S_ 1 := constantI S_ 1 1#1
  let main_v80 : IVec S_ 1 := (fun x v => Host.reduce IntOp.andi x v reducesTo_S128x128_S_d0_1 h_S_) main_v79 main_c_31
  let main_v81 : IVec S_ 1 := andi main_v76 main_v80
  let main_v82 : FVec F S128 .f32 := Host.absf main_arg19
  let main_cst_32 : FVec F S_ .f32 := constant S_ .f32 0x7F800000#32
  let main_v83 : FVec F S128 .f32 := broadcastInDim S128 ![] bcast_S_S128 main_cst_32
  let main_v84 : IVec S128 1 := cmpf .olt main_v82 main_v83
  fn_part5 (F := F) main_arg1 main_arg2 main_v81 main_v84

def fn_part3 {F : FTy → Type} [FloatOps F] (main_arg1 : IVec S2x1600000 32) (main_arg2 : IVec S1600000 32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v46 : IVec S_ 1) (main_v49 : IVec S128x128 1) (main_c_19 : IVec S_ 1) : IVec S_ 1 :=
  let main_v50 : IVec S_ 1 := (fun x v => Host.reduce IntOp.andi x v reducesTo_S128x128_S_d0_1 h_S_) main_v49 main_c_19
  let main_v51 : IVec S_ 1 := andi main_v46 main_v50
  let main_v52 : FVec F S128 .f32 := Host.absf main_arg13
  let main_cst_20 : FVec F S_ .f32 := constant S_ .f32 0x7F800000#32
  let main_v53 : FVec F S128 .f32 := broadcastInDim S128 ![] bcast_S_S128 main_cst_20
  let main_v54 : IVec S128 1 := cmpf .olt main_v52 main_v53
  let main_c_21 : IVec S_ 1 := constantI S_ 1 1#1
  let main_v55 : IVec S_ 1 := (fun x v => Host.reduce IntOp.andi x v reducesTo_S128_S_d0 h_S_) main_v54 main_c_21
  let main_v56 : IVec S_ 1 := andi main_v51 main_v55
  let main_v57 : FVec F S128x128 .f32 := Host.absf main_arg14
  let main_cst_22 : FVec F S_ .f32 := constant S_ .f32 0x7F800000#32
  let main_v58 : FVec F S128x128 .f32 := broadcastInDim S128x128 ![] bcast_S_S128x128 main_cst_22
  let main_v59 : IVec S128x128 1 := cmpf .olt main_v57 main_v58
  let main_c_23 : IVec S_ 1 := constantI S_ 1 1#1
  let main_v60 : IVec S_ 1 := (fun x v => Host.reduce IntOp.andi x v reducesTo_S128x128_S_d0_1 h_S_) main_v59 main_c_23
  let main_v61 : IVec S_ 1 := andi main_v56 main_v60
  let main_v62 : FVec F S128 .f32 := Host.absf main_arg15
  let main_cst_24 : FVec F S_ .f32 := constant S_ .f32 0x7F800000#32
  let main_v63 : FVec F S128 .f32 := broadcastInDim S128 ![] bcast_S_S128 main_cst_24
  let main_v64 : IVec S128 1 := cmpf .olt main_v62 main_v63
  let main_c_25 : IVec S_ 1 := constantI S_ 1 1#1
  let main_v65 : IVec S_ 1 := (fun x v => Host.reduce IntOp.andi x v reducesTo_S128_S_d0 h_S_) main_v64 main_c_25
  let main_v66 : IVec S_ 1 := andi main_v61 main_v65
  let main_v67 : FVec F S128x128 .f32 := Host.absf main_arg16
  fn_part4 (F := F) main_arg1 main_arg2 main_arg17 main_arg18 main_arg19 main_v66 main_v67

def fn_part2 {F : FTy → Type} [FloatOps F] (main_arg1 : IVec S2x1600000 32) (main_arg2 : IVec S1600000 32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v31 : IVec S_ 1) (main_v32 : FVec F S128 .f32) (main_cst_12 : FVec F S_ .f32) : IVec S_ 1 :=
  let main_v33 : FVec F S128 .f32 := broadcastInDim S128 ![] bcast_S_S128 main_cst_12
  let main_v34 : IVec S128 1 := cmpf .olt main_v32 main_v33
  let main_c_13 : IVec S_ 1 := constantI S_ 1 1#1
  let main_v35 : IVec S_ 1 := (fun x v => Host.reduce IntOp.andi x v reducesTo_S128_S_d0 h_S_) main_v34 main_c_13
  let main_v36 : IVec S_ 1 := andi main_v31 main_v35
  let main_v37 : FVec F S128x128 .f32 := Host.absf main_arg10
  let main_cst_14 : FVec F S_ .f32 := constant S_ .f32 0x7F800000#32
  let main_v38 : FVec F S128x128 .f32 := broadcastInDim S128x128 ![] bcast_S_S128x128 main_cst_14
  let main_v39 : IVec S128x128 1 := cmpf .olt main_v37 main_v38
  let main_c_15 : IVec S_ 1 := constantI S_ 1 1#1
  let main_v40 : IVec S_ 1 := (fun x v => Host.reduce IntOp.andi x v reducesTo_S128x128_S_d0_1 h_S_) main_v39 main_c_15
  let main_v41 : IVec S_ 1 := andi main_v36 main_v40
  let main_v42 : FVec F S128 .f32 := Host.absf main_arg11
  let main_cst_16 : FVec F S_ .f32 := constant S_ .f32 0x7F800000#32
  let main_v43 : FVec F S128 .f32 := broadcastInDim S128 ![] bcast_S_S128 main_cst_16
  let main_v44 : IVec S128 1 := cmpf .olt main_v42 main_v43
  let main_c_17 : IVec S_ 1 := constantI S_ 1 1#1
  let main_v45 : IVec S_ 1 := (fun x v => Host.reduce IntOp.andi x v reducesTo_S128_S_d0 h_S_) main_v44 main_c_17
  let main_v46 : IVec S_ 1 := andi main_v41 main_v45
  let main_v47 : FVec F S128x128 .f32 := Host.absf main_arg12
  let main_cst_18 : FVec F S_ .f32 := constant S_ .f32 0x7F800000#32
  let main_v48 : FVec F S128x128 .f32 := broadcastInDim S128x128 ![] bcast_S_S128x128 main_cst_18
  let main_v49 : IVec S128x128 1 := cmpf .olt main_v47 main_v48
  let main_c_19 : IVec S_ 1 := constantI S_ 1 1#1
  fn_part3 (F := F) main_arg1 main_arg2 main_arg13 main_arg14 main_arg15 main_arg16 main_arg17 main_arg18 main_arg19 main_v46 main_v49 main_c_19

def fn_part1 {F : FTy → Type} [FloatOps F] (main_arg1 : IVec S2x1600000 32) (main_arg2 : IVec S1600000 32) (main_arg6 : FVec F S_ .f32) (main_arg7 : FVec F S_ .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S_ .f32 := Host.absf main_arg6
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S_ .f32 := Host.absf main_arg7
  let main_cst_8 : FVec F S_ .f32 := constant S_ .f32 0x7F800000#32
  let main_v24 : IVec S_ 1 := cmpf .olt main_v23 main_cst_8
  let main_c_9 : IVec S_ 1 := constantI S_ 1 1#1
  let main_v25 : IVec S_ 1 := (fun x v => Host.reduce IntOp.andi x v reducesTo_S_S_d h_S_) main_v24 main_c_9
  let main_v26 : IVec S_ 1 := andi main_v22 main_v25
  let main_v27 : FVec F S128x128 .f32 := Host.absf main_arg8
  let main_cst_10 : FVec F S_ .f32 := constant S_ .f32 0x7F800000#32
  let main_v28 : FVec F S128x128 .f32 := broadcastInDim S128x128 ![] bcast_S_S128x128 main_cst_10
  let main_v29 : IVec S128x128 1 := cmpf .olt main_v27 main_v28
  let main_c_11 : IVec S_ 1 := constantI S_ 1 1#1
  let main_v30 : IVec S_ 1 := (fun x v => Host.reduce IntOp.andi x v reducesTo_S128x128_S_d0_1 h_S_) main_v29 main_c_11
  let main_v31 : IVec S_ 1 := andi main_v26 main_v30
  let main_v32 : FVec F S128 .f32 := Host.absf main_arg9
  let main_cst_12 : FVec F S_ .f32 := constant S_ .f32 0x7F800000#32
  fn_part2 (F := F) main_arg1 main_arg2 main_arg10 main_arg11 main_arg12 main_arg13 main_arg14 main_arg15 main_arg16 main_arg17 main_arg18 main_arg19 main_v31 main_v32 main_cst_12

def fn {F : FTy → Type} [FloatOps F] (main_arg0 : FVec F S100000x128 .f32) (main_arg1 : IVec S2x1600000 32) (main_arg2 : IVec S1600000 32) (main_arg3 : FVec F S128x128 .f32) (main_arg4 : FVec F S128 .f32) (main_arg5 : FVec F S8x128 .f32) (main_arg6 : FVec F S_ .f32) (main_arg7 : FVec F S_ .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S8x128 .f32 := Host.absf main_arg5
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg1 main_arg2 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S8x128 : Shape := ⟨2, ![8, 128]⟩
abbrev S_ : Shape := ⟨0, ![]⟩
abbrev S1x1600000 : Shape := ⟨2, ![1, 1600000]⟩
abbrev S10000x128 : Shape := ⟨2, ![10000, 128]⟩
abbrev S1x128 : Shape := ⟨2, ![1, 128]⟩
abbrev S1605632 : Shape := ⟨1, ![1605632]⟩
abbrev S1605632x128 : Shape := ⟨2, ![1605632, 128]⟩
abbrev S8192 : Shape := ⟨1, ![8192]⟩
abbrev S8192x128 : Shape := ⟨2, ![8192, 128]⟩
abbrev S8192x8 : Shape := ⟨2, ![8192, 8]⟩
abbrev S8192x1 : Shape := ⟨2, ![8192, 1]⟩
abbrev S1600000x128 : Shape := ⟨2, ![1600000, 128]⟩
abbrev S1600000x1 : Shape := ⟨2, ![1600000, 1]⟩
abbrev S1 : Shape := ⟨1, ![1]⟩
abbrev S1x1 : Shape := ⟨2, ![1, 1]⟩
abbrev S5000x128 : Shape := ⟨2, ![5000, 128]⟩

abbrev nBuf : Space → Nat
  | .hbm => 104
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S8x128, .f32⟩
  | .hbm, ⟨6, _⟩ => ⟨S_, .f32⟩
  | .hbm, ⟨7, _⟩ => ⟨S_, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S100000x128, .f32⟩
  | .hbm, ⟨25, _⟩ => ⟨S_, .i32⟩
  | .hbm, ⟨26, _⟩ => ⟨S_, .i32⟩
  | .hbm, ⟨27, _⟩ => ⟨S1605632, .i32⟩
  | .hbm, ⟨28, _⟩ => ⟨S1605632x128, .f32⟩
  | .hbm, ⟨29, _⟩ => ⟨S1600000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1, .i32⟩
  | .hbm, ⟨39, _⟩ => ⟨S_, .i32⟩
  | .hbm, ⟨40, _⟩ => ⟨S1600000x1, .i32⟩
  | .hbm, ⟨41, _⟩ => ⟨S1600000x1, .i1⟩
  | .hbm, ⟨42, _⟩ => ⟨S1x1, .i32⟩
  | .hbm, ⟨43, _⟩ => ⟨S1600000x1, .i32⟩
  | .hbm, ⟨44, _⟩ => ⟨S1600000x1, .i1⟩
  | .hbm, ⟨45, _⟩ => ⟨S1600000x1, .i1⟩
  | .hbm, ⟨46, _⟩ => ⟨S_, .i1⟩
  | .hbm, ⟨47, _⟩ => ⟨S1600000, .i1⟩
  | .hbm, ⟨48, _⟩ => ⟨S1600000x128, .f32⟩
  | .hbm, ⟨49, _⟩ => ⟨S1600000x128, .i1⟩
  | .hbm, ⟨50, _⟩ => ⟨S_, .f32⟩
  | .hbm, ⟨51, _⟩ => ⟨S1600000x128, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1, .i32⟩
  | .hbm, ⟨76, _⟩ => ⟨S_, .i32⟩
  | .hbm, ⟨77, _⟩ => ⟨S1600000x1, .i32⟩
  | .hbm, ⟨78, _⟩ => ⟨S1600000x1, .i1⟩
  | .hbm, ⟨79, _⟩ => ⟨S1x1, .i32⟩
  | .hbm, ⟨80, _⟩ => ⟨S1600000x1, .i32⟩
  | .hbm, ⟨81, _⟩ => ⟨S1600000x1, .i1⟩
  | .hbm, ⟨82, _⟩ => ⟨S1600000x1, .i1⟩
  | .hbm, ⟨83, _⟩ => ⟨S_, .i1⟩
  | .hbm, ⟨84, _⟩ => ⟨S1600000, .i1⟩
  | .hbm, ⟨85, _⟩ => ⟨S1600000x128, .f32⟩
  | .hbm, ⟨86, _⟩ => ⟨S1600000x128, .i1⟩
  | .hbm, ⟨87, _⟩ => ⟨S_, .f32⟩
  | .hbm, ⟨88, _⟩ => ⟨S1600000x128, .f32⟩
  | .hbm, ⟨89, _⟩ => ⟨S1600000x128, .f32⟩
  | .hbm, ⟨90, _⟩ => ⟨S1600000x128, .f32⟩
  | .hbm, ⟨91, _⟩ => ⟨S_, .f32⟩
  | .hbm, ⟨92, _⟩ => ⟨S1600000x128, .f32⟩
  | .hbm, ⟨93, _⟩ => ⟨S1600000x128, .f32⟩
  | .hbm, ⟨94, _⟩ => ⟨S_, .f32⟩
  | .hbm, ⟨95, _⟩ => ⟨S100000x128, .f32⟩
  | .hbm, ⟨96, _⟩ => ⟨S1600000x1, .i32⟩
  | .hbm, ⟨97, _⟩ => ⟨S100000x128, .f32⟩
  | .hbm, ⟨98, _⟩ => ⟨S_, .f32⟩
  | .hbm, ⟨99, _⟩ => ⟨S_, .f32⟩
  | .hbm, ⟨100, _⟩ => ⟨S100000x128, .f32⟩
  | .hbm, ⟨101, _⟩ => ⟨S100000x128, .f32⟩
  | .hbm, ⟨102, _⟩ => ⟨S100000x128, .f32⟩
  | .hbm, ⟨103, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S8192, .i32⟩
  | .local _ .vmem, ⟨7, _⟩ => ⟨S8192, .i32⟩
  | .local _ .vmem, ⟨8, _⟩ => ⟨S8x128, .f32⟩
  | .local _ .vmem, ⟨9, _⟩ => ⟨S8192x128, .f32⟩
  | .local _ .vmem, ⟨10, _⟩ => ⟨S8192x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S128x128, .f32⟩
  | .local _ .vmem, ⟨18, _⟩ => ⟨S128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128, .f32⟩
  | .local _ .vmem, ⟨25, _⟩ => ⟨S128x128, .f32⟩
  | .local _ .vmem, ⟨26, _⟩ => ⟨S128, .f32⟩
  | .local _ .vmem, ⟨27, _⟩ => ⟨S128x128, .f32⟩
  | .local _ .vmem, ⟨28, _⟩ => ⟨S128, .f32⟩
  | .local _ .vmem, ⟨29, _⟩ => ⟨S5000x128, .f32⟩
  | .local _ .vmem, ⟨30, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_call0_v0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v8 : Ref sig .tc := ⟨.hbm, 52, rfl⟩
abbrev main_v9 : Ref sig .tc := ⟨.hbm, 53, rfl⟩
abbrev main_call2_cst : Ref sig .tc := ⟨.hbm, 54, rfl⟩
abbrev main_call2_v0 : Ref sig .tc := ⟨.hbm, 55, rfl⟩
abbrev main_v10 : Ref sig .tc := ⟨.hbm, 56, rfl⟩
abbrev main_cst : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_cst_0 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_call3_c : Ref sig .tc := ⟨.hbm, 67, rfl⟩
abbrev main_call3_v0 : Ref sig .tc := ⟨.hbm, 68, rfl⟩
abbrev main_call3_v1 : Ref sig .tc := ⟨.hbm, 69, rfl⟩
abbrev main_call3_c_0 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_c_1 : Ref sig .tc := ⟨.hbm, 75, rfl⟩
abbrev main_call3_c_2 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_3 : Ref sig .tc := ⟨.hbm, 83, rfl⟩
abbrev main_call3_v12 : Ref sig .tc := ⟨.hbm, 84, rfl⟩
abbrev main_call3_v13 : Ref sig .tc := ⟨.hbm, 85, rfl⟩
abbrev main_call3_v14 : Ref sig .tc := ⟨.hbm, 86, rfl⟩
abbrev main_call3_cst : Ref sig .tc := ⟨.hbm, 87, rfl⟩
abbrev main_call3_v15 : Ref sig .tc := ⟨.hbm, 88, rfl⟩
abbrev main_v19 : Ref sig .tc := ⟨.hbm, 89, rfl⟩
abbrev main_v20 : Ref sig .tc := ⟨.hbm, 90, rfl⟩
abbrev main_call4_cst : Ref sig .tc := ⟨.hbm, 91, rfl⟩
abbrev main_call4_v0 : Ref sig .tc := ⟨.hbm, 92, rfl⟩
abbrev main_v21 : Ref sig .tc := ⟨.hbm, 93, rfl⟩
abbrev main_cst_1 : Ref sig .tc := ⟨.hbm, 94, rfl⟩
abbrev main_v22 : Ref sig .tc := ⟨.hbm, 95, rfl⟩
abbrev main_v23 : Ref sig .tc := ⟨.hbm, 96, rfl⟩
abbrev main_v24 : Ref sig .tc := ⟨.hbm, 97, rfl⟩
abbrev main_cst_2 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg7_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem7_0 : DmaSem sig := 29
abbrev cc3_sem7_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![196], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  pads_S1600000_S1605632_056320 : S1600000.Pads (![0] : Fin 1 → Nat) ![5632] ![0] S1605632
  h_S_ : 0 < S_.numel
  inb_S8192_S8192_0 : ∀ a, (![0] : Fin 1 → Nat) a + S8192.size a ≤ S8192.size a
  h_S8192 : 0 < S8192.numel
  shapeCasts_S8192_S8192 : S8192.ShapeCasts S8192
  iota_S8192x8_d1_w32 : S8192x8.Iotas .tc 32 [1]
  shapeCasts_S8192_S8192x1 : S8192.ShapeCasts S8192x1
  broadcasts_S8192x1_S8192x8 : S8192x1.Broadcasts S8192x8
  natLt_1_32 : 1 < 32
  inb_S8x128_S8x128_0_0 : ∀ a, (![0, 0] : Fin 2 → Nat) a + S8x128.size a ≤ S8x128.size a
  h_S8x128 : 0 < S8x128.numel
  inb_S8192x128_S8192x128_0_0 : ∀ a, (![0, 0] : Fin 2 → Nat) a + S8192x128.size a ≤ S8192x128.size a
  h_S8192x128 : 0 < S8192x128.numel
  slices_S1605632x128_S1600000x128_0_0 : S1605632x128.Slices ![0, 0] S1600000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  dot_S10000x128_S128x128_S10000x128_1_0_0_1_n_n_wf : DotDims.WF S10000x128 S128x128 S10000x128 [1] [0] [0] [1] [] []
  dot_S8192x8_S8x128_S8192x128_1_0_0_1_n_n_wf : DotDims.WF S8192x8 S8x128 S8192x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192.size a ≤ S1605632.size a
  hwx1_0 : ∀ i : grid1.Coords, EltTy.bits .i32 = 32 ∨ (Rect.block (s := S1605632) S8192.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S8x128.size a
  hwx1_1 : ∀ i : grid1.Coords, EltTy.bits .f32 = 32 ∨ (Rect.block (s := S8x128) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S1605632x128.size a
  hwx1_2 : ∀ i : grid1.Coords, EltTy.bits .f32 = 32 ∨ (Rect.block (s := S1605632x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S100000x128.size a
  hwx2_7 : ∀ i : grid2.Coords, EltTy.bits .f32 = 32 ∨ (Rect.block (s := S100000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S100000x128.size a
  hwx3_7 : ∀ i : grid3.Coords, EltTy.bits .f32 = 32 ∨ (Rect.block (s := S100000x128) S5000x128.size (cc3_transform_7 i) (hinb3_7 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S8192x8_S8x128_S8192x128_1_0_0_1_n_n : DotDims S8192x8 S8x128 S8192x128 where
  lhsContracting := [1]
  rhsContracting := [0]
  lhsNonContracting := [0]
  rhsNonContracting := [1]
  lhsBatch := []
  rhsBatch := []
  wf := dot_S8192x8_S8x128_S8192x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S8x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v18) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v28) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg14) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg16) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg18) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg19) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v29) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S8x128 : Shape := ⟨2, ![8, 128]⟩
abbrev S_ : Shape := ⟨0, ![]⟩
abbrev S1x1600000 : Shape := ⟨2, ![1, 1600000]⟩
abbrev S1x128 : Shape := ⟨2, ![1, 128]⟩
abbrev S1600000x1 : Shape := ⟨2, ![1600000, 1]⟩
abbrev S1600000x128 : Shape := ⟨2, ![1600000, 128]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S8x128, .f32⟩
  | .hbm, ⟨6, _⟩ => ⟨S_, .f32⟩
  | .hbm, ⟨7, _⟩ => ⟨S_, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x128, .f32⟩
  | .hbm, ⟨50, _⟩ => ⟨S_, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S_, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x128, .f32⟩
  | .hbm, ⟨92, _⟩ => ⟨S1600000x128, .f32⟩
  | .hbm, ⟨93, _⟩ => ⟨S_, .f32⟩
  | .hbm, ⟨94, _⟩ => ⟨S1600000x128, .f32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S_, .f32⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S100000x128, .f32⟩
  | .hbm, ⟨106, _⟩ => ⟨S1x128, .f32⟩
  | .hbm, ⟨107, _⟩ => ⟨S100000x128, .f32⟩
  | .hbm, ⟨108, _⟩ => ⟨S100000x128, .f32⟩
  | .hbm, ⟨109, _⟩ => ⟨S_, .f32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S_, .f32⟩
  | .hbm, ⟨117, _⟩ => ⟨S100000x128, .f32⟩
  | .hbm, ⟨118, _⟩ => ⟨S100000x128, .f32⟩
  | .hbm, ⟨119, _⟩ => ⟨S100000x128, .f32⟩
  | .hbm, ⟨120, _⟩ => ⟨S1x128, .f32⟩
  | .hbm, ⟨121, _⟩ => ⟨S100000x128, .f32⟩
  | .hbm, ⟨122, _⟩ => ⟨S100000x128, .f32⟩
  | .hbm, ⟨123, _⟩ => ⟨S_, .f32⟩
  | .hbm, ⟨124, _⟩ => ⟨S100000x128, .f32⟩
  | .hbm, ⟨125, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_call0_cst : Ref sig .tc := ⟨.hbm, 28, rfl⟩
abbrev main_call0_v0 : Ref sig .tc := ⟨.hbm, 29, rfl⟩
abbrev main_v8 : Ref sig .tc := ⟨.hbm, 30, rfl⟩
abbrev main_c : Ref sig .tc := ⟨.hbm, 31, rfl⟩
abbrev main_v9 : Ref sig .tc := ⟨.hbm, 32, rfl⟩
abbrev main_v10 : Ref sig .tc := ⟨.hbm, 33, rfl⟩
abbrev main_c_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c_1 : Ref sig .tc := ⟨.hbm, 40, rfl⟩
abbrev main_v16 : Ref sig .tc := ⟨.hbm, 41, rfl⟩
abbrev main_v17 : Ref sig .tc := ⟨.hbm, 42, rfl⟩
abbrev main_c_2 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call1_cst : Ref sig .tc := ⟨.hbm, 50, rfl⟩
abbrev main_call1_v0 : Ref sig .tc := ⟨.hbm, 51, rfl⟩
abbrev main_v24 : Ref sig .tc := ⟨.hbm, 52, rfl⟩
abbrev main_cst : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_3 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_call2_cst : Ref sig .tc := ⟨.hbm, 66, rfl⟩
abbrev main_call2_v0 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_call3_cst : Ref sig .tc := ⟨.hbm, 73, rfl⟩
abbrev main_call3_v0 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_call4_cst : Ref sig .tc := ⟨.hbm, 80, rfl⟩
abbrev main_call4_v0 : Ref sig .tc := ⟨.hbm, 81, rfl⟩
abbrev main_v46 : Ref sig .tc := ⟨.hbm, 82, rfl⟩
abbrev main_c_4 : Ref sig .tc := ⟨.hbm, 83, rfl⟩
abbrev main_v47 : Ref sig .tc := ⟨.hbm, 84, rfl⟩
abbrev main_v48 : Ref sig .tc := ⟨.hbm, 85, rfl⟩
abbrev main_c_5 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_call5_cst : Ref sig .tc := ⟨.hbm, 93, rfl⟩
abbrev main_call5_v0 : Ref sig .tc := ⟨.hbm, 94, rfl⟩
abbrev main_v55 : Ref sig .tc := ⟨.hbm, 95, rfl⟩
abbrev main_cst_6 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_7 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_call6_cst : Ref sig .tc := ⟨.hbm, 109, rfl⟩
abbrev main_call6_v0 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_call7_cst : Ref sig .tc := ⟨.hbm, 116, rfl⟩
abbrev main_call7_v0 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_call8_cst : Ref sig .tc := ⟨.hbm, 123, rfl⟩
abbrev main_call8_v0 : Ref sig .tc := ⟨.hbm, 124, rfl⟩
abbrev main_v77 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  dot_S100000x128_S128x128_S100000x128_1_0_0_1_n_n_wf : DotDims.WF S100000x128 S128x128 S100000x128 [1] [0] [0] [1] [] []
  gather_S8x128_S1600000x1_S1600000x128_1_0_n_n_0_1_1128_wf : GatherDims.WF S8x128 S1600000x1 S1600000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S8x128_S1600000x1_S1600000x128_1_0_n_n_0_1_1128 : GatherDims S8x128 S1600000x1 S1600000x128 where
  offsetDims := [1]
  collapsedSliceDims := [0]
  operandBatchingDims := []
  startIndicesBatchingDims := []
  startIndexMap := [0]
  indexVectorDim := 1
  sliceSizes := ![1, 128]
  wf := gather_S8x128_S1600000x1_S1600000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KHost.lean ====
/-
  The host operations of the kernel's program between its four kernel launches, as functions of arrays.
  src and dst are the two rows of the edge list. The edge-type column is padded with zeros to a whole number of
  8192-row blocks before the lookup kernel and the looked-up rows are cut back to the 1,600,000 edges after it.
  A message-passing step takes node features h and per-edge rows ea: every edge e carries relu(h(src e) + ea(e)),
  the messages are summed into their destination nodes, and (1 + eps) * h is added. The gather of h(src e) is the
  filling kind: a start index outside the rows (after a negative index has been wrapped once) reads a fill value
  instead of a row.
-/
import proofs.«427217_j52106543235221_1_alg».proof.KernelIdeal
import proofs.«427217_j52106543235221_1_alg».proof.Proof.Gen.KernelIdeal

noncomputable section

namespace Cert.KernelIdeal.HostValue

open Cert.KernelIdeal Cert.KernelIdeal.Gen Idealize.ShloMosaic

variable {F : FTy → Type} [FloatOps F]

/-- Row 0 of the edge list: the source node of every edge. -/
def srcOf (ei : IVec S2x1600000 32) : IVec S1600000 32 :=
  shapeCast S1600000 (extractStridedSlice S1x1600000 ![0, 0] ei slices_S2x1600000_S1x1600000_0_0) shapeCasts_S1x1600000_S1600000

/-- Row 1 of the edge list: the destination node of every edge. -/
def dstOf (ei : IVec S2x1600000 32) : IVec S1600000 32 :=
  shapeCast S1600000 (extractStridedSlice S1x1600000 ![1, 0] ei slices_S2x1600000_S1x1600000_1_0) shapeCasts_S1x1600000_S1600000

/-- The edge types followed by 5632 zeros. -/
def padAttr (attr : IVec S1600000 32) : IVec S1605632 32 :=
  pad S1605632 ![0] ![5632] ![0] attr (id (constantI S_ 32 0#32)) pads_S1600000_S1605632_056320 h_S_

/-- The first 1,600,000 rows. -/
def sliceEA (a : FVec F S1605632x128 .f32) : FVec F S1600000x128 .f32 :=
  extractStridedSlice S1600000x128 ![0, 0] a slices_S1605632x128_S1600000x128_0_0

/-- A source index with a negative value wrapped once by the number of nodes. -/
def wrapSrc (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The wrapped source indices as a column of start indices. -/
def takeIdx (src : IVec S1600000 32) : IVec S1600000x1 32 :=
  broadcastInDim S1600000x1 ![0] bcast_S1600000_S1600000x1_0 (wrapSrc src)

/-- Which edges' start index lies inside the rows 0 .. 99999. -/
def takeMask (src : IVec S1600000 32) : IVec S1600000 1 :=
  Host.reduce IntOp.andi
    (andi (cmpi .sge (takeIdx src) (broadcastInDim S1600000x1 ![] bcast_S_S1600000x1 (constantI S_ 32 0#32)))
      (cmpi .sle (takeIdx src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The filling gather of the rows h(src e). -/
def kTake (h : FVec F S100000x128 .f32) (src : IVec S1600000 32) : FVec F S1600000x128 .f32 :=
  select (broadcastInDim S1600000x128 ![0] bcast_S1600000_S1600000x128_0 (takeMask src))
    (Host.gather gather_S100000x128_S1600000x1_S1600000x128_1_0_n_n_0_1_1128 h (takeIdx src))
    (broadcastInDim S1600000x128 ![] bcast_S_S1600000x128 (constant S_ .f32 0x7FC00000#32))

/-- One message-passing step's input to the perceptron: (1 + eps) * h + sum over edges into dst of relu(h(src) + ea). -/
def kLayer (eps : FVec F S_ .f32) (h : FVec F S100000x128 .f32) (src dst : IVec S1600000 32)
    (ea : FVec F S1600000x128 .f32) : FVec F S100000x128 .f32 :=
  addf (mulf (broadcastInDim S100000x128 ![] bcast_S_S100000x128 (addf (constant S_ .f32 0x3F800000#32) eps)) h)
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (maximumf (addf (kTake h src) ea) (broadcastInDim S1600000x128 ![] bcast_S_S1600000x128 (constant S_ .f32 0x00000000#32))))

end Cert.KernelIdeal.HostValue

end
-- ==== Proof.Keeps.lean ====
/-
  For every stretch of host operations between the kernel launches: the list of buffers the stretch writes, that each
  of its operations writes only a buffer of that list, and hence that any other buffer keeps its contents across it.
-/
import proofs.«427217_j52106543235221_1_alg».proof.Proof.Gen.KernelIdeal.Launch
import Idealize.ShloMosaic.Lib.StableHlo.Run

set_option maxRecDepth 16384

noncomputable section

namespace Cert.KernelIdeal.Keeps

open Cert.KernelIdeal Cert.KernelIdeal.Gen
open Idealize.ShloMosaic Idealize.ShloMosaic.TcCoe Idealize.SL.Sem Idealize.ShloMosaic.StableHlo

variable {F : FTy → Type} [FloatOps F]

/-- The buffers the host stretch 0 writes. -/
abbrev wl0 : List (Ref sig .tc) := [main_v0, main_v1, main_v2, main_v3]
/-- Each operation of the stretch writes one of them. -/
theorem wsub0 : (hostOps0 : List (HloOp τ sig (Elt F))).Forall fun op => op.writes ⊆ (wl0.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch does not write keeps its contents across it. -/
theorem kp0 (W : Valuation τ sig (Elt F)) (r : Ref sig .tc) (h : r ∉ wl0) :
    StableHlo.after hostOps0 W (Proc.devRef .tc r) = W (Proc.devRef .tc r) :=
  StableHlo.after_of_writes_sub hostOps0 W wsub0 h

/-- The buffers the host stretch 1 writes. -/
abbrev wl1 : List (Ref sig .tc) := [main_c]
/-- Each operation of the stretch writes one of them. -/
theorem wsub1 : (hostOps1 : List (HloOp τ sig (Elt F))).Forall fun op => op.writes ⊆ (wl1.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch does not write keeps its contents across it. -/
theorem kp1 (W : Valuation τ sig (Elt F)) (r : Ref sig .tc) (h : r ∉ wl1) :
    StableHlo.after hostOps1 W (Proc.devRef .tc r) = W (Proc.devRef .tc r) :=
  StableHlo.after_of_writes_sub hostOps1 W wsub1 h

/-- The buffers the host stretch 1_1 writes. -/
abbrev wl1_1 : List (Ref sig .tc) := [main_call0_v0, main_v5]
/-- Each operation of the stretch writes one of them. -/
theorem wsub1_1 : (hostOps1_1 : List (HloOp τ sig (Elt F))).Forall fun op => op.writes ⊆ (wl1_1.map (Proc.devRef (τ := τ) .tc)).toFinset := by
  simp only [hostOps1_1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch does not write keeps its contents across it. -/
theorem kp1_1 (W : Valuation τ sig (Elt F)) (r : Ref sig .tc) (h : r ∉ wl1_1) :
    StableHlo.after hostOps1_1 W (Proc.devRef .tc r) = W (Proc.devRef .tc r) :=
  StableHlo.after_of_writes_sub hostOps1_1 W wsub1_1 h

/-- The buffers the host stretch 2 writes. -/
abbrev wl2 : List (Ref sig .tc) := [main_v7]
/-- Each operation of the stretch writes one of them. -/
theorem wsub2 : (hostOps2 : List (HloOp τ sig (Elt F))).Forall fun op => op.writes ⊆ (wl2.map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch does not write keeps its contents across it. -/
theorem kp2 (W : Valuation τ sig (Elt F)) (r : Ref sig .tc) (h : r ∉ wl2) :
    StableHlo.after hostOps2 W (Proc.devRef .tc r) = W (Proc.devRef .tc r) :=
  StableHlo.after_of_writes_sub hostOps2 W wsub2 h

/-- The buffers the host stretch 2_1 writes. -/
abbrev wl2_1 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]
/-- Each operation of the stretch writes one of them. -/
theorem wsub2_1 : (hostOps2_1 : List (HloOp τ sig (Elt F))).Forall fun op => op.writes ⊆ (wl2_1.map (Proc.devRef (τ := τ) .tc)).toFinset := by
  simp only [hostOps2_1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch does not write keeps its contents across it. -/
theorem kp2_1 (W : Valuation τ sig (Elt F)) (r : Ref sig .tc) (h : r ∉ wl2_1) :
    StableHlo.after hostOps2_1 W (Proc.devRef .tc r) = W (Proc.devRef .tc r) :=
  StableHlo.after_of_writes_sub hostOps2_1 W wsub2_1 h

/-- The buffers the host stretch 2_2 writes. -/
abbrev wl2_2 : List (Ref sig .tc) := [main_v9]
/-- Each operation of the stretch writes one of them. -/
theorem wsub2_2 : (hostOps2_2 : List (HloOp τ sig (Elt F))).Forall fun op => op.writes ⊆ (wl2_2.map (Proc.devRef (τ := τ) .tc)).toFinset := by
  simp only [hostOps2_2, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch does not write keeps its contents across it. -/
theorem kp2_2 (W : Valuation τ sig (Elt F)) (r : Ref sig .tc) (h : r ∉ wl2_2) :
    StableHlo.after hostOps2_2 W (Proc.devRef .tc r) = W (Proc.devRef .tc r) :=
  StableHlo.after_of_writes_sub hostOps2_2 W wsub2_2 h

/-- The buffers the host stretch 2_3 writes. -/
abbrev wl2_3 : List (Ref sig .tc) := [main_call2_cst, main_call2_v0, main_v10]
/-- Each operation of the stretch writes one of them. -/
theorem wsub2_3 : (hostOps2_3 : List (HloOp τ sig (Elt F))).Forall fun op => op.writes ⊆ (wl2_3.map (Proc.devRef (τ := τ) .tc)).toFinset := by
  simp only [hostOps2_3, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch does not write keeps its contents across it. -/
theorem kp2_3 (W : Valuation τ sig (Elt F)) (r : Ref sig .tc) (h : r ∉ wl2_3) :
    StableHlo.after hostOps2_3 W (Proc.devRef .tc r) = W (Proc.devRef .tc r) :=
  StableHlo.after_of_writes_sub hostOps2_3 W wsub2_3 h

/-- The buffers the host stretch 2_4 writes. -/
abbrev wl2_4 : List (Ref sig .tc) := [main_cst, main_v11, main_v12, main_v13, main_cst_0, main_v14, main_v15, main_v16, main_v17]
/-- Each operation of the stretch writes one of them. -/
theorem wsub2_4 : (hostOps2_4 : List (HloOp τ sig (Elt F))).Forall fun op => op.writes ⊆ (wl2_4.map (Proc.devRef (τ := τ) .tc)).toFinset := by
  simp only [hostOps2_4, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch does not write keeps its contents across it. -/
theorem kp2_4 (W : Valuation τ sig (Elt F)) (r : Ref sig .tc) (h : r ∉ wl2_4) :
    StableHlo.after hostOps2_4 W (Proc.devRef .tc r) = W (Proc.devRef .tc r) :=
  StableHlo.after_of_writes_sub hostOps2_4 W wsub2_4 h

/-- The buffers the host stretch 3 writes. -/
abbrev wl3 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v19]
/-- Each operation of the stretch writes one of them. -/
theorem wsub3 : (hostOps3 : List (HloOp τ sig (Elt F))).Forall fun op => op.writes ⊆ (wl3.map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch does not write keeps its contents across it. -/
theorem kp3 (W : Valuation τ sig (Elt F)) (r : Ref sig .tc) (h : r ∉ wl3) :
    StableHlo.after hostOps3 W (Proc.devRef .tc r) = W (Proc.devRef .tc r) :=
  StableHlo.after_of_writes_sub hostOps3 W wsub3 h

/-- The buffers the host stretch 3_1 writes. -/
abbrev wl3_1 : List (Ref sig .tc) := [main_v20]
/-- Each operation of the stretch writes one of them. -/
theorem wsub3_1 : (hostOps3_1 : List (HloOp τ sig (Elt F))).Forall fun op => op.writes ⊆ (wl3_1.map (Proc.devRef (τ := τ) .tc)).toFinset := by
  simp only [hostOps3_1, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch does not write keeps its contents across it. -/
theorem kp3_1 (W : Valuation τ sig (Elt F)) (r : Ref sig .tc) (h : r ∉ wl3_1) :
    StableHlo.after hostOps3_1 W (Proc.devRef .tc r) = W (Proc.devRef .tc r) :=
  StableHlo.after_of_writes_sub hostOps3_1 W wsub3_1 h

/-- The buffers the host stretch 3_2 writes. -/
abbrev wl3_2 : List (Ref sig .tc) := [main_call4_cst, main_call4_v0, main_v21]
/-- Each operation of the stretch writes one of them. -/
theorem wsub3_2 : (hostOps3_2 : List (HloOp τ sig (Elt F))).Forall fun op => op.writes ⊆ (wl3_2.map (Proc.devRef (τ := τ) .tc)).toFinset := by
  simp only [hostOps3_2, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch does not write keeps its contents across it. -/
theorem kp3_2 (W : Valuation τ sig (Elt F)) (r : Ref sig .tc) (h : r ∉ wl3_2) :
    StableHlo.after hostOps3_2 W (Proc.devRef .tc r) = W (Proc.devRef .tc r) :=
  StableHlo.after_of_writes_sub hostOps3_2 W wsub3_2 h

/-- The buffers the host stretch 3_3 writes. -/
abbrev wl3_3 : List (Ref sig .tc) := [main_cst_1, main_v22, main_v23, main_v24, main_cst_2, main_v25, main_v26, main_v27, main_v28]
/-- Each operation of the stretch writes one of them. -/
theorem wsub3_3 : (hostOps3_3 : List (HloOp τ sig (Elt F))).Forall fun op => op.writes ⊆ (wl3_3.map (Proc.devRef (τ := τ) .tc)).toFinset := by
  simp only [hostOps3_3, List.Forall, StableHlo.nullary_writes, StableHlo.unary_writes, StableHlo.binary_writes, StableHlo.ternary_writes, StableHlo.reshape_writes]
  repeat' apply And.intro
  all_goals exact Finset.singleton_subset_iff.mpr (List.mem_toFinset.mpr (List.mem_map_of_mem (by decide)))
/-- A buffer the stretch does not write keeps its contents across it. -/
theorem kp3_3 (W : Valuation τ sig (Elt F)) (r : Ref sig .tc) (h : r ∉ wl3_3) :
    StableHlo.after hostOps3_3 W (Proc.devRef .tc r) = W (Proc.devRef .tc r) :=
  StableHlo.after_of_writes_sub hostOps3_3 W wsub3_3 h

end Cert.KernelIdeal.Keeps

end
-- ==== Proof.TakeRead1.lean ====
/-
  The filling gather's 23 host operations read as one function. The stretch is cut in three: the operations that
  make the column of start indices (a negative index wrapped once), the operations that test each start index
  against the rows 0 .. 99999, and the gather itself with the select that puts the fill value where the test fails.
  Each part is read by itself and the parts are put together.
-/
import proofs.«427217_j52106543235221_1_alg».proof.Proof.Gen.KernelIdeal.Launch
import proofs.«427217_j52106543235221_1_alg».proof.Proof.KHost
import Idealize.ShloMosaic.Lib.StableHlo.Run

set_option maxRecDepth 16384

noncomputable section

namespace Cert.KernelIdeal.TakeRead1

open Cert.KernelIdeal Cert.KernelIdeal.Gen Cert.KernelIdeal.HostValue
open Idealize.ShloMosaic Idealize.ShloMosaic.TcCoe Idealize.SL.Sem Idealize.ShloMosaic.StableHlo

variable {F : FTy → Type} [FloatOps F]

/-- Operations run one list after another are the concatenated list run at once. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- The operations that make the column of start indices. -/
abbrev opsIdx : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1600000, .i32⟩) (broadcastInDim S1600000 ![] bcast_S_S1600000),
    StableHlo.TRef.binary (.of main_v1 : StableHlo.TRef sig ⟨S1600000, .i32⟩) (.of main_call1_v0 : StableHlo.TRef sig ⟨S1600000, .i32⟩) (.of main_call1_v1 : StableHlo.TRef sig ⟨S1600000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S1600000, .i32⟩) (broadcastInDim S1600000 ![] bcast_S_S1600000),
    StableHlo.TRef.binary (.of main_v1 : StableHlo.TRef sig ⟨S1600000, .i32⟩) (.of main_call1_v2 : StableHlo.TRef sig ⟨S1600000, .i32⟩) (.of main_call1_v3 : StableHlo.TRef sig ⟨S1600000, .i32⟩) addi,
    StableHlo.TRef.ternary (.of main_call1_v1 : StableHlo.TRef sig ⟨S1600000, .i1⟩) (.of main_call1_v3 : StableHlo.TRef sig ⟨S1600000, .i32⟩) (.of main_v1 : StableHlo.TRef sig ⟨S1600000, .i32⟩) (.of main_call1_v4 : StableHlo.TRef sig ⟨S1600000, .i32⟩) select,
    StableHlo.TRef.unary main_call1_call0.v0 (.of main_call1_v5 : StableHlo.TRef sig ⟨S1600000x1, .i32⟩) (broadcastInDim S1600000x1 ![0] bcast_S1600000_S1600000x1_0) ]
/-- The operations that test the start indices against the rows. -/
abbrev opsMask : List (HloOp τ sig (Elt F)) :=
  [ StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1600000x1, .i32⟩) (broadcastInDim S1600000x1 ![] bcast_S_S1600000x1),
    StableHlo.TRef.binary (.of main_call1_v5 : StableHlo.TRef sig ⟨S1600000x1, .i32⟩) (.of main_call1_v6 : StableHlo.TRef sig ⟨S1600000x1, .i32⟩) (.of main_call1_v7 : StableHlo.TRef sig ⟨S1600000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1600000x1, .i32⟩) (broadcastInDim S1600000x1 ![0, 1] bcast_S1x1_S1600000x1_0_1),
    StableHlo.TRef.binary (.of main_call1_v5 : StableHlo.TRef sig ⟨S1600000x1, .i32⟩) (.of main_call1_v9 : StableHlo.TRef sig ⟨S1600000x1, .i32⟩) (.of main_call1_v10 : StableHlo.TRef sig ⟨S1600000x1, .i1⟩) (cmpi .sle),
    StableHlo.TRef.binary (.of main_call1_v7 : StableHlo.TRef sig ⟨S1600000x1, .i1⟩) (.of main_call1_v10 : StableHlo.TRef sig ⟨S1600000x1, .i1⟩) (.of main_call1_v11 : StableHlo.TRef sig ⟨S1600000x1, .i1⟩) andi,
    StableHlo.TRef.nullary (.of main_call1_c_3 : StableHlo.TRef sig ⟨S_, .i1⟩) (constantI S_ 1 1#1),
    StableHlo.TRef.binary (.of main_call1_v11 : StableHlo.TRef sig ⟨S1600000x1, .i1⟩) (.of main_call1_c_3 : StableHlo.TRef sig ⟨S_, .i1⟩) (.of main_call1_v12 : StableHlo.TRef sig ⟨S1600000, .i1⟩) (fun x v => Host.reduce IntOp.andi x v reducesTo_S1600000x1_S1600000_d1 h_S_) ]
/-- The gather and the select that fills. -/
abbrev opsSel : List (HloOp τ sig (Elt F)) :=
  [ StableHlo.TRef.binary (.of main_v4 : StableHlo.TRef sig ⟨S100000x128, .f32⟩) (.of main_call1_v5 : StableHlo.TRef sig ⟨S1600000x1, .i32⟩) (.of main_call1_v13 : StableHlo.TRef sig ⟨S1600000x128, .f32⟩) (fun x i => Host.gather gather_S100000x128_S1600000x1_S1600000x128_1_0_n_n_0_1_1128 x i),
    StableHlo.TRef.unary (.of main_call1_v12 : StableHlo.TRef sig ⟨S1600000, .i1⟩) (.of main_call1_v14 : StableHlo.TRef sig ⟨S1600000x128, .i1⟩) (broadcastInDim S1600000x128 ![0] bcast_S1600000_S1600000x128_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S1600000x128, .f32⟩) (broadcastInDim S1600000x128 ![] bcast_S_S1600000x128),
    StableHlo.TRef.ternary (.of main_call1_v14 : StableHlo.TRef sig ⟨S1600000x128, .i1⟩) (.of main_call1_v13 : StableHlo.TRef sig ⟨S1600000x128, .f32⟩) (.of main_call1_v15 : StableHlo.TRef sig ⟨S1600000x128, .f32⟩) (.of main_v8 : StableHlo.TRef sig ⟨S1600000x128, .f32⟩) select ]

theorem split : (hostOps2_1 : List (HloOp τ sig (Elt F))) = opsIdx ++ (opsMask ++ opsSel) := rfl

theorem idx_read (W : Valuation τ sig (Elt F)) :
    StableHlo.after opsIdx W (Proc.devRef .tc main_call1_v5) = takeIdx (W (Proc.devRef .tc main_v1)) := by
  after_results
  rfl

theorem idx_keep (W : Valuation τ sig (Elt F)) :
    StableHlo.after opsIdx W (Proc.devRef .tc main_v4) = W (Proc.devRef .tc main_v4) := by
  after_results

theorem mask_read (W : Valuation τ sig (Elt F)) :
    StableHlo.after opsMask W (Proc.devRef .tc main_call1_v12)
      = Host.reduce IntOp.andi
          (andi (cmpi .sge (W (Proc.devRef .tc main_call1_v5)) (broadcastInDim S1600000x1 ![] bcast_S_S1600000x1 (constantI S_ 32 0#32)))
            (cmpi .sle (W (Proc.devRef .tc main_call1_v5)) (broadcastInDim S1600000x1 ![0, 1] bcast_S1x1_S1600000x1_0_1
              (broadcastInDim S1x1 ![1] bcast_S1_S1x1_1 (constantI S1 32 99999#32)))))
          (constantI S_ 1 1#1) reducesTo_S1600000x1_S1600000_d1 h_S_ := by
  after_results
  simp only [TRef.toBuf, TRef.ofBuf, cast_eq]

theorem mask_keep_idx (W : Valuation τ sig (Elt F)) :
    StableHlo.after opsMask W (Proc.devRef .tc main_call1_v5) = W (Proc.devRef .tc main_call1_v5) := by
  after_results

theorem mask_keep_h (W : Valuation τ sig (Elt F)) :
    StableHlo.after opsMask W (Proc.devRef .tc main_v4) = W (Proc.devRef .tc main_v4) := by
  after_results

theorem sel_read (W : Valuation τ sig (Elt F)) :
    StableHlo.after opsSel W (Proc.devRef .tc main_v8)
      = select (broadcastInDim S1600000x128 ![0] bcast_S1600000_S1600000x128_0 (W (Proc.devRef .tc main_call1_v12)))
          (Host.gather gather_S100000x128_S1600000x1_S1600000x128_1_0_n_n_0_1_1128 (W (Proc.devRef .tc main_v4)) (W (Proc.devRef .tc main_call1_v5)))
          (broadcastInDim S1600000x128 ![] bcast_S_S1600000x128 (constant S_ .f32 0x7FC00000#32)) := by
  after_results
  rfl

/-- The whole stretch leaves the filling gather of h at the source indices. -/
theorem take_read (W : Valuation τ sig (Elt F)) :
    StableHlo.after hostOps2_1 W (Proc.devRef .tc main_v8) = kTake (W (Proc.devRef .tc main_v4)) (W (Proc.devRef .tc main_v1)) := by
  rw [split, after_append, after_append, sel_read, mask_read, mask_keep_h, mask_keep_idx, idx_read, idx_keep]
  rfl

end Cert.KernelIdeal.TakeRead1

end
-- ==== Proof.TakeRead3.lean ====
/-
  The filling gather's 23 host operations read as one function. The stretch is cut in three: the operations that
  make the column of start indices (a negative index wrapped once), the operations that test each start index
  against the rows 0 .. 99999, and the gather itself with the select that puts the fill value where the test fails.
  Each part is read by itself and the parts are put together.
-/
import proofs.«427217_j52106543235221_1_alg».proof.Proof.Gen.KernelIdeal.Launch
import proofs.«427217_j52106543235221_1_alg».proof.Proof.KHost
import Idealize.ShloMosaic.Lib.StableHlo.Run

set_option maxRecDepth 16384

noncomputable section

namespace Cert.KernelIdeal.TakeRead3

open Cert.KernelIdeal Cert.KernelIdeal.Gen Cert.KernelIdeal.HostValue
open Idealize.ShloMosaic Idealize.ShloMosaic.TcCoe Idealize.SL.Sem Idealize.ShloMosaic.StableHlo

variable {F : FTy → Type} [FloatOps F]

/-- Operations run one list after another are the concatenated list run at once. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-- The operations that make the column of start indices. -/
abbrev opsIdx : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S1600000, .i32⟩) (broadcastInDim S1600000 ![] bcast_S_S1600000),
    StableHlo.TRef.binary (.of main_v1 : StableHlo.TRef sig ⟨S1600000, .i32⟩) (.of main_call3_v0 : StableHlo.TRef sig ⟨S1600000, .i32⟩) (.of main_call3_v1 : StableHlo.TRef sig ⟨S1600000, .i1⟩) (cmpi .slt),
    StableHlo.TRef.nullary (.of main_call3_c_0 : StableHlo.TRef sig ⟨S_, .i32⟩) (constantI S_ 32 100000#32),
    StableHlo.TRef.unary (.of main_call3_c_0 : StableHlo.TRef sig ⟨S_, .i32⟩) (.of main_call3_v2 : StableHlo.TRef sig ⟨S1600000, .i32⟩) (broadcastInDim S1600000 ![] bcast_S_S1600000),
    StableHlo.TRef.binary (.of main_v1 : StableHlo.TRef sig ⟨S1600000, .i32⟩) (.of main_call3_v2 : StableHlo.TRef sig ⟨S1600000, .i32⟩) (.of main_call3_v3 : StableHlo.TRef sig ⟨S1600000, .i32⟩) addi,
    StableHlo.TRef.ternary (.of main_call3_v1 : StableHlo.TRef sig ⟨S1600000, .i1⟩) (.of main_call3_v3 : StableHlo.TRef sig ⟨S1600000, .i32⟩) (.of main_v1 : StableHlo.TRef sig ⟨S1600000, .i32⟩) (.of main_call3_v4 : StableHlo.TRef sig ⟨S1600000, .i32⟩) select,
    StableHlo.TRef.unary main_call3_call0.v0 (.of main_call3_v5 : StableHlo.TRef sig ⟨S1600000x1, .i32⟩) (broadcastInDim S1600000x1 ![0] bcast_S1600000_S1600000x1_0) ]
/-- The operations that test the start indices against the rows. -/
abbrev opsMask : List (HloOp τ sig (Elt F)) :=
  [ StableHlo.TRef.nullary (.of main_call3_c_1 : StableHlo.TRef sig ⟨S1, .i32⟩) (constantI S1 32 99999#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S1600000x1, .i32⟩) (broadcastInDim S1600000x1 ![] bcast_S_S1600000x1),
    StableHlo.TRef.binary (.of main_call3_v5 : StableHlo.TRef sig ⟨S1600000x1, .i32⟩) (.of main_call3_v6 : StableHlo.TRef sig ⟨S1600000x1, .i32⟩) (.of main_call3_v7 : StableHlo.TRef sig ⟨S1600000x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S1600000x1, .i32⟩) (broadcastInDim S1600000x1 ![0, 1] bcast_S1x1_S1600000x1_0_1),
    StableHlo.TRef.binary (.of main_call3_v5 : StableHlo.TRef sig ⟨S1600000x1, .i32⟩) (.of main_call3_v9 : StableHlo.TRef sig ⟨S1600000x1, .i32⟩) (.of main_call3_v10 : StableHlo.TRef sig ⟨S1600000x1, .i1⟩) (cmpi .sle),
    StableHlo.TRef.binary (.of main_call3_v7 : StableHlo.TRef sig ⟨S1600000x1, .i1⟩) (.of main_call3_v10 : StableHlo.TRef sig ⟨S1600000x1, .i1⟩) (.of main_call3_v11 : StableHlo.TRef sig ⟨S1600000x1, .i1⟩) andi,
    StableHlo.TRef.nullary (.of main_call3_c_3 : StableHlo.TRef sig ⟨S_, .i1⟩) (constantI S_ 1 1#1),
    StableHlo.TRef.binary (.of main_call3_v11 : StableHlo.TRef sig ⟨S1600000x1, .i1⟩) (.of main_call3_c_3 : StableHlo.TRef sig ⟨S_, .i1⟩) (.of main_call3_v12 : StableHlo.TRef sig ⟨S1600000, .i1⟩) (fun x v => Host.reduce IntOp.andi x v reducesTo_S1600000x1_S1600000_d1 h_S_) ]
/-- The gather and the select that fills. -/
abbrev opsSel : List (HloOp τ sig (Elt F)) :=
  [ StableHlo.TRef.binary (.of main_v18 : StableHlo.TRef sig ⟨S100000x128, .f32⟩) (.of main_call3_v5 : StableHlo.TRef sig ⟨S1600000x1, .i32⟩) (.of main_call3_v13 : StableHlo.TRef sig ⟨S1600000x128, .f32⟩) (fun x i => Host.gather gather_S100000x128_S1600000x1_S1600000x128_1_0_n_n_0_1_1128 x i),
    StableHlo.TRef.unary (.of main_call3_v12 : StableHlo.TRef sig ⟨S1600000, .i1⟩) (.of main_call3_v14 : StableHlo.TRef sig ⟨S1600000x128, .i1⟩) (broadcastInDim S1600000x128 ![0] bcast_S1600000_S1600000x128_0),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S1600000x128, .f32⟩) (broadcastInDim S1600000x128 ![] bcast_S_S1600000x128),
    StableHlo.TRef.ternary (.of main_call3_v14 : StableHlo.TRef sig ⟨S1600000x128, .i1⟩) (.of main_call3_v13 : StableHlo.TRef sig ⟨S1600000x128, .f32⟩) (.of main_call3_v15 : StableHlo.TRef sig ⟨S1600000x128, .f32⟩) (.of main_v19 : StableHlo.TRef sig ⟨S1600000x128, .f32⟩) select ]

theorem split : (hostOps3 : List (HloOp τ sig (Elt F))) = opsIdx ++ (opsMask ++ opsSel) := rfl

theorem idx_read (W : Valuation τ sig (Elt F)) :
    StableHlo.after opsIdx W (Proc.devRef .tc main_call3_v5) = takeIdx (W (Proc.devRef .tc main_v1)) := by
  after_results
  rfl

theorem idx_keep (W : Valuation τ sig (Elt F)) :
    StableHlo.after opsIdx W (Proc.devRef .tc main_v18) = W (Proc.devRef .tc main_v18) := by
  after_results

theorem mask_read (W : Valuation τ sig (Elt F)) :
    StableHlo.after opsMask W (Proc.devRef .tc main_call3_v12)
      = Host.reduce IntOp.andi
          (andi (cmpi .sge (W (Proc.devRef .tc main_call3_v5)) (broadcastInDim S1600000x1 ![] bcast_S_S1600000x1 (constantI S_ 32 0#32)))
            (cmpi .sle (W (Proc.devRef .tc main_call3_v5)) (broadcastInDim S1600000x1 ![0, 1] bcast_S1x1_S1600000x1_0_1
              (broadcastInDim S1x1 ![1] bcast_S1_S1x1_1 (constantI S1 32 99999#32)))))
          (constantI S_ 1 1#1) reducesTo_S1600000x1_S1600000_d1 h_S_ := by
  after_results
  simp only [TRef.toBuf, TRef.ofBuf, cast_eq]

theorem mask_keep_idx (W : Valuation τ sig (Elt F)) :
    StableHlo.after opsMask W (Proc.devRef .tc main_call3_v5) = W (Proc.devRef .tc main_call3_v5) := by
  after_results

theorem mask_keep_h (W : Valuation τ sig (Elt F)) :
    StableHlo.after opsMask W (Proc.devRef .tc main_v18) = W (Proc.devRef .tc main_v18) := by
  after_results

theorem sel_read (W : Valuation τ sig (Elt F)) :
    StableHlo.after opsSel W (Proc.devRef .tc main_v19)
      = select (broadcastInDim S1600000x128 ![0] bcast_S1600000_S1600000x128_0 (W (Proc.devRef .tc main_call3_v12)))
          (Host.gather gather_S100000x128_S1600000x1_S1600000x128_1_0_n_n_0_1_1128 (W (Proc.devRef .tc main_v18)) (W (Proc.devRef .tc main_call3_v5)))
          (broadcastInDim S1600000x128 ![] bcast_S_S1600000x128 (constant S_ .f32 0x7FC00000#32)) := by
  after_results
  rfl

/-- The whole stretch leaves the filling gather of h at the source indices. -/
theorem take_read (W : Valuation τ sig (Elt F)) :
    StableHlo.after hostOps3 W (Proc.devRef .tc main_v19) = kTake (W (Proc.devRef .tc main_v18)) (W (Proc.devRef .tc main_v1)) := by
  rw [split, after_append, after_append, sel_read, mask_read, mask_keep_h, mask_keep_idx, idx_read, idx_keep]
  rfl

end Cert.KernelIdeal.TakeRead3

end
-- ==== Proof.Reads.lean ====
/-
  What every kernel launch of the program finds in its input arrays, and what the program returns, as functions of the
  launch memory. The buffer contents at the boundaries between host stretches and kernel launches form a chain; a
  buffer is followed back along the chain to the operation that wrote it (a host stretch's operations are read as one
  function of what the stretch found) or, when nothing on the way writes it, to the launch memory.
-/
import proofs.«427217_j52106543235221_1_alg».proof.Proof.Gen.KernelIdeal.Frame
import proofs.«427217_j52106543235221_1_alg».proof.Proof.KHost
import proofs.«427217_j52106543235221_1_alg».proof.Proof.Keeps
import proofs.«427217_j52106543235221_1_alg».proof.Proof.TakeRead1
import proofs.«427217_j52106543235221_1_alg».proof.Proof.TakeRead3
import Idealize.ShloMosaic.Lib.StableHlo.Run

set_option maxRecDepth 16384

noncomputable section

namespace Cert.KernelIdeal.Reads

open Cert.KernelIdeal Cert.KernelIdeal.Gen Cert.KernelIdeal.HostValue Cert.KernelIdeal.Keeps
open Idealize.ShloMosaic Idealize.ShloMosaic.TcCoe Idealize.SL.Sem Idealize.ShloMosaic.StableHlo
open Idealize.ShloMosaic.Pipeline (Dat Cfg Window)

variable {F : FTy → Type} [FloatOps F]

/-! ## Each host stretch read as a function of what it found -/

theorem src_read (W : Valuation τ sig (Elt F)) :
    StableHlo.after hostOps0 W (Proc.devRef .tc main_v1) = srcOf (W (Proc.devRef .tc main_arg1)) := by
  after_results
  rfl

theorem dst_read (W : Valuation τ sig (Elt F)) :
    StableHlo.after hostOps0 W (Proc.devRef .tc main_v3) = dstOf (W (Proc.devRef .tc main_arg1)) := by
  after_results
  rfl

theorem pad_read (W : Valuation τ sig (Elt F)) :
    StableHlo.after hostOps1_1 (StableHlo.after hostOps1 W) (Proc.devRef .tc main_v5) = padAttr (W (Proc.devRef .tc main_arg2)) := by
  after_results
  rfl

theorem slice_read (W : Valuation τ sig (Elt F)) :
    StableHlo.after hostOps2 W (Proc.devRef .tc main_v7) = sliceEA (W (Proc.devRef .tc main_v6)) := by
  after_results
  rfl

theorem add_read1 (W : Valuation τ sig (Elt F)) :
    StableHlo.after hostOps2_2 W (Proc.devRef .tc main_v9) = addf (W (Proc.devRef .tc main_v8)) (W (Proc.devRef .tc main_v7)) := by
  after_results

theorem relu_read1 (W : Valuation τ sig (Elt F)) :
    StableHlo.after hostOps2_3 W (Proc.devRef .tc main_v10)
      = maximumf (W (Proc.devRef .tc main_v9)) (broadcastInDim S1600000x128 ![] bcast_S_S1600000x128 (constant S_ .f32 0x00000000#32)) := by
  after_results
  rfl

theorem tail_read1 (W : Valuation τ sig (Elt F)) :
    StableHlo.after hostOps2_4 W (Proc.devRef .tc main_v17)
      = addf (mulf (broadcastInDim S100000x128 ![] bcast_S_S100000x128 (addf (constant S_ .f32 0x3F800000#32) (W (Proc.devRef .tc main_arg6)))) (W (Proc.devRef .tc main_v4)))
          (Host.scatterAdd scatter_S100000x128_S1600000x1_S1600000x128_1_0_0_1
            (broadcastInDim S100000x128 ![] bcast_S_S100000x128 (constant S_ .f32 0x00000000#32))
            (broadcastInDim S1600000x1 ![0] bcast_S1600000_S1600000x1_0 (W (Proc.devRef .tc main_v3)))
            (W (Proc.devRef .tc main_v10))) := by
  after_results

theorem add_read2 (W : Valuation τ sig (Elt F)) :
    StableHlo.after hostOps3_1 W (Proc.devRef .tc main_v20) = addf (W (Proc.devRef .tc main_v19)) (W (Proc.devRef .tc main_v7)) := by
  after_results

theorem relu_read2 (W : Valuation τ sig (Elt F)) :
    StableHlo.after hostOps3_2 W (Proc.devRef .tc main_v21)
      = maximumf (W (Proc.devRef .tc main_v20)) (broadcastInDim S1600000x128 ![] bcast_S_S1600000x128 (constant S_ .f32 0x00000000#32)) := by
  after_results
  rfl

theorem tail_read2 (W : Valuation τ sig (Elt F)) :
    StableHlo.after hostOps3_3 W (Proc.devRef .tc main_v28)
      = addf (mulf (broadcastInDim S100000x128 ![] bcast_S_S100000x128 (addf (constant S_ .f32 0x3F800000#32) (W (Proc.devRef .tc main_arg7)))) (W (Proc.devRef .tc main_v18)))
          (Host.scatterAdd scatter_S100000x128_S1600000x1_S1600000x128_1_0_0_1
            (broadcastInDim S100000x128 ![] bcast_S_S100000x128 (constant S_ .f32 0x00000000#32))
            (broadcastInDim S1600000x1 ![0] bcast_S1600000_S1600000x1_0 (W (Proc.devRef .tc main_v3)))
            (W (Proc.devRef .tc main_v21))) := by
  after_results

/-- The first message-passing step, from what the second launch left: the five stretches between the second and the
    third launch as one function. -/
theorem layer_read1 (W : Valuation τ sig (Elt F)) :
    StableHlo.after hostOps2_4 (StableHlo.after hostOps2_3 (StableHlo.after hostOps2_2 (StableHlo.after hostOps2_1
      (StableHlo.after hostOps2 W)))) (Proc.devRef .tc main_v17)
    = kLayer (W (Proc.devRef .tc main_arg6)) (W (Proc.devRef .tc main_v4)) (W (Proc.devRef .tc main_v1)) (W (Proc.devRef .tc main_v3)) (sliceEA (W (Proc.devRef .tc main_v6))) := by
  rw [tail_read1, relu_read1, add_read1, TakeRead1.take_read]
  rw [kp2_3 _ main_arg6 (by decide), kp2_2 _ main_arg6 (by decide), kp2_1 _ main_arg6 (by decide), kp2 _ main_arg6 (by decide)]
  rw [kp2_3 _ main_v4 (by decide), kp2_2 _ main_v4 (by decide), kp2_1 _ main_v4 (by decide), kp2 _ main_v4 (by decide)]
  rw [kp2_3 _ main_v3 (by decide), kp2_2 _ main_v3 (by decide), kp2_1 _ main_v3 (by decide), kp2 _ main_v3 (by decide)]
  rw [kp2 _ main_v1 (by decide), kp2_1 _ main_v7 (by decide), slice_read]
  rfl

/-- The second message-passing step, from what the third launch left. -/
theorem layer_read2 (W : Valuation τ sig (Elt F)) :
    StableHlo.after hostOps3_3 (StableHlo.after hostOps3_2 (StableHlo.after hostOps3_1 (StableHlo.after hostOps3 W))) (Proc.devRef .tc main_v28)
    = kLayer (W (Proc.devRef .tc main_arg7)) (W (Proc.devRef .tc main_v18)) (W (Proc.devRef .tc main_v1)) (W (Proc.devRef .tc main_v3)) (W (Proc.devRef .tc main_v7)) := by
  rw [tail_read2, relu_read2, add_read2, TakeRead3.take_read]
  rw [kp3_2 _ main_arg7 (by decide), kp3_1 _ main_arg7 (by decide), kp3 _ main_arg7 (by decide)]
  rw [kp3_2 _ main_v18 (by decide), kp3_1 _ main_v18 (by decide), kp3 _ main_v18 (by decide)]
  rw [kp3_2 _ main_v3 (by decide), kp3_1 _ main_v3 (by decide), kp3 _ main_v3 (by decide)]
  rw [kp3 _ main_v7 (by decide)]
  rfl

/-! ## A buffer followed back from a launch's entry -/

variable (m : (ℓ : Loc nD τ sig) → Buf (Elt F) ℓ) (ρ : Dev nD → PrngReg)

/-- From the first launch's entry back to the launch memory. -/
theorem back1 (c : Dev nD) (r : Ref sig .tc) (h0 : r ∉ wl0) :
    W1 m ρ c (Proc.devRef .tc r) = m ((c : Thread nD τ).loc r) :=
  kp0 _ r h0

/-- From the second launch's entry back to the first launch's entry, for a buffer that is no array of the first launch. -/
theorem back4 (c : Dev nD) (r : Ref sig .tc) (h1 : r ∉ wl1) (h11 : r ∉ wl1_1) (hr : ∀ w, Pipeline.arrRef spec0 w ≠ r) :
    W4 m ρ c (Proc.devRef .tc r) = W1 m ρ c (Proc.devRef .tc r) :=
  (kp1_1 _ r h11).trans ((kp1 _ r h1).trans (W2_of_ne m ρ c r hr))

/-- From the third launch's entry back to the second launch's entry, likewise. -/
theorem back10 (c : Dev nD) (r : Ref sig .tc) (h2 : r ∉ wl2) (h21 : r ∉ wl2_1) (h22 : r ∉ wl2_2) (h23 : r ∉ wl2_3) (h24 : r ∉ wl2_4)
    (hr : ∀ w, Pipeline.arrRef spec1 w ≠ r) :
    W10 m ρ c (Proc.devRef .tc r) = W4 m ρ c (Proc.devRef .tc r) :=
  (kp2_4 _ r h24).trans ((kp2_3 _ r h23).trans ((kp2_2 _ r h22).trans ((kp2_1 _ r h21).trans ((kp2 _ r h2).trans (W5_of_ne m ρ c r hr)))))

/-- From the fourth launch's entry back to the third launch's entry, likewise. -/
theorem back15 (c : Dev nD) (r : Ref sig .tc) (h3 : r ∉ wl3) (h31 : r ∉ wl3_1) (h32 : r ∉ wl3_2) (h33 : r ∉ wl3_3)
    (hr : ∀ w, Pipeline.arrRef spec2 w ≠ r) :
    W15 m ρ c (Proc.devRef .tc r) = W10 m ρ c (Proc.devRef .tc r) :=
  (kp3_3 _ r h33).trans ((kp3_2 _ r h32).trans ((kp3_1 _ r h31).trans ((kp3 _ r h3).trans (W11_of_ne m ρ c r hr))))

/-- An argument array at the second launch's entry. -/
theorem arg_at4 (c : Dev nD) (r : Ref sig .tc) (h0 : r ∉ wl0) (h1 : r ∉ wl1) (h11 : r ∉ wl1_1) (hr0 : ∀ w, Pipeline.arrRef spec0 w ≠ r) :
    W4 m ρ c (Proc.devRef .tc r) = m ((c : Thread nD τ).loc r) :=
  (back4 m ρ c r h1 h11 hr0).trans (back1 m ρ c r h0)

/-- An argument array at the third launch's entry. -/
theorem arg_at10 (c : Dev nD) (r : Ref sig .tc) (h0 : r ∉ wl0) (h1 : r ∉ wl1) (h11 : r ∉ wl1_1) (hr0 : ∀ w, Pipeline.arrRef spec0 w ≠ r)
    (h2 : r ∉ wl2) (h21 : r ∉ wl2_1) (h22 : r ∉ wl2_2) (h23 : r ∉ wl2_3) (h24 : r ∉ wl2_4) (hr1 : ∀ w, Pipeline.arrRef spec1 w ≠ r) :
    W10 m ρ c (Proc.devRef .tc r) = m ((c : Thread nD τ).loc r) :=
  (back10 m ρ c r h2 h21 h22 h23 h24 hr1).trans (arg_at4 m ρ c r h0 h1 h11 hr0)

/-- An argument array at the fourth launch's entry. -/
theorem arg_at15 (c : Dev nD) (r : Ref sig .tc) (h0 : r ∉ wl0) (h1 : r ∉ wl1) (h11 : r ∉ wl1_1) (hr0 : ∀ w, Pipeline.arrRef spec0 w ≠ r)
    (h2 : r ∉ wl2) (h21 : r ∉ wl2_1) (h22 : r ∉ wl2_2) (h23 : r ∉ wl2_3) (h24 : r ∉ wl2_4) (hr1 : ∀ w, Pipeline.arrRef spec1 w ≠ r)
    (h3 : r ∉ wl3) (h31 : r ∉ wl3_1) (h32 : r ∉ wl3_2) (h33 : r ∉ wl3_3) (hr2 : ∀ w, Pipeline.arrRef spec2 w ≠ r) :
    W15 m ρ c (Proc.devRef .tc r) = m ((c : Thread nD τ).loc r) :=
  (back15 m ρ c r h3 h31 h32 h33 hr2).trans (arg_at10 m ρ c r h0 h1 h11 hr0 h2 h21 h22 h23 h24 hr1)

/-! ## What each launch leaves, by name -/

/-- The first launch's output array: h0. -/
abbrev A0 (c : Dev nD) := (dat0 (V1 m ρ) c).arrAt 3 cfg0.N
/-- The second launch's output array: the looked-up rows, padded. -/
abbrev A1 (c : Dev nD) := (dat1 (V4 m ρ) c).arrAt 2 cfg1.N
/-- The third launch's output array: h1. -/
abbrev A2 (c : Dev nD) := (dat2 (V10 m ρ) c).arrAt 7 cfg2.N
/-- The fourth launch's output array: the result. -/
abbrev A3 (c : Dev nD) := (dat3 (V15 m ρ) c).arrAt 7 cfg3.N

/-- The source and destination rows at the first launch's entry. -/
theorem src_at1 (c : Dev nD) : W1 m ρ c (Proc.devRef .tc main_v1) = srcOf (m ((c : Thread nD τ).loc main_arg1)) := src_read _
theorem dst_at1 (c : Dev nD) : W1 m ρ c (Proc.devRef .tc main_v3) = dstOf (m ((c : Thread nD τ).loc main_arg1)) := dst_read _

/-! ## The launches' inputs -/

theorem in0_0 (c : Dev nD) : V1 m ρ c (Pipeline.arrRef spec0 0) = m ((c : Thread nD τ).loc main_arg0) := back1 m ρ c main_arg0 (by decide)
theorem in0_1 (c : Dev nD) : V1 m ρ c (Pipeline.arrRef spec0 1) = m ((c : Thread nD τ).loc main_arg3) := back1 m ρ c main_arg3 (by decide)
theorem in0_2 (c : Dev nD) : V1 m ρ c (Pipeline.arrRef spec0 2) = m ((c : Thread nD τ).loc main_arg4) := back1 m ρ c main_arg4 (by decide)

theorem in1_0 (c : Dev nD) : V4 m ρ c (Pipeline.arrRef spec1 0) = padAttr (m ((c : Thread nD τ).loc main_arg2)) :=
  (pad_read (W2 m ρ c)).trans (congrArg padAttr ((W2_of_ne m ρ c main_arg2 (by decide)).trans (back1 m ρ c main_arg2 (by decide))))
theorem in1_1 (c : Dev nD) : V4 m ρ c (Pipeline.arrRef spec1 1) = m ((c : Thread nD τ).loc main_arg5) :=
  arg_at4 m ρ c main_arg5 (by decide) (by decide) (by decide) (by decide)

/-- The source and destination rows at the third launch's entry's predecessor boundaries. -/
theorem src_at5 (c : Dev nD) : W5 m ρ c (Proc.devRef .tc main_v1) = srcOf (m ((c : Thread nD τ).loc main_arg1)) :=
  (W5_of_ne m ρ c main_v1 (by decide)).trans ((back4 m ρ c main_v1 (by decide) (by decide) (by decide)).trans (src_at1 m ρ c))
theorem dst_at5 (c : Dev nD) : W5 m ρ c (Proc.devRef .tc main_v3) = dstOf (m ((c : Thread nD τ).loc main_arg1)) :=
  (W5_of_ne m ρ c main_v3 (by decide)).trans ((back4 m ρ c main_v3 (by decide) (by decide) (by decide)).trans (dst_at1 m ρ c))
theorem src_at11 (c : Dev nD) : W11 m ρ c (Proc.devRef .tc main_v1) = srcOf (m ((c : Thread nD τ).loc main_arg1)) :=
  (W11_of_ne m ρ c main_v1 (by decide)).trans ((kp2_4 _ main_v1 (by decide)).trans ((kp2_3 _ main_v1 (by decide)).trans
    ((kp2_2 _ main_v1 (by decide)).trans ((kp2_1 _ main_v1 (by decide)).trans ((kp2 _ main_v1 (by decide)).trans (src_at5 m ρ c))))))
theorem dst_at11 (c : Dev nD) : W11 m ρ c (Proc.devRef .tc main_v3) = dstOf (m ((c : Thread nD τ).loc main_arg1)) :=
  (W11_of_ne m ρ c main_v3 (by decide)).trans ((kp2_4 _ main_v3 (by decide)).trans ((kp2_3 _ main_v3 (by decide)).trans
    ((kp2_2 _ main_v3 (by decide)).trans ((kp2_1 _ main_v3 (by decide)).trans ((kp2 _ main_v3 (by decide)).trans (dst_at5 m ρ c))))))
/-- The looked-up rows, cut back to the edges, at the third launch's exit. -/
theorem ea_at11 (c : Dev nD) : W11 m ρ c (Proc.devRef .tc main_v7) = sliceEA (A1 m ρ c) :=
  (W11_of_ne m ρ c main_v7 (by decide)).trans ((kp2_4 _ main_v7 (by decide)).trans ((kp2_3 _ main_v7 (by decide)).trans
    ((kp2_2 _ main_v7 (by decide)).trans ((kp2_1 _ main_v7 (by decide)).trans
      ((slice_read (W5 m ρ c)).trans (congrArg sliceEA (W5_arr m ρ c 2)))))))

/-- The third launch's first input: the first message-passing step of h0. -/
theorem in2_0 (c : Dev nD) :
    V10 m ρ c (Pipeline.arrRef spec2 0)
      = kLayer (m ((c : Thread nD τ).loc main_arg6)) (A0 m ρ c) (srcOf (m ((c : Thread nD τ).loc main_arg1)))
          (dstOf (m ((c : Thread nD τ).loc main_arg1))) (sliceEA (A1 m ρ c)) := by
  have e := layer_read1 (W5 m ρ c)
  rw [(W5_of_ne m ρ c main_arg6 (by decide)).trans (arg_at4 m ρ c main_arg6 (by decide) (by decide) (by decide) (by decide)),
    (W5_of_ne m ρ c main_v4 (by decide)).trans ((kp1_1 _ main_v4 (by decide)).trans ((kp1 _ main_v4 (by decide)).trans (W2_arr m ρ c 3))),
    src_at5 m ρ c, dst_at5 m ρ c, W5_arr m ρ c 2] at e
  exact e
theorem in2_1 (c : Dev nD) : V10 m ρ c (Pipeline.arrRef spec2 1) = m ((c : Thread nD τ).loc main_arg8) :=
  arg_at10 m ρ c main_arg8 (by decide) (by decide) (by decide) (by decide) (by decide) (by decide) (by decide) (by decide) (by decide) (by decide)
theorem in2_2 (c : Dev nD) : V10 m ρ c (Pipeline.arrRef spec2 2) = m ((c : Thread nD τ).loc main_arg9) :=
  arg_at10 m ρ c main_arg9 (by decide) (by decide) (by decide) (by decide) (by decide) (by decide) (by decide) (by decide) (by decide) (by decide)
theorem in2_3 (c : Dev nD) : V10 m ρ c (Pipeline.arrRef spec2 3) = m ((c : Thread nD τ).loc main_arg10) :=
  arg_at10 m ρ c main_arg10 (by decide) (by decide) (by decide) (by decide) (by decide) (by decide) (by decide) (by decide) (by decide) (by decide)
theorem in2_4 (c : Dev nD) : V10 m ρ c (Pipeline.arrRef spec2 4) = m ((c : Thread nD τ).loc main_arg11) :=
  arg_at10 m ρ c main_arg11 (by decide) (by decide) (by decide) (by decide) (by decide) (by decide) (by decide) (by decide) (by decide) (by decide)
theorem in2_5 (c : Dev nD) : V10 m ρ c (Pipeline.arrRef spec2 5) = m ((c : Thread nD τ).loc main_arg12) :=
  arg_at10 m ρ c main_arg12 (by decide) (by decide) (by decide) (by decide) (by decide) (by decide) (by decide) (by decide) (by decide) (by decide)
theorem in2_6 (c : Dev nD) : V10 m ρ c (Pipeline.arrRef spec2 6) = m ((c : Thread nD τ).loc main_arg13) :=
  arg_at10 m ρ c main_arg13 (by decide) (by decide) (by decide) (by decide) (by decide) (by decide) (by decide) (by decide) (by decide) (by decide)

/-- The fourth launch's first input: the second message-passing step of h1. -/
theorem in3_0 (c : Dev nD) :
    V15 m ρ c (Pipeline.arrRef spec3 0)
      = kLayer (m ((c : Thread nD τ).loc main_arg7)) (A2 m ρ c) (srcOf (m ((c : Thread nD τ).loc main_arg1)))
          (dstOf (m ((c : Thread nD τ).loc main_arg1))) (sliceEA (A1 m ρ c)) := by
  have e := layer_read2 (W11 m ρ c)
  rw [(W11_of_ne m ρ c main_arg7 (by decide)).trans (arg_at10 m ρ c main_arg7 (by decide) (by decide) (by decide) (by decide) (by decide) (by decide) (by decide) (by decide) (by decide) (by decide)),
    W11_arr m ρ c 7, src_at11 m ρ c, dst_at11 m ρ c, ea_at11 m ρ c] at e
  exact e
theorem in3_1 (c : Dev nD) : V15 m ρ c (Pipeline.arrRef spec3 1) = m ((c : Thread nD τ).loc main_arg14) :=
  arg_at15 m ρ c main_arg14 (by decide) (by decide) (by decide) (by decide) (by decide) (by decide) (by decide) (by decide) (by decide) (by decide) (by decide) (by decide) (by decide) (by decide) (by decide)
theorem in3_2 (c : Dev nD) : V15 m ρ c (Pipeline.arrRef spec3 2) = m ((c : Thread nD τ).loc main_arg15) :=
  arg_at15 m ρ c main_arg15 (by decide) (by decide) (by decide) (by decide) (by decide) (by decide) (by decide) (by decide) (by decide) (by decide) (by decide) (by decide) (by decide) (by decide) (by decide)
theorem in3_3 (c : Dev nD) : V15 m ρ c (Pipeline.arrRef spec3 3) = m ((c : Thread nD τ).loc main_arg16) :=
  arg_at15 m ρ c main_arg16 (by decide) (by decide) (by decide) (by decide) (by decide) (by decide) (by decide) (by decide) (by decide) (by decide) (by decide) (by decide) (by decide) (by decide) (by decide)
theorem in3_4 (c : Dev nD) : V15 m ρ c (Pipeline.arrRef spec3 4) = m ((c : Thread nD τ).loc main_arg17) :=
  arg_at15 m ρ c main_arg17 (by decide) (by decide) (by decide) (by decide) (by decide) (by decide) (by decide) (by decide) (by decide) (by decide) (by decide) (by decide) (by decide) (by decide) (by decide)
theorem in3_5 (c : Dev nD) : V15 m ρ c (Pipeline.arrRef spec3 5) = m ((c : Thread nD τ).loc main_arg18) :=
  arg_at15 m ρ c main_arg18 (by decide) (by decide) (by decide) (by decide) (by decide) (by decide) (by decide) (by decide) (by decide) (by decide) (by decide) (by decide) (by decide) (by decide) (by decide)
theorem in3_6 (c : Dev nD) : V15 m ρ c (Pipeline.arrRef spec3 6) = m ((c : Thread nD τ).loc main_arg19) :=
  arg_at15 m ρ c main_arg19 (by decide) (by decide) (by decide) (by decide) (by decide) (by decide) (by decide) (by decide) (by decide) (by decide) (by decide) (by decide) (by decide) (by decide) (by decide)

/-- The program's result buffer ends holding what the fourth launch leaves. -/
theorem out_eq (c : Dev nD) : W16 m ρ c (Proc.devRef .tc main_v29) = A3 m ρ c := W16_arr m ρ c 7

end Cert.KernelIdeal.Reads

end
-- ==== Proof.Spec.lean ====
/-
  What both programs compute, written once over the extended reals, as functions of whole arrays.
  A node has 128 features. A dense layer sends row i of an n x 128 array x to relu(x_i . W + b): entry (i, j) is
  max(sum_k x(i,k) * W(k,j) + b(j), 0). The three-layer perceptron is three dense layers in a row. The edge-type
  lookup sends edge e to row attr(e) of an 8 x 128 table (and to the zero row when attr(e), read as a natural
  number, is 8 or more: no row of the table is selected then).
-/
import Idealize.ShloMosaic.PureOps
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A dense layer with bias, then relu, on the rows of an n x 128 array: entry (i, j) is
    max(sum_k x(i,k) * W(k,j) + b(j), 0). -/
def dense {n : Nat} (x : (⟨2, ![n, 128]⟩ : Shape).Idx → EReal) (W : (⟨2, ![128, 128]⟩ : Shape).Idx → EReal)
    (b : (⟨1, ![128]⟩ : Shape).Idx → EReal) : (⟨2, ![n, 128]⟩ : Shape).Idx → EReal :=
  fun i => max ((∑ k : Fin 128, x (ix2 (i 0) k) * W (ix2 k (i 1))) + b (ix1 (i 1))) 0

/-- Three dense layers in a row, each followed by relu. -/
def mlp3 {n : Nat} (x : (⟨2, ![n, 128]⟩ : Shape).Idx → EReal)
    (Wa : (⟨2, ![128, 128]⟩ : Shape).Idx → EReal) (ba : (⟨1, ![128]⟩ : Shape).Idx → EReal)
    (Wb : (⟨2, ![128, 128]⟩ : Shape).Idx → EReal) (bb : (⟨1, ![128]⟩ : Shape).Idx → EReal)
    (Wc : (⟨2, ![128, 128]⟩ : Shape).Idx → EReal) (bc : (⟨1, ![128]⟩ : Shape).Idx → EReal) :
    (⟨2, ![n, 128]⟩ : Shape).Idx → EReal :=
  dense (dense (dense x Wa ba) Wb bb) Wc bc

/-- The edge-type lookup: row e is row attr(e) of the 8 x 128 table, the zero row when attr(e) names no row. -/
def embRows {n : Nat} (attr : IVec ⟨1, ![n]⟩ 32) (emb : (⟨2, ![8, 128]⟩ : Shape).Idx → EReal) :
    (⟨2, ![n, 128]⟩ : Shape).Idx → EReal :=
  fun i => if h : (attr (ix1 (i 0))).toNat < 8 then emb (ix2 (⟨(attr (ix1 (i 0))).toNat, h⟩ : Fin 8) (i 1)) else 0

/-- A dense layer works row by row: on the rows picked by f it is the dense layer of the whole array, read at those rows. -/
theorem dense_rows {n n' : Nat} (f : Fin n' → Fin n) (x : (⟨2, ![n, 128]⟩ : Shape).Idx → EReal)
    (W : (⟨2, ![128, 128]⟩ : Shape).Idx → EReal) (b : (⟨1, ![128]⟩ : Shape).Idx → EReal) :
    dense (fun j : (⟨2, ![n', 128]⟩ : Shape).Idx => x (ix2 (f (j 0)) (j 1))) W b
      = fun j => dense x W b (ix2 (f (j 0)) (j 1)) := by
  funext j
  rfl

/-- The same for the perceptron. -/
theorem mlp3_rows {n n' : Nat} (f : Fin n' → Fin n) (x : (⟨2, ![n, 128]⟩ : Shape).Idx → EReal)
    (Wa : (⟨2, ![128, 128]⟩ : Shape).Idx → EReal) (ba : (⟨1, ![128]⟩ : Shape).Idx → EReal)
    (Wb : (⟨2, ![128, 128]⟩ : Shape).Idx → EReal) (bb : (⟨1, ![128]⟩ : Shape).Idx → EReal)
    (Wc : (⟨2, ![128, 128]⟩ : Shape).Idx → EReal) (bc : (⟨1, ![128]⟩ : Shape).Idx → EReal) :
    mlp3 (fun j : (⟨2, ![n', 128]⟩ : Shape).Idx => x (ix2 (f (j 0)) (j 1))) Wa ba Wb bb Wc bc
      = fun j => mlp3 x Wa ba Wb bb Wc bc (ix2 (f (j 0)) (j 1)) := by
  unfold mlp3
  rw [dense_rows f x Wa ba, dense_rows f (dense x Wa ba) Wb bb, dense_rows f (dense (dense x Wa ba) Wb bb) Wc bc]

/-- The perceptron is the dense layer three times. -/
theorem mlp3_def {n : Nat} (x : (⟨2, ![n, 128]⟩ : Shape).Idx → EReal)
    (Wa : (⟨2, ![128, 128]⟩ : Shape).Idx → EReal) (ba : (⟨1, ![128]⟩ : Shape).Idx → EReal)
    (Wb : (⟨2, ![128, 128]⟩ : Shape).Idx → EReal) (bb : (⟨1, ![128]⟩ : Shape).Idx → EReal)
    (Wc : (⟨2, ![128, 128]⟩ : Shape).Idx → EReal) (bc : (⟨1, ![128]⟩ : Shape).Idx → EReal) :
    mlp3 x Wa ba Wb bb Wc bc = dense (dense (dense x Wa ba) Wb bb) Wc bc := rfl

end Cert.Spec

end
-- ==== Proof.Region0.lean ====
import proofs.«427217_j52106543235221_1_alg».proof.Proof.Gen.KernelIdeal.Frame
import proofs.«427217_j52106543235221_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace First

/-! ## The body's arithmetic on one block -/

/-- The matrix product reads its left operand at the output's row … -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and the contraction's position, -/
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- its right operand at the contraction's position … -/
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and the output's column. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product into a zero accumulator, at (p, q): the sum over k of x(p, k) * W(k, q). -/
theorem matmul_at (x : FVec Ideal S10000x128 .bf16) (W : FVec Ideal S128x128 .bf16) (p : Fin 10000) (q : Fin 128) :
    matmul (F := Ideal) dot_S10000x128_S128x128_S10000x128_1_0_0_1_n_n none x W (constant S10000x128 .f32 0x00000000#32) (ix2 p q)
      = ∑ k : Fin 128, x (ix2 p k) * W (ix2 k q) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The body's arithmetic on a block of 10000 rows is the dense layer of the block: the two narrowings are the identity on
    extended reals, the product is the sum over the contracted axis, the bias row is read at the column, and the maximum
    with the splat of the zero word is the maximum with 0. -/
theorem pay_eq (x0 : Vec Ideal S10000x128 .f32) (x1 : Vec Ideal S128x128 .f32) (x2 : Vec Ideal S128 .f32) :
    k0_pay1 (F := Ideal) x0 x1 x2 = Cert.Spec.dense x0 x1 x2 := by
  funext j
  obtain ⟨p, q, rfl⟩ : ∃ (p : Fin 10000) (q : Fin 128), j = ix2 p q := ⟨j 0, j 1, eq_ix2 j⟩
  unfold k0_pay1
  rw [maximumf_apply, addf_apply, matmul_at, broadcastTo_1b_ab_apply, shapeCast_a_1a_apply, broadcast_apply]
  simp only [truncf_apply]
  show max _ (Ideal.ofBits .f32 0x00000000#32) = _
  rw [Ideal.ofBits_zero_f32]
  rfl

/-! ## From blocks to the array -/

theorem zero2 : (![0, 0] : Fin 2 → Nat) = fun _ => 0 := funext fun a => by fin_cases a <;> rfl
theorem zero1 : (![0] : Fin 1 → Nat) = fun _ => 0 := funext fun a => by fin_cases a <;> rfl

/-- The three input arrays as the launch finds them, and their blocks at a grid point, under their literal types. -/
abbrev xarr (c : Dev nD) : S100000x128.Idx → EReal := V c (Pipeline.arrRef spec0 0)
abbrev warr (c : Dev nD) : S128x128.Idx → EReal := V c (Pipeline.arrRef spec0 1)
abbrev barr (c : Dev nD) : S128.Idx → EReal := V c (Pipeline.arrRef spec0 2)
abbrev xblk (c : Dev nD) (t : Fin cfg0.N) : Vec Ideal S10000x128 .f32 := iblk0 V c 0 t
abbrev wblk (c : Dev nD) (t : Fin cfg0.N) : Vec Ideal S128x128 .f32 := iblk0 V c 1 t
abbrev bblk (c : Dev nD) (t : Fin cfg0.N) : Vec Ideal S128 .f32 := iblk0 V c 2 t

/-- The printed index maps, decided over the grid: at point t the row blocks of x and of the output are block t, and the
    weight matrix and the bias are read whole. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of block t is row 10000 t + p of the array. -/
def rowOf (t : Fin cfg0.N) (p : Fin 10000) : Fin 100000 :=
  ⟨t.val * 10000 + p.val, by have h : t.val < 10 := lt_of_lt_of_eq t.isLt N_0; have := p.isLt; omega⟩

theorem rowOf_val (t : Fin cfg0.N) (p : Fin 10000) : (rowOf t p).val = t.val * 10000 + p.val := rfl

/-- Block t of x holds rows 10000 t to 10000 t + 9999 of x: a block's coordinate is the block index times the block's
    size plus the coordinate inside the block. -/
theorem xblk_eq (c : Dev nD) (t : Fin cfg0.N) :
    xblk V c t = fun j => xarr V c (ix2 (rowOf t (j 0)) (j 1)) := by
  obtain ⟨e0, e1, -⟩ := block_indices t
  funext j
  show xarr V c (((cfg0.win 0).blk t).view.emb j) = xarr V c (ix2 (rowOf t (j 0)) (j 1))
  refine congrArg (xarr V c) (funext fun a => Fin.ext ?_)
  match a with
  | ⟨0, _⟩ => show win0_0.index t (0 : Fin 2) * 10000 + 1 * (j 0).val = t.val * 10000 + (j 0).val; rw [e0]; omega
  | ⟨1, _⟩ => show win0_0.index t (1 : Fin 2) * 128 + 1 * (j 1).val = (j 1).val; rw [e1]; omega

/-- The weight matrix's one block is the matrix. -/
theorem wblk_eq (c : Dev nD) (t : Fin cfg0.N) : wblk V c t = warr V c := by
  obtain ⟨-, -, e2, e3, -⟩ := block_indices t
  funext j
  show warr V c (((cfg0.win 1).blk t).view.emb j) = warr V c j
  refine congrArg (warr V c) (funext fun a => Fin.ext ?_)
  match a with
  | ⟨0, _⟩ => show win0_1.index t (0 : Fin 2) * 128 + 1 * (j 0).val = (j 0).val; rw [e2]; omega
  | ⟨1, _⟩ => show win0_1.index t (1 : Fin 2) * 128 + 1 * (j 1).val = (j 1).val; rw [e3]; omega

/-- The bias's one block is the bias. -/
theorem bblk_eq (c : Dev nD) (t : Fin cfg0.N) : bblk V c t = barr V c := by
  obtain ⟨-, -, -, -, e4, -⟩ := block_indices t
  funext j
  show barr V c (((cfg0.win 2).blk t).view.emb j) = barr V c j
  refine congrArg (barr V c) (funext fun a => Fin.ext ?_)
  match a with
  | ⟨0, _⟩ => show win0_2.index t (0 : Fin 1) * 128 + 1 * (j 0).val = (j 0).val; rw [e4]; omega

/-- What point t writes back is block t of the dense layer of the whole arrays: the body's arithmetic is the dense layer of
    the blocks, the dense layer works row by row, and the output's block sits where the block of x does. -/
theorem written_back_eq (c : Dev nD) (t : Fin cfg0.N) :
    (dat0 V c).flushed 3 t
      = ((cfg0.win 3).blk t).view.read (Elt Ideal) (Cert.Spec.dense (xarr V c) (warr V c) (barr V c)) := by
  obtain ⟨-, -, -, -, -, e5, e6⟩ := block_indices t
  show (cfg0.win 3).cut (grid0.coords t) ((dat0 V c).after 3 t) = _
  rw [after0_3]
  unfold out0_3
  rw [View.canon_unit_zero zero2]
  simp only [View.ld_unit_zero (S := S10000x128) zero2, View.ld_unit_zero (S := S128x128) zero2, View.ld_unit_zero (S := S128) zero1]
  rw [pay_eq (xblk V c t) (wblk V c t) (bblk V c t), xblk_eq, wblk_eq, bblk_eq,
    Cert.Spec.dense_rows (rowOf t) (xarr V c) (warr V c) (barr V c)]
  funext j
  show Cert.Spec.dense (xarr V c) (warr V c) (barr V c) (ix2 (rowOf t (j 0)) (j 1))
    = Cert.Spec.dense (xarr V c) (warr V c) (barr V c) (((cfg0.win 3).blk t).view.emb j)
  refine congrArg _ (funext fun a => Fin.ext ?_)
  match a with
  | ⟨0, _⟩ => show t.val * 10000 + (j 0).val = win0_3.index t (0 : Fin 2) * 10000 + 1 * (j 0).val; rw [e5]; omega
  | ⟨1, _⟩ => show (j 1).val = win0_3.index t (1 : Fin 2) * 128 + 1 * (j 1).val; rw [e6]; omega

/-- An index of the output array is in point t's block iff each coordinate is in the block's range on its axis. -/
theorem mem_block_iff (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v4).slice (win0_3.rect t)).set ↔ _
  rw [View.set_slice_whole, Rect.mem_set_unit]
  exact Iff.rfl

/-- Every index of the output array is in some point's block: row r is in the block of point r / 10000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, -, e5, e6⟩ := block_indices t
  refine ⟨t, flush0_3 t, ?_⟩
  rw [mem_block_iff]
  intro a
  match a with
  | ⟨0, _⟩ => show win0_3.index t (0 : Fin 2) * 10000 ≤ (i 0).val ∧ (i 0).val < win0_3.index t (0 : Fin 2) * 10000 + 10000; rw [e5]; omega
  | ⟨1, _⟩ => show win0_3.index t (1 : Fin 2) * 128 ≤ (i 1).val ∧ (i 1).val < win0_3.index t (1 : Fin 2) * 128 + 128; rw [e6]; omega

end First

open First

/-- After the first launch the output array is the dense layer of the three input arrays as the launch found them. -/
theorem final0 (c : Dev nD) :
    (dat0 (F := Ideal) V c).arrAt 3 cfg0.N
      = Cert.Spec.dense (V c (Pipeline.arrRef spec0 0)) (V c (Pipeline.arrRef spec0 1)) (V c (Pipeline.arrRef spec0 2)) :=
  (dat0 V c).arrAt_eq_of_cover 3 (Cert.Spec.dense (xarr V c) (warr V c) (barr V c)) (fun t _ => written_back_eq V c t) covered

end Cert.KernelIdeal.RegionValue

end
-- ==== Proof.Region1.lean ====
import proofs.«427217_j52106543235221_1_alg».proof.Proof.Gen.KernelIdeal.Frame
import proofs.«427217_j52106543235221_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Second

/-! ## The body's arithmetic on one block of 8192 edges

The body builds the 8192 x 8 matrix whose entry (p, k) is one where edge p has type k and zero elsewhere, and multiplies
it by the 8 x 128 table. Row p of the product is the sum over k of entry (p, k) times row k of the table: at most one
term is not zero, the one with k the type of edge p; there is none when the type, as a natural number, is 8 or more. -/

/-- A condition bit widened to a word and read signed is one where the bit is set, zero where it is not. -/
theorem bit_as_real (b : BitVec 1) : ((((b.setWidth 32).toInt : ℤ) : ℝ) : EReal) = if b = 1#1 then 1 else 0 := by
  rcases (by decide : ∀ b : BitVec 1, b = 0#1 ∨ b = 1#1) b with rfl | rfl
  · rw [if_neg (by decide), show ((0#1 : BitVec 1).setWidth 32).toInt = 0 from by decide]; simp
  · rw [if_pos rfl, show ((1#1 : BitVec 1).setWidth 32).toInt = 1 from by decide]; simp

/-- The one-hot entry: the comparison of two words, widened and converted, is one where they agree and zero elsewhere. -/
theorem onehot_entry (a b : BitVec 32) :
    ((((IntOp.cmpi .eq a b).setWidth 32).toInt : ℤ) : ℝ) = (if a = b then (1 : EReal) else 0) := by
  rw [bit_as_real]
  have hc : IntOp.cmpi .eq a b = 1#1 ↔ a = b := by
    show BitVec.ofBool (a == b) = 1#1 ↔ a = b
    by_cases h : a = b
    · subst h; rw [beq_self_eq_true]; exact ⟨fun _ => rfl, fun _ => rfl⟩
    · rw [beq_false_of_ne h]; exact ⟨fun e => absurd e (by decide), fun e => absurd e h⟩
  by_cases h : a = b
  · rw [if_pos h, if_pos (hc.2 h)]
  · rw [if_neg h, if_neg (fun e => h (hc.1 e))]

/-- A row of the table selected by a one-hot row: the sum over the eight rows keeps the one the word names, or nothing
    when the word names no row (0 * x = 0 and 1 * x = x for every extended real x, finite or not). -/
theorem sum_onehot (a : BitVec 32) (f : Fin 8 → EReal) :
    ∑ k : Fin 8, (if a = BitVec.ofNat 32 k.val then (1 : EReal) else 0) * f k
      = if h : a.toNat < 8 then f ⟨a.toNat, h⟩ else 0 := by
  have hk : ∀ k : Fin 8, a = BitVec.ofNat 32 k.val → a.toNat = k.val := fun k e => by
    rw [e, BitVec.toNat_ofNat]; have := k.isLt; omega
  by_cases h : a.toNat < 8
  · rw [dif_pos h, Finset.sum_eq_single (⟨a.toNat, h⟩ : Fin 8)]
    · rw [if_pos (BitVec.eq_of_toNat_eq (by rw [BitVec.toNat_ofNat]; show a.toNat = a.toNat % 2 ^ 32; omega)), one_mul]
    · intro k _ hne
      rw [if_neg (fun e => hne (Fin.ext (hk k e).symm)), zero_mul]
    · intro hn; exact absurd (Finset.mem_univ _) hn
  · rw [dif_neg h]
    refine Finset.sum_eq_zero fun k _ => ?_
    rw [if_neg (fun e => h (by rw [hk k e]; exact k.isLt)), zero_mul]

/-! ## The product read at an index

The product contracts axis 1 of the one-hot matrix with axis 0 of the table: at output index (p, q) and contraction
index k the left operand is read at (p, k) and the right one at (k, q). One lemma per operand axis. -/

/-- Axis 0 of the left operand's index is the output's row. -/
theorem lhs_axis0 (i : S8192x128.Idx) (q : dot_S8192x8_S8x128_S8192x128_1_0_0_1_n_n.contr.Idx) :
    (dot_S8192x8_S8x128_S8192x128_1_0_0_1_n_n.lhsIdx i q 0).val = (i 0).val := by
  unfold DotDims.lhsIdx
  rw [dif_neg (show ¬(0 : Fin S8192x8.rank) ∈ dot_S8192x8_S8x128_S8192x128_1_0_0_1_n_n.lhsBatch by decide), dif_pos (show (0 : Fin S8192x8.rank) ∈ dot_S8192x8_S8x128_S8192x128_1_0_0_1_n_n.lhsNonContracting by decide)]
  rfl
/-- Axis 1 of the left operand's index is the contraction index. -/
theorem lhs_axis1 (i : S8192x128.Idx) (q : dot_S8192x8_S8x128_S8192x128_1_0_0_1_n_n.contr.Idx) :
    (dot_S8192x8_S8x128_S8192x128_1_0_0_1_n_n.lhsIdx i q 1).val = (q ⟨0, by decide⟩).val :=
  dot_S8192x8_S8x128_S8192x128_1_0_0_1_n_n.lhsIdx_val_of_single rfl i q
/-- Axis 0 of the right operand's index is the contraction index. -/
theorem rhs_axis0 (i : S8192x128.Idx) (q : dot_S8192x8_S8x128_S8192x128_1_0_0_1_n_n.contr.Idx) :
    (dot_S8192x8_S8x128_S8192x128_1_0_0_1_n_n.rhsIdx i q 0).val = (q ⟨0, by decide⟩).val :=
  dot_S8192x8_S8x128_S8192x128_1_0_0_1_n_n.rhsIdx_val_of_single rfl i q
/-- Axis 1 of the right operand's index is the output's column. -/
theorem rhs_axis1 (i : S8192x128.Idx) (q : dot_S8192x8_S8x128_S8192x128_1_0_0_1_n_n.contr.Idx) :
    (dot_S8192x8_S8x128_S8192x128_1_0_0_1_n_n.rhsIdx i q 1).val = (i 1).val := by
  unfold DotDims.rhsIdx
  rw [dif_neg (show ¬(1 : Fin S8x128.rank) ∈ dot_S8192x8_S8x128_S8192x128_1_0_0_1_n_n.rhsBatch by decide), dif_pos (show (1 : Fin S8x128.rank) ∈ dot_S8192x8_S8x128_S8192x128_1_0_0_1_n_n.rhsNonContracting by decide)]
  rfl

/-- The edge types of a block, viewed as a column and copied along the eight columns: entry (p, k) is the type of edge p. -/
theorem attr_cols_apply (v0 : IVec S8192 32) (h1 : S8192.ShapeCasts S8192) (h2 : S8192.ShapeCasts S8192x1)
    (h3 : S8192x1.Broadcasts S8192x8) (p : Fin 8192) (k : Fin 8) :
    broadcastTo S8192x8 (shapeCast S8192x1 (shapeCast S8192 v0 h1) h2) h3 (ix2 p k) = v0 (ix1 p) := by
  rw [shapeCast_self]
  refine (broadcastTo_apply _ h3 (ix2 p k) (ix2 p (0 : Fin 1)) (fun a => ?_)).trans ?_
  · match a with
    | ⟨0, _⟩ => show p.val = if (8192 : Nat) = 1 then 0 else p.val; rw [if_neg (by decide)]
    | ⟨1, _⟩ => show 0 = if (1 : Nat) = 1 then 0 else k.val; rw [if_pos rfl]
  · exact shapeCast_apply v0 h2 (ix2 p (0 : Fin 1)) (ix1 p)
      (by rewrite [Shape.rowMajor_val_two, Shape.rowMajor_val_one]; show p.val = p.val * 1 + 0; omega)

/-- The one-hot matrix of a block at (p, k): one where edge p has type k, zero elsewhere. The column number is the
    iota along axis 1; the narrowing to the shorter float format is the identity on the extended reals. -/
theorem onehot_apply (v0 : IVec S8192 32) (h1 : S8192.ShapeCasts S8192) (h2 : S8192.ShapeCasts S8192x1)
    (h3 : S8192x1.Broadcasts S8192x8) (h4 : S8192x8.Iotas .tc 32 [1]) (h5 : 1 < 32) (h6 : FTy.bits .bf16 < FTy.bits .f32)
    (p : Fin 8192) (k : Fin 8) :
    (truncf .bf16 (sitofp .f32 (extui 32 (cmpi .eq (broadcastTo S8192x8 (shapeCast S8192x1 (shapeCast S8192 v0 h1) h2) h3)
        (iota .tc S8192x8 32 [1] h4)) h5) : FVec Ideal S8192x8 .f32) h6) (ix2 p k)
      = if v0 (ix1 p) = BitVec.ofNat 32 k.val then (1 : EReal) else 0 := by
  show (((((IntOp.cmpi .eq (broadcastTo S8192x8 (shapeCast S8192x1 (shapeCast S8192 v0 h1) h2) h3 (ix2 p k))
      (iota .tc S8192x8 32 [1] h4 (ix2 p k))).setWidth 32).toInt : ℤ) : ℝ) : EReal) = _
  rw [attr_cols_apply, iota_single_apply, onehot_entry]

/-- THE BODY'S ARITHMETIC at one entry of a block: entry q of the table's row named by the type of edge p, or zero
    when the type names no row. The product into the zero accumulator is the sum over the contraction index, re-indexed
    by the eight rows of the table. -/
theorem pay_apply (v0 : Vec Ideal S8192 .i32) (v9 : Vec Ideal S8x128 .f32) (p : Fin 8192) (q : Fin 128) :
    k1_pay1 (F := Ideal) v0 v9 (ix2 p q) = Cert.Spec.embRows v0 v9 (ix2 p q) := by
  unfold k1_pay1
  dsimp only
  refine (Ideal.matmul_constant_zero_apply _ none _ _ _).trans ?_
  rw [← Equiv.sum_comp (contrEquiv1 dot_S8192x8_S8x128_S8192x128_1_0_0_1_n_n 8 rfl rfl).symm]
  refine (Finset.sum_congr rfl fun k _ => ?_).trans ((sum_onehot (v0 (ix1 p)) (fun k => v9 (ix2 k q))).trans ?_)
  · have hk := contrEquiv1_symm_val dot_S8192x8_S8x128_S8192x128_1_0_0_1_n_n 8 rfl rfl k
    have el : dot_S8192x8_S8x128_S8192x128_1_0_0_1_n_n.lhsIdx (ix2 p q) ((contrEquiv1 dot_S8192x8_S8x128_S8192x128_1_0_0_1_n_n 8 rfl rfl).symm k) = (ix2 p k : S8192x8.Idx) := funext fun a => Fin.ext (by
      match a with
      | ⟨0, _⟩ => exact lhs_axis0 _ _
      | ⟨1, _⟩ => exact (lhs_axis1 _ _).trans hk)
    have er : dot_S8192x8_S8x128_S8192x128_1_0_0_1_n_n.rhsIdx (ix2 p q) ((contrEquiv1 dot_S8192x8_S8x128_S8192x128_1_0_0_1_n_n 8 rfl rfl).symm k) = (ix2 k q : S8x128.Idx) := funext fun a => Fin.ext (by
      match a with
      | ⟨0, _⟩ => exact (rhs_axis0 _ _).trans hk
      | ⟨1, _⟩ => exact rhs_axis1 _ _)
    rw [el, er, onehot_apply]
    rfl
  · rfl

/-- The same for the whole block: the body's payload is the lookup on the block's 8192 edges. -/
theorem pay_eq (v0 : Vec Ideal S8192 .i32) (v9 : Vec Ideal S8x128 .f32) :
    k1_pay1 (F := Ideal) v0 v9 = Cert.Spec.embRows v0 v9 := by
  funext j
  obtain ⟨p, q, rfl⟩ : ∃ (p : Fin 8192) (q : Fin 128), j = ix2 p q := ⟨j 0, j 1, eq_ix2 j⟩
  exact pay_apply v0 v9 p q

/-! ## From blocks to the array

Point t of the 196 reads edges 8192 t … 8192 t + 8191 and the whole table, and writes rows 8192 t … 8192 t + 8191 of
the output; 196 * 8192 = 1605632, so the blocks fill the output. -/

/-- The lookup works edge by edge: on the edges picked by f it is the lookup of the whole array, read at those edges. -/
theorem embRows_rows {n n' : Nat} (f : Fin n' → Fin n) (attr : IVec ⟨1, ![n]⟩ 32) (emb : (⟨2, ![8, 128]⟩ : Shape).Idx → EReal) :
    Cert.Spec.embRows (fun j : (⟨1, ![n']⟩ : Shape).Idx => attr (ix1 (f (j 0)))) emb
      = fun j => Cert.Spec.embRows attr emb (ix2 (f (j 0)) (j 1)) := by
  funext j
  rfl

/-- Zero offsets on two axes, and on one. -/
theorem zeros2 : (![0, 0] : Fin 2 → Nat) = fun _ => 0 := funext fun a => by fin_cases a <;> rfl
theorem zeros1 : (![0] : Fin 1 → Nat) = fun _ => 0 := funext fun a => by fin_cases a; rfl

/-- The printed index maps, decided over the grid: point t reads block t of the edge types and block (0, 0) of the
    table, and writes block (t, 0) of the output. -/
theorem block_indices : ∀ t : Fin cfg1.N, win1_0.index t (0 : Fin 1) = t.val
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Edge p of block t is edge 8192 t + p of the array. -/
def edgeOf (t : Fin cfg1.N) (p : Fin 8192) : Fin 1605632 :=
  ⟨t.val * 8192 + p.val, by have h : t.val < 196 := lt_of_lt_of_eq t.isLt N_1; have := p.isLt; omega⟩

/-- The two input blocks at a point, at their literal types. -/
abbrev attrBlk (c : Dev nD) (t : Fin cfg1.N) : Vec Ideal S8192 .i32 := iblk1 V c 0 t
abbrev embBlk (c : Dev nD) (t : Fin cfg1.N) : Vec Ideal S8x128 .f32 := iblk1 V c 1 t

/-- The block of edge types at point t holds the types of edges 8192 t … 8192 t + 8191: a block's coordinate is the
    block index times the block size plus the coordinate inside the block. -/
theorem attrBlk_eq (c : Dev nD) (t : Fin cfg1.N) :
    attrBlk V c t = fun j : S8192.Idx => (V c (Pipeline.arrRef spec1 0) : S1605632.Idx → BitVec 32) (ix1 (edgeOf t (j 0))) := by
  obtain ⟨e0, -⟩ := block_indices t
  funext j
  show ((cfg1.win 0).blk t).view.read (Elt Ideal) (V c (Pipeline.arrRef spec1 0)) j = _
  rw [View.read_apply]
  show V c (Pipeline.arrRef spec1 0) _ = V c (Pipeline.arrRef spec1 0) _
  congr 1
  funext a
  apply Fin.ext
  match a with
  | ⟨0, _⟩ => show win1_0.index t (0 : Fin 1) * 8192 + 1 * (j 0).val = t.val * 8192 + (j 0).val; rw [e0]; omega

/-- The table's block at every point is the table. -/
theorem embBlk_eq (c : Dev nD) (t : Fin cfg1.N) :
    embBlk V c t = (V c (Pipeline.arrRef spec1 1) : S8x128.Idx → EReal) := by
  obtain ⟨-, e1, e2, -⟩ := block_indices t
  funext j
  show ((cfg1.win 1).blk t).view.read (Elt Ideal) (V c (Pipeline.arrRef spec1 1)) j = _
  rw [View.read_apply]
  show V c (Pipeline.arrRef spec1 1) _ = V c (Pipeline.arrRef spec1 1) _
  congr 1
  funext a
  apply Fin.ext
  match a with
  | ⟨0, _⟩ => show win1_1.index t (0 : Fin 2) * 8 + 1 * (j 0).val = (j 0).val; rw [e1]; omega
  | ⟨1, _⟩ => show win1_1.index t (1 : Fin 2) * 128 + 1 * (j 1).val = (j 1).val; rw [e2]; omega

/-- WHAT POINT t WRITES BACK is block t of the looked-up rows of the arrays as the launch finds them: the body's one
    store leaves its payload, the payload is the lookup on the block's edges, and those are edges 8192 t … of the array. -/
theorem flushed_eq (c : Dev nD) (t : Fin cfg1.N) :
    (dat1 V c).flushed 2 t = ((cfg1.win 2).blk t).view.read (Elt Ideal)
      (Cert.Spec.embRows (V c (Pipeline.arrRef spec1 0)) (V c (Pipeline.arrRef spec1 1))) := by
  show (cfg1.win 2).cut (grid1.coords t) ((dat1 V c).after 2 t) = _
  rw [after1_2]
  unfold out1_2
  rw [View.canon_unit_zero zeros2]
  simp only [View.ld_unit_zero (S := S8192) zeros1, View.ld_unit_zero (S := S8x128) zeros2]
  show (cfg1.win 2).cut (grid1.coords t) (k1_pay1 (F := Ideal) (attrBlk V c t) (embBlk V c t)) = _
  rw [pay_eq, attrBlk_eq, embBlk_eq, embRows_rows]
  obtain ⟨-, -, -, e3, e4⟩ := block_indices t
  funext j
  show Cert.Spec.embRows (V c (Pipeline.arrRef spec1 0)) (V c (Pipeline.arrRef spec1 1)) (ix2 (edgeOf t (j 0)) (j 1))
    = Cert.Spec.embRows (V c (Pipeline.arrRef spec1 0)) (V c (Pipeline.arrRef spec1 1)) (((cfg1.win 2).blk t).view.emb j)
  congr 1
  funext a
  apply Fin.ext
  match a with
  | ⟨0, _⟩ => show t.val * 8192 + (j 0).val = win1_2.index t (0 : Fin 2) * 8192 + 1 * (j 0).val; rw [e3]; omega
  | ⟨1, _⟩ => show (j 1).val = win1_2.index t (1 : Fin 2) * 128 + 1 * (j 1).val; rw [e4]; omega

/-- An index of the output array is in point t's block iff each coordinate is in the block's range on its axis. -/
theorem mem_blk (t : Fin cfg1.N) (i : S1605632x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v6).slice (win1_2.rect t)).set ↔ _
  rw [View.set_slice_whole, Rect.mem_set_unit]
  exact Iff.rfl

/-- Every row of the output is in some point's block: row r is in the block of point r / 8192, which is below 196
    because r is below 196 * 8192. -/
theorem covered (i : S1605632x128.Idx) :
    ∃ t : Fin cfg1.N, (cfg1.win 2).flush t = true ∧ i ∈ ((cfg1.win 2).blk t).view.set := by
  have hi0 : (i 0).val < 1605632 := (i 0).isLt
  have hi1 : (i 1).val < 128 := (i 1).isLt
  have hN : (i 0).val / 8192 < cfg1.N := lt_of_lt_of_eq (show (i 0).val / 8192 < 196 by omega) N_1.symm
  obtain ⟨-, -, -, e3, e4⟩ := block_indices ⟨(i 0).val / 8192, hN⟩
  refine ⟨⟨(i 0).val / 8192, hN⟩, flush1_2 _, ?_⟩
  rw [mem_blk]
  intro a
  match a with
  | ⟨0, _⟩ =>
    show win1_2.index ⟨(i 0).val / 8192, hN⟩ (0 : Fin 2) * 8192 ≤ (i 0).val ∧ (i 0).val < win1_2.index ⟨(i 0).val / 8192, hN⟩ (0 : Fin 2) * 8192 + 8192
    rw [e3]; show (i 0).val / 8192 * 8192 ≤ (i 0).val ∧ (i 0).val < (i 0).val / 8192 * 8192 + 8192; omega
  | ⟨1, _⟩ =>
    show win1_2.index ⟨(i 0).val / 8192, hN⟩ (1 : Fin 2) * 128 ≤ (i 1).val ∧ (i 1).val < win1_2.index ⟨(i 0).val / 8192, hN⟩ (1 : Fin 2) * 128 + 128
    rw [e4]; omega

end Second

/-- After the second launch the output array holds, in row e, the table's row named by the padded edge type of e. -/
theorem final1 (c : Dev nD) :
    (dat1 (F := Ideal) V c).arrAt 2 cfg1.N
      = Cert.Spec.embRows (V c (Pipeline.arrRef spec1 0)) (V c (Pipeline.arrRef spec1 1)) :=
  (dat1 V c).arrAt_eq_of_cover 2 _ (fun t _ => Second.flushed_eq V c t) Second.covered

end Cert.KernelIdeal.RegionValue

end
-- ==== Proof.Region2.lean ====
import proofs.«427217_j52106543235221_1_alg».proof.Proof.Gen.KernelIdeal.Frame
import proofs.«427217_j52106543235221_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-!
The third launch walks the 100000 rows in 20 blocks of 5000. At each point its body reads the block's rows, the three
128 x 128 weight matrices and the three biases, and stores relu(relu(relu(x Wa + ba) Wb + bb) Wc + bc) for the block.
Over the extended reals each layer of the body is the dense layer of the block's rows; the layers work row by row, so
the block the point writes back is the block of the perceptron of the whole array; the 20 blocks tile the array.
-/

namespace Third

/-! ## One layer on a block of rows -/

/-- The left operand of the block's matrix product is read on row `i 0` … -/
theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the contraction's coordinate; -/
theorem lhs_col (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- the right operand on the contraction's coordinate … -/
theorem rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- … at column `i 1`. -/
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into a zero accumulator, at row p and column q: the sum over k of X(p,k) * W(k,q). -/
theorem matmul_block_apply (X : FVec Ideal S5000x128 .bf16) (W : FVec Ideal S128x128 .bf16) (p : Fin 5000) (q : Fin 128) :
    matmul (F := Ideal) dot_S5000x128_S128x128_S5000x128_1_0_0_1_n_n none X W (constant S5000x128 .f32 0x00000000#32) (ix2 p q)
      = ∑ k : Fin 128, X (ix2 p k) * W (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias [128] viewed [1,128] and repeated down the 5000 rows reads b(q) at (p, q). -/
theorem bias_block_apply (b : Vec Ideal S128 .f32) (p : Fin 5000) (q : Fin 128) :
    broadcastTo S5000x128 (shapeCast S1x128 b shapeCasts_S128_S1x128) broadcasts_S1x128_S5000x128 (ix2 p q) = b (ix1 q) := by
  refine (broadcastTo_apply _ broadcasts_S1x128_S5000x128 (ix2 p q) (ix2 (⟨0, Nat.one_pos⟩ : Fin 1) q) (fun a => ?_)).trans ?_
  · match a with
    | ⟨0, _⟩ => rfl
    | ⟨1, _⟩ => rfl
  · exact shapeCast_apply b shapeCasts_S128_S1x128 _ (ix1 q) (by
      rewrite [Shape.rowMajor_val_two, Shape.rowMajor_val_one]; show q.val = 0 * 128 + q.val; omega)

/-- ONE LAYER of the body on a block of 5000 rows is the dense layer of the block: the narrowing to bf16 is the
    identity on extended reals, the product is the sum over the 128 features, the bias is added along each row and the
    maximum against the zero splat is the relu. -/
theorem layer_eq (X : Vec Ideal S5000x128 .f32) (W : Vec Ideal S128x128 .f32) (b : Vec Ideal S128 .f32) :
    maximumf (F := Ideal) (addf (matmul dot_S5000x128_S128x128_S5000x128_1_0_0_1_n_n none (truncf .bf16 X bitsLt_bf16_f32) (truncf .bf16 W bitsLt_bf16_f32) (constant S5000x128 .f32 0x00000000#32))
        (broadcastTo S5000x128 (shapeCast S1x128 b shapeCasts_S128_S1x128) broadcasts_S1x128_S5000x128))
      (broadcast S5000x128 (Scalar.ofBits .f32 0x00000000#32))
      = Cert.Spec.dense X W b := by
  funext j
  obtain ⟨p, q, rfl⟩ : ∃ (p : Fin 5000) (q : Fin 128), j = ix2 p q := ⟨j 0, j 1, eq_ix2 j⟩
  rw [maximumf_apply, addf_apply, matmul_block_apply, bias_block_apply, broadcast_apply]
  show max _ (Ideal.ofBits .f32 0x00000000#32) = _
  rw [Ideal.ofBits_zero_f32]
  rfl

/-- THE PAYLOAD on a block: the three-layer perceptron of the block's rows. -/
theorem pay_eq (v0 : Vec Ideal S5000x128 .f32) (v3 : Vec Ideal S128x128 .f32) (v6 : Vec Ideal S128 .f32) (v13 : Vec Ideal S128x128 .f32) (v16 : Vec Ideal S128 .f32) (v23 : Vec Ideal S128x128 .f32) (v26 : Vec Ideal S128 .f32) :
    k2_pay1 (F := Ideal) v0 v3 v6 v13 v16 v23 v26 = Cert.Spec.mlp3 v0 v3 v6 v13 v16 v23 v26 := by
  unfold k2_pay1
  rw [shapeCast_self]
  simp only [layer_eq]
  rfl

/-! ## From blocks to the array -/

theorem zero_offsets2 : (![0, 0] : Fin 2 → Nat) = fun _ => 0 := funext fun a => by fin_cases a <;> rfl
theorem zero_offsets1 : (![0] : Fin 1 → Nat) = fun _ => 0 := funext fun a => by fin_cases a; rfl

/-- The grid has 20 points. -/
theorem point_lt (t : Fin cfg2.N) : t.val < 20 := lt_of_lt_of_eq t.isLt N_2

/-- Row p of the block of point t is row 5000 t + p of the 100000 rows. -/
def blockRow (t : Fin cfg2.N) (p : Fin 5000) : Fin 100000 :=
  ⟨5000 * t.val + p.val, by have ht := point_lt t; have hp := p.isLt; omega⟩

/-- The printed index maps, decided over the grid: the rows' window and the output's are at block (t, 0), every weight
    matrix at block (0, 0) and every bias at block (0). -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- The input windows' blocks at a point, each at its literal type. -/
abbrev rowsBlk (c : Dev nD) (t : Fin cfg2.N) : Vec Ideal S5000x128 .f32 := iblk2 V c 0 t
abbrev waBlk (c : Dev nD) (t : Fin cfg2.N) : Vec Ideal S128x128 .f32 := iblk2 V c 1 t
abbrev baBlk (c : Dev nD) (t : Fin cfg2.N) : Vec Ideal S128 .f32 := iblk2 V c 2 t
abbrev wbBlk (c : Dev nD) (t : Fin cfg2.N) : Vec Ideal S128x128 .f32 := iblk2 V c 3 t
abbrev bbBlk (c : Dev nD) (t : Fin cfg2.N) : Vec Ideal S128 .f32 := iblk2 V c 4 t
abbrev wcBlk (c : Dev nD) (t : Fin cfg2.N) : Vec Ideal S128x128 .f32 := iblk2 V c 5 t
abbrev bcBlk (c : Dev nD) (t : Fin cfg2.N) : Vec Ideal S128 .f32 := iblk2 V c 6 t

/-- The rows' block at point t is rows 5000 t … 5000 t + 4999 of the array. -/
theorem rowsBlk_eq (c : Dev nD) (t : Fin cfg2.N) :
    rowsBlk V c t = fun j : S5000x128.Idx => (V c (Pipeline.arrRef spec2 0) : S100000x128.Idx → EReal) (ix2 (blockRow t (j 0)) (j 1)) := by
  obtain ⟨e0, e1, -⟩ := index_facts t
  funext j
  unfold rowsBlk iblk2
  rw [View.read_apply]
  refine congrArg (V c (Pipeline.arrRef spec2 0)) (funext fun a => Fin.ext ?_)
  match a with
  | ⟨0, _⟩ => show win2_0.index t (0 : Fin 2) * 5000 + 1 * (j 0).val = 5000 * t.val + (j 0).val; omega
  | ⟨1, _⟩ => show win2_0.index t (1 : Fin 2) * 128 + 1 * (j 1).val = (j 1).val; omega

/-- A weight matrix's window has one block, the matrix. -/
theorem waBlk_eq (c : Dev nD) (t : Fin cfg2.N) : waBlk V c t = V c (Pipeline.arrRef spec2 1) := by
  obtain ⟨-, -, e0, e1, -⟩ := index_facts t
  funext j
  unfold waBlk iblk2
  rw [View.read_apply]
  refine congrArg (V c (Pipeline.arrRef spec2 1)) (funext fun a => Fin.ext ?_)
  match a with
  | ⟨0, _⟩ => show win2_1.index t (0 : Fin 2) * 128 + 1 * (j 0).val = (j 0).val; omega
  | ⟨1, _⟩ => show win2_1.index t (1 : Fin 2) * 128 + 1 * (j 1).val = (j 1).val; omega
/-- A bias's window has one block, the bias. -/
theorem baBlk_eq (c : Dev nD) (t : Fin cfg2.N) : baBlk V c t = V c (Pipeline.arrRef spec2 2) := by
  obtain ⟨-, -, -, -, e0, -⟩ := index_facts t
  funext j
  unfold baBlk iblk2
  rw [View.read_apply]
  refine congrArg (V c (Pipeline.arrRef spec2 2)) (funext fun a => Fin.ext ?_)
  match a with
  | ⟨0, _⟩ => show win2_2.index t (0 : Fin 1) * 128 + 1 * (j 0).val = (j 0).val; omega
theorem wbBlk_eq (c : Dev nD) (t : Fin cfg2.N) : wbBlk V c t = V c (Pipeline.arrRef spec2 3) := by
  obtain ⟨-, -, -, -, -, e0, e1, -⟩ := index_facts t
  funext j
  unfold wbBlk iblk2
  rw [View.read_apply]
  refine congrArg (V c (Pipeline.arrRef spec2 3)) (funext fun a => Fin.ext ?_)
  match a with
  | ⟨0, _⟩ => show win2_3.index t (0 : Fin 2) * 128 + 1 * (j 0).val = (j 0).val; omega
  | ⟨1, _⟩ => show win2_3.index t (1 : Fin 2) * 128 + 1 * (j 1).val = (j 1).val; omega
theorem bbBlk_eq (c : Dev nD) (t : Fin cfg2.N) : bbBlk V c t = V c (Pipeline.arrRef spec2 4) := by
  obtain ⟨-, -, -, -, -, -, -, e0, -⟩ := index_facts t
  funext j
  unfold bbBlk iblk2
  rw [View.read_apply]
  refine congrArg (V c (Pipeline.arrRef spec2 4)) (funext fun a => Fin.ext ?_)
  match a with
  | ⟨0, _⟩ => show win2_4.index t (0 : Fin 1) * 128 + 1 * (j 0).val = (j 0).val; omega
theorem wcBlk_eq (c : Dev nD) (t : Fin cfg2.N) : wcBlk V c t = V c (Pipeline.arrRef spec2 5) := by
  obtain ⟨-, -, -, -, -, -, -, -, e0, e1, -⟩ := index_facts t
  funext j
  unfold wcBlk iblk2
  rw [View.read_apply]
  refine congrArg (V c (Pipeline.arrRef spec2 5)) (funext fun a => Fin.ext ?_)
  match a with
  | ⟨0, _⟩ => show win2_5.index t (0 : Fin 2) * 128 + 1 * (j 0).val = (j 0).val; omega
  | ⟨1, _⟩ => show win2_5.index t (1 : Fin 2) * 128 + 1 * (j 1).val = (j 1).val; omega
theorem bcBlk_eq (c : Dev nD) (t : Fin cfg2.N) : bcBlk V c t = V c (Pipeline.arrRef spec2 6) := by
  obtain ⟨-, -, -, -, -, -, -, -, -, -, e0, -⟩ := index_facts t
  funext j
  unfold bcBlk iblk2
  rw [View.read_apply]
  refine congrArg (V c (Pipeline.arrRef spec2 6)) (funext fun a => Fin.ext ?_)
  match a with
  | ⟨0, _⟩ => show win2_6.index t (0 : Fin 1) * 128 + 1 * (j 0).val = (j 0).val; omega

/-- What the output array ends holding: the three-layer perceptron of the arrays the launch finds. -/
abbrev percept (c : Dev nD) : S100000x128.Idx → EReal :=
  Cert.Spec.mlp3 (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5)) (V c (Pipeline.arrRef spec2 6))

/-- The output's block at point t, read off an array G, is G on rows 5000 t … 5000 t + 4999. -/
theorem outBlk_read (t : Fin cfg2.N) (G : S100000x128.Idx → EReal) :
    ((cfg2.win 7).blk t).view.read (Elt Ideal) G = fun j : S5000x128.Idx => G (ix2 (blockRow t (j 0)) (j 1)) := by
  obtain ⟨-, -, -, -, -, -, -, -, -, -, -, e0, e1⟩ := index_facts t
  funext j
  rw [View.read_apply]
  refine congrArg G (funext fun a => Fin.ext ?_)
  match a with
  | ⟨0, _⟩ => show win2_7.index t (0 : Fin 2) * 5000 + 1 * (j 0).val = 5000 * t.val + (j 0).val; omega
  | ⟨1, _⟩ => show win2_7.index t (1 : Fin 2) * 128 + 1 * (j 1).val = (j 1).val; omega

/-- What the body leaves at point t, over the blocks at their literal types. -/
theorem after_eq (c : Dev nD) (t : Fin cfg2.N) :
    (dat2 (F := Ideal) V c).after 7 t
      = k2_pay1 (F := Ideal) (rowsBlk V c t) (waBlk V c t) (baBlk V c t) (wbBlk V c t) (bbBlk V c t) (wcBlk V c t) (bcBlk V c t) := by
  rw [after2_7]
  unfold out2_7
  rw [View.canon_unit_zero zero_offsets2]
  simp only [View.ld_unit_zero (S := S5000x128) zero_offsets2, View.ld_unit_zero (S := S128x128) zero_offsets2, View.ld_unit_zero (S := S128) zero_offsets1]

/-- WHAT POINT t WRITES BACK is block t of the perceptron of the whole arrays: the layers work row by row. -/
theorem flushed_eq (c : Dev nD) (t : Fin cfg2.N) :
    (dat2 (F := Ideal) V c).flushed 7 t = ((cfg2.win 7).blk t).view.read (Elt Ideal) (percept V c) := by
  show (cfg2.win 7).cut (grid2.coords t) ((dat2 (F := Ideal) V c).after 7 t) = _
  rw [after_eq, pay_eq, rowsBlk_eq, waBlk_eq, baBlk_eq, wbBlk_eq, bbBlk_eq, wcBlk_eq, bcBlk_eq, Cert.Spec.mlp3_rows, outBlk_read]
  rfl

/-- An index of the array is in point t's block iff each coordinate is in the block's range on its axis. -/
theorem mem_outBlk (t : Fin cfg2.N) (i : S100000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v18).slice (win2_7.rect t)).set ↔ _
  rw [View.set_slice_whole, Rect.mem_set_unit]
  exact Iff.rfl

/-- THE BLOCKS COVER THE ARRAY: row r is in the block of point r / 5000, and every point writes back. -/
theorem covered (i : S100000x128.Idx) :
    ∃ t : Fin cfg2.N, (cfg2.win 7).flush t = true ∧ i ∈ ((cfg2.win 7).blk t).view.set := by
  have hi0 : (i 0).val < 100000 := (i 0).isLt
  have hi1 : (i 1).val < 128 := (i 1).isLt
  have ht : (i 0).val / 5000 < cfg2.N := lt_of_lt_of_eq (by omega : (i 0).val / 5000 < 20) N_2.symm
  obtain ⟨-, -, -, -, -, -, -, -, -, -, -, e0, e1⟩ := index_facts ⟨(i 0).val / 5000, ht⟩
  refine ⟨⟨(i 0).val / 5000, ht⟩, flush2_7 _, ?_⟩
  rw [mem_outBlk]
  intro a
  match a with
  | ⟨0, _⟩ =>
    show win2_7.index ⟨(i 0).val / 5000, ht⟩ (0 : Fin 2) * 5000 ≤ (i 0).val ∧ (i 0).val < win2_7.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_7.index ⟨(i 0).val / 5000, ht⟩ (1 : Fin 2) * 128 ≤ (i 1).val ∧ (i 1).val < win2_7.index ⟨(i 0).val / 5000, ht⟩ (1 : Fin 2) * 128 + 128
    rw [e1]
    omega

end Third

/-- After the third launch the output array is the three-layer perceptron of the input arrays as the launch found them. -/
theorem final2 (c : Dev nD) :
    (dat2 (F := Ideal) V c).arrAt 7 cfg2.N
      = Cert.Spec.mlp3 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (V c (Pipeline.arrRef spec2 6)) :=
  (dat2 (F := Ideal) V c).arrAt_eq_of_cover 7 (Third.percept V c) (fun t _ => Third.flushed_eq V c t) Third.covered

end Cert.KernelIdeal.RegionValue

end
-- ==== Proof.Region3.lean ====
import proofs.«427217_j52106543235221_1_alg».proof.Proof.Gen.KernelIdeal.Frame
import proofs.«427217_j52106543235221_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-!
The fourth launch walks the 100000 rows in 20 blocks of 5000. At each point its body reads the block's rows, the three
128 x 128 weight matrices and the three biases, and stores relu(relu(relu(x Wa + ba) Wb + bb) Wc + bc) for the block.
Over the extended reals each layer of the body is the dense layer of the block's rows; the layers work row by row, so
the block the point writes back is the block of the perceptron of the whole array; the 20 blocks tile the array.
-/

namespace Fourth

/-! ## One layer on a block of rows -/

/-- The left operand of the block's matrix product is read on row `i 0` … -/
theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the contraction's coordinate; -/
theorem lhs_col (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- the right operand on the contraction's coordinate … -/
theorem rhs_row (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- … at column `i 1`. -/
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's matrix product into a zero accumulator, at row p and column q: the sum over k of X(p,k) * W(k,q). -/
theorem matmul_block_apply (X : FVec Ideal S5000x128 .bf16) (W : FVec Ideal S128x128 .bf16) (p : Fin 5000) (q : Fin 128) :
    matmul (F := Ideal) dot_S5000x128_S128x128_S5000x128_1_0_0_1_n_n none X W (constant S5000x128 .f32 0x00000000#32) (ix2 p q)
      = ∑ k : Fin 128, X (ix2 p k) * W (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias [128] viewed [1,128] and repeated down the 5000 rows reads b(q) at (p, q). -/
theorem bias_block_apply (b : Vec Ideal S128 .f32) (p : Fin 5000) (q : Fin 128) :
    broadcastTo S5000x128 (shapeCast S1x128 b shapeCasts_S128_S1x128) broadcasts_S1x128_S5000x128 (ix2 p q) = b (ix1 q) := by
  refine (broadcastTo_apply _ broadcasts_S1x128_S5000x128 (ix2 p q) (ix2 (⟨0, Nat.one_pos⟩ : Fin 1) q) (fun a => ?_)).trans ?_
  · match a with
    | ⟨0, _⟩ => rfl
    | ⟨1, _⟩ => rfl
  · exact shapeCast_apply b shapeCasts_S128_S1x128 _ (ix1 q) (by
      rewrite [Shape.rowMajor_val_two, Shape.rowMajor_val_one]; show q.val = 0 * 128 + q.val; omega)

/-- ONE LAYER of the body on a block of 5000 rows is the dense layer of the block: the narrowing to bf16 is the
    identity on extended reals, the product is the sum over the 128 features, the bias is added along each row and the
    maximum against the zero splat is the relu. -/
theorem layer_eq (X : Vec Ideal S5000x128 .f32) (W : Vec Ideal S128x128 .f32) (b : Vec Ideal S128 .f32) :
    maximumf (F := Ideal) (addf (matmul dot_S5000x128_S128x128_S5000x128_1_0_0_1_n_n none (truncf .bf16 X bitsLt_bf16_f32) (truncf .bf16 W bitsLt_bf16_f32) (constant S5000x128 .f32 0x00000000#32))
        (broadcastTo S5000x128 (shapeCast S1x128 b shapeCasts_S128_S1x128) broadcasts_S1x128_S5000x128))
      (broadcast S5000x128 (Scalar.ofBits .f32 0x00000000#32))
      = Cert.Spec.dense X W b := by
  funext j
  obtain ⟨p, q, rfl⟩ : ∃ (p : Fin 5000) (q : Fin 128), j = ix2 p q := ⟨j 0, j 1, eq_ix2 j⟩
  rw [maximumf_apply, addf_apply, matmul_block_apply, bias_block_apply, broadcast_apply]
  show max _ (Ideal.ofBits .f32 0x00000000#32) = _
  rw [Ideal.ofBits_zero_f32]
  rfl

/-- THE PAYLOAD on a block: the three-layer perceptron of the block's rows. -/
theorem pay_eq (v0 : Vec Ideal S5000x128 .f32) (v3 : Vec Ideal S128x128 .f32) (v6 : Vec Ideal S128 .f32) (v13 : Vec Ideal S128x128 .f32) (v16 : Vec Ideal S128 .f32) (v23 : Vec Ideal S128x128 .f32) (v26 : Vec Ideal S128 .f32) :
    k3_pay1 (F := Ideal) v0 v3 v6 v13 v16 v23 v26 = Cert.Spec.mlp3 v0 v3 v6 v13 v16 v23 v26 := by
  unfold k3_pay1
  rw [shapeCast_self]
  simp only [layer_eq]
  rfl

/-! ## From blocks to the array -/

theorem zero_offsets2 : (![0, 0] : Fin 2 → Nat) = fun _ => 0 := funext fun a => by fin_cases a <;> rfl
theorem zero_offsets1 : (![0] : Fin 1 → Nat) = fun _ => 0 := funext fun a => by fin_cases a; rfl

/-- The grid has 20 points. -/
theorem point_lt (t : Fin cfg3.N) : t.val < 20 := lt_of_lt_of_eq t.isLt N_3

/-- Row p of the block of point t is row 5000 t + p of the 100000 rows. -/
def blockRow (t : Fin cfg3.N) (p : Fin 5000) : Fin 100000 :=
  ⟨5000 * t.val + p.val, by have ht := point_lt t; have hp := p.isLt; omega⟩

/-- The printed index maps, decided over the grid: the rows' window and the output's are at block (t, 0), every weight
    matrix at block (0, 0) and every bias at block (0). -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

/-- The input windows' blocks at a point, each at its literal type. -/
abbrev rowsBlk (c : Dev nD) (t : Fin cfg3.N) : Vec Ideal S5000x128 .f32 := iblk3 V c 0 t
abbrev waBlk (c : Dev nD) (t : Fin cfg3.N) : Vec Ideal S128x128 .f32 := iblk3 V c 1 t
abbrev baBlk (c : Dev nD) (t : Fin cfg3.N) : Vec Ideal S128 .f32 := iblk3 V c 2 t
abbrev wbBlk (c : Dev nD) (t : Fin cfg3.N) : Vec Ideal S128x128 .f32 := iblk3 V c 3 t
abbrev bbBlk (c : Dev nD) (t : Fin cfg3.N) : Vec Ideal S128 .f32 := iblk3 V c 4 t
abbrev wcBlk (c : Dev nD) (t : Fin cfg3.N) : Vec Ideal S128x128 .f32 := iblk3 V c 5 t
abbrev bcBlk (c : Dev nD) (t : Fin cfg3.N) : Vec Ideal S128 .f32 := iblk3 V c 6 t

/-- The rows' block at point t is rows 5000 t … 5000 t + 4999 of the array. -/
theorem rowsBlk_eq (c : Dev nD) (t : Fin cfg3.N) :
    rowsBlk V c t = fun j : S5000x128.Idx => (V c (Pipeline.arrRef spec3 0) : S100000x128.Idx → EReal) (ix2 (blockRow t (j 0)) (j 1)) := by
  obtain ⟨e0, e1, -⟩ := index_facts t
  funext j
  unfold rowsBlk iblk3
  rw [View.read_apply]
  refine congrArg (V c (Pipeline.arrRef spec3 0)) (funext fun a => Fin.ext ?_)
  match a with
  | ⟨0, _⟩ => show win3_0.index t (0 : Fin 2) * 5000 + 1 * (j 0).val = 5000 * t.val + (j 0).val; omega
  | ⟨1, _⟩ => show win3_0.index t (1 : Fin 2) * 128 + 1 * (j 1).val = (j 1).val; omega

/-- A weight matrix's window has one block, the matrix. -/
theorem waBlk_eq (c : Dev nD) (t : Fin cfg3.N) : waBlk V c t = V c (Pipeline.arrRef spec3 1) := by
  obtain ⟨-, -, e0, e1, -⟩ := index_facts t
  funext j
  unfold waBlk iblk3
  rw [View.read_apply]
  refine congrArg (V c (Pipeline.arrRef spec3 1)) (funext fun a => Fin.ext ?_)
  match a with
  | ⟨0, _⟩ => show win3_1.index t (0 : Fin 2) * 128 + 1 * (j 0).val = (j 0).val; omega
  | ⟨1, _⟩ => show win3_1.index t (1 : Fin 2) * 128 + 1 * (j 1).val = (j 1).val; omega
/-- A bias's window has one block, the bias. -/
theorem baBlk_eq (c : Dev nD) (t : Fin cfg3.N) : baBlk V c t = V c (Pipeline.arrRef spec3 2) := by
  obtain ⟨-, -, -, -, e0, -⟩ := index_facts t
  funext j
  unfold baBlk iblk3
  rw [View.read_apply]
  refine congrArg (V c (Pipeline.arrRef spec3 2)) (funext fun a => Fin.ext ?_)
  match a with
  | ⟨0, _⟩ => show win3_2.index t (0 : Fin 1) * 128 + 1 * (j 0).val = (j 0).val; omega
theorem wbBlk_eq (c : Dev nD) (t : Fin cfg3.N) : wbBlk V c t = V c (Pipeline.arrRef spec3 3) := by
  obtain ⟨-, -, -, -, -, e0, e1, -⟩ := index_facts t
  funext j
  unfold wbBlk iblk3
  rw [View.read_apply]
  refine congrArg (V c (Pipeline.arrRef spec3 3)) (funext fun a => Fin.ext ?_)
  match a with
  | ⟨0, _⟩ => show win3_3.index t (0 : Fin 2) * 128 + 1 * (j 0).val = (j 0).val; omega
  | ⟨1, _⟩ => show win3_3.index t (1 : Fin 2) * 128 + 1 * (j 1).val = (j 1).val; omega
theorem bbBlk_eq (c : Dev nD) (t : Fin cfg3.N) : bbBlk V c t = V c (Pipeline.arrRef spec3 4) := by
  obtain ⟨-, -, -, -, -, -, -, e0, -⟩ := index_facts t
  funext j
  unfold bbBlk iblk3
  rw [View.read_apply]
  refine congrArg (V c (Pipeline.arrRef spec3 4)) (funext fun a => Fin.ext ?_)
  match a with
  | ⟨0, _⟩ => show win3_4.index t (0 : Fin 1) * 128 + 1 * (j 0).val = (j 0).val; omega
theorem wcBlk_eq (c : Dev nD) (t : Fin cfg3.N) : wcBlk V c t = V c (Pipeline.arrRef spec3 5) := by
  obtain ⟨-, -, -, -, -, -, -, -, e0, e1, -⟩ := index_facts t
  funext j
  unfold wcBlk iblk3
  rw [View.read_apply]
  refine congrArg (V c (Pipeline.arrRef spec3 5)) (funext fun a => Fin.ext ?_)
  match a with
  | ⟨0, _⟩ => show win3_5.index t (0 : Fin 2) * 128 + 1 * (j 0).val = (j 0).val; omega
  | ⟨1, _⟩ => show win3_5.index t (1 : Fin 2) * 128 + 1 * (j 1).val = (j 1).val; omega
theorem bcBlk_eq (c : Dev nD) (t : Fin cfg3.N) : bcBlk V c t = V c (Pipeline.arrRef spec3 6) := by
  obtain ⟨-, -, -, -, -, -, -, -, -, -, e0, -⟩ := index_facts t
  funext j
  unfold bcBlk iblk3
  rw [View.read_apply]
  refine congrArg (V c (Pipeline.arrRef spec3 6)) (funext fun a => Fin.ext ?_)
  match a with
  | ⟨0, _⟩ => show win3_6.index t (0 : Fin 1) * 128 + 1 * (j 0).val = (j 0).val; omega

/-- What the output array ends holding: the three-layer perceptron of the arrays the launch finds. -/
abbrev percept (c : Dev nD) : S100000x128.Idx → EReal :=
  Cert.Spec.mlp3 (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5)) (V c (Pipeline.arrRef spec3 6))

/-- The output's block at point t, read off an array G, is G on rows 5000 t … 5000 t + 4999. -/
theorem outBlk_read (t : Fin cfg3.N) (G : S100000x128.Idx → EReal) :
    ((cfg3.win 7).blk t).view.read (Elt Ideal) G = fun j : S5000x128.Idx => G (ix2 (blockRow t (j 0)) (j 1)) := by
  obtain ⟨-, -, -, -, -, -, -, -, -, -, -, e0, e1⟩ := index_facts t
  funext j
  rw [View.read_apply]
  refine congrArg G (funext fun a => Fin.ext ?_)
  match a with
  | ⟨0, _⟩ => show win3_7.index t (0 : Fin 2) * 5000 + 1 * (j 0).val = 5000 * t.val + (j 0).val; omega
  | ⟨1, _⟩ => show win3_7.index t (1 : Fin 2) * 128 + 1 * (j 1).val = (j 1).val; omega

/-- What the body leaves at point t, over the blocks at their literal types. -/
theorem after_eq (c : Dev nD) (t : Fin cfg3.N) :
    (dat3 (F := Ideal) V c).after 7 t
      = k3_pay1 (F := Ideal) (rowsBlk V c t) (waBlk V c t) (baBlk V c t) (wbBlk V c t) (bbBlk V c t) (wcBlk V c t) (bcBlk V c t) := by
  rw [after3_7]
  unfold out3_7
  rw [View.canon_unit_zero zero_offsets2]
  simp only [View.ld_unit_zero (S := S5000x128) zero_offsets2, View.ld_unit_zero (S := S128x128) zero_offsets2, View.ld_unit_zero (S := S128) zero_offsets1]

/-- WHAT POINT t WRITES BACK is block t of the perceptron of the whole arrays: the layers work row by row. -/
theorem flushed_eq (c : Dev nD) (t : Fin cfg3.N) :
    (dat3 (F := Ideal) V c).flushed 7 t = ((cfg3.win 7).blk t).view.read (Elt Ideal) (percept V c) := by
  show (cfg3.win 7).cut (grid3.coords t) ((dat3 (F := Ideal) V c).after 7 t) = _
  rw [after_eq, pay_eq, rowsBlk_eq, waBlk_eq, baBlk_eq, wbBlk_eq, bbBlk_eq, wcBlk_eq, bcBlk_eq, Cert.Spec.mlp3_rows, outBlk_read]
  rfl

/-- An index of the array is in point t's block iff each coordinate is in the block's range on its axis. -/
theorem mem_outBlk (t : Fin cfg3.N) (i : S100000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v29).slice (win3_7.rect t)).set ↔ _
  rw [View.set_slice_whole, Rect.mem_set_unit]
  exact Iff.rfl

/-- THE BLOCKS COVER THE ARRAY: row r is in the block of point r / 5000, and every point writes back. -/
theorem covered (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have ht : (i 0).val / 5000 < cfg3.N := lt_of_lt_of_eq (by omega : (i 0).val / 5000 < 20) N_3.symm
  obtain ⟨-, -, -, -, -, -, -, -, -, -, -, e0, e1⟩ := index_facts ⟨(i 0).val / 5000, ht⟩
  refine ⟨⟨(i 0).val / 5000, ht⟩, flush3_7 _, ?_⟩
  rw [mem_outBlk]
  intro a
  match a with
  | ⟨0, _⟩ =>
    show win3_7.index ⟨(i 0).val / 5000, ht⟩ (0 : Fin 2) * 5000 ≤ (i 0).val ∧ (i 0).val < win3_7.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win3_7.index ⟨(i 0).val / 5000, ht⟩ (1 : Fin 2) * 128 ≤ (i 1).val ∧ (i 1).val < win3_7.index ⟨(i 0).val / 5000, ht⟩ (1 : Fin 2) * 128 + 128
    rw [e1]
    omega

end Fourth

/-- After the fourth launch the output array is the three-layer perceptron of the input arrays as the launch found them. -/
theorem final3 (c : Dev nD) :
    (dat3 (F := Ideal) V c).arrAt 7 cfg3.N
      = Cert.Spec.mlp3 (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) (V c (Pipeline.arrRef spec3 6)) :=
  (dat3 (F := Ideal) V c).arrAt_eq_of_cover 7 (Fourth.percept V c) (fun t _ => Fourth.flushed_eq V c t) Fourth.covered

end Cert.KernelIdeal.RegionValue

end
-- ==== Proof.KHostLemmas.lean ====
/-
  Three facts about the kernel program's host operations. The source-node row of the edge list read at an edge.
  The filling gather: where every source index is a row of the node array, no edge reads the fill value, so the
  filling gather is the plain gather at the same start indices. The lookup after padding and cutting: looking the
  padded edge types up and keeping the first 1,600,000 rows is looking the edge types up.
-/
import proofs.«427217_j52106543235221_1_alg».proof.Proof.KHost
import proofs.«427217_j52106543235221_1_alg».proof.Proof.Spec
import Idealize.ShloMosaic.Lib.StableHlo.Predicate
import Idealize.ShloMosaic.Lib.ValueIdx
import Idealize.ShloMosaic.Lib.Affine
import Idealize.ShloMosaic.Lib.Pipeline.Value
import Idealize.ShloMosaic.Lib.KernelVsHost
import Idealize.ShloMosaic.PureOps.Reduce

noncomputable section

namespace Cert.KernelIdeal.HostValue

open Cert.KernelIdeal Cert.KernelIdeal.Gen Idealize.ShloMosaic Idealize.ShloMosaic.ValueIdx

variable {F : FTy → Type} [FloatOps F]

/-! ## The source row of the edge list -/

/-- The source node of edge e is entry (0, e) of the edge list. -/
theorem srcOf_apply (ei : IVec S2x1600000 32) (e : Fin 1600000) : srcOf ei (ix1 e) = ei (ix2 (0 : Fin 2) e) := by
  unfold srcOf
  -- the reshape keeps the row-major position: entry e of the vector is entry (0, e) of the one-row matrix
  refine (shapeCast_apply _ _ (ix1 e) (ix2 (0 : Fin 1) e) ?_).trans ?_
  · rw [Shape.rowMajor_val_two, Shape.rowMajor_val_one]
    show (0 : Nat) * 1600000 + e.val = e.val
    omega
  -- the slice starts at (0, 0): entry (0, e) of it is entry (0, e) of the edge list
  · exact extractStridedSlice_apply _ _ _ (ix2 (0 : Fin 1) e) (ix2 (0 : Fin 2) e)
      (fun a => match a with | ⟨0, _⟩ => rfl | ⟨1, _⟩ => (Nat.zero_add _).symm)

/-! ## The filling gather fills nothing -/

/-- A left fold by the one-bit and, from 1, over words that are all 1, is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have h11 : IntOp.andi 1#1 1#1 = 1#1 := by decide
    rw [List.foldl_cons, h a (List.mem_cons_self ..), h11]
    exact foldl_andi_ones f l (fun n hn => h n (List.mem_cons_of_mem _ hn))

/-- An and-reduction from 1 of an array of one-bit words that are all 1 is 1 at every result index. -/
theorem reduce_andi_ones {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl, hinit]
  exact foldl_andi_ones x _ (fun n _ => hx n)

/-- The start index of edge e is its wrapped source index. -/
theorem takeIdx_apply (src : IVec S1600000 32) (e : Fin 1600000) (q : Fin 1) :
    takeIdx src (ix2 e q) = wrapSrc src (ix1 e) := by
  unfold takeIdx
  exact broadcastInDim_apply _ _ _ (ix2 e q) (ix1 e) (fun a => match a with | ⟨0, _⟩ => rfl)

/-- A source index whose signed value is not negative is not wrapped. -/
theorem wrapSrc_apply (src : IVec S1600000 32) (e : Fin 1600000) (h0 : 0 ≤ (src (ix1 e)).toInt) :
    wrapSrc src (ix1 e) = src (ix1 e) := by
  show Scalar.select (IntOp.cmpi .slt (src (ix1 e)) 0#32) (IntOp.addi (src (ix1 e)) 100000#32) (src (ix1 e)) = src (ix1 e)
  have hc : IntOp.cmpi .slt (src (ix1 e)) 0#32 = 0#1 := by
    refine eq_zero_of_ne_one (fun hc => ?_)
    have := IntOp.cmpi_slt.1 hc
    have h00 : (0#32).toInt = 0 := by decide
    omega
  rw [hc, select_zero]

/-- The two bounds on a start index, at one index of the column: both hold where the source index is a row. -/
theorem inRange_apply (src : IVec S1600000 32)
    (hsrc : ∀ e : Fin 1600000, 0 ≤ (src (ix1 e)).toInt ∧ (src (ix1 e)).toInt < 100000) (i : S1600000x1.Idx) :
    andi (cmpi .sge (takeIdx src) (broadcastInDim S1600000x1 ![] bcast_S_S1600000x1 (constantI S_ 32 0#32)))
      (cmpi .sle (takeIdx src) (broadcastInDim S1600000x1 ![0, 1] bcast_S1x1_S1600000x1_0_1
        (broadcastInDim S1x1 ![1] bcast_S1_S1x1_1 (constantI S1 32 99999#32)))) i = 1#1 := by
  obtain ⟨p, q, rfl⟩ : ∃ (p : Fin 1600000) (q : Fin 1), i = ix2 p q := ⟨i 0, i 1, eq_ix2 i⟩
  show IntOp.andi (IntOp.cmpi .sge (takeIdx src (ix2 p q)) 0#32) (IntOp.cmpi .sle (takeIdx src (ix2 p q)) 99999#32) = 1#1
  obtain ⟨h0, h1⟩ := hsrc p
  rw [takeIdx_apply, wrapSrc_apply src p h0]
  have h00 : (0#32).toInt = 0 := by decide
  have h99 : (99999#32).toInt = 99999 := by decide
  exact IntOp.andi_eq_one.2 ⟨IntOp.cmpi_sge.2 (by omega), IntOp.cmpi_sle.2 (by omega)⟩

/-- So every edge's start index lies inside the rows. -/
theorem takeMask_eq_one (src : IVec S1600000 32)
    (hsrc : ∀ e : Fin 1600000, 0 ≤ (src (ix1 e)).toInt ∧ (src (ix1 e)).toInt < 100000) (j : S1600000.Idx) :
    takeMask src j = 1#1 := by
  unfold takeMask
  exact reduce_andi_ones _ _ _ _ (fun _ => rfl) (inRange_apply src hsrc) j

/-- A select whose condition is a broadcast of an array of ones is its first operand. -/
theorem select_bcast_ones {α : Type} {s t : Shape} (dims : Fin s.rank → Fin t.rank) (h : s.BroadcastsInDim t dims)
    (m : IVec s 1) (hm : ∀ j, m j = 1#1) (a b : t.Idx → α) : select (broadcastInDim t dims h m) a b = a := by
  funext i
  show Scalar.select (m _) (a i) (b i) = a i
  rw [hm, select_one]

/-- Where every source index is a row of the node array the filling gather fills nothing. -/
theorem kTake_eq_gather (h : FVec F S100000x128 .f32) (src : IVec S1600000 32)
    (hsrc : ∀ e : Fin 1600000, 0 ≤ (src (ix1 e)).toInt ∧ (src (ix1 e)).toInt < 100000) :
    kTake h src = Host.gather gather_S100000x128_S1600000x1_S1600000x128_1_0_n_n_0_1_1128 h (takeIdx src) := by
  unfold kTake
  exact select_bcast_ones _ _ (takeMask src) (takeMask_eq_one src hsrc) _ _

/-! ## The lookup after padding and cutting -/

/-- Padding the edge types, looking them up, and cutting the padding's rows off again is looking the edge types up. -/
theorem sliceEA_embRows (attr : IVec S1600000 32) (emb : FVec Ideal S8x128 .f32) :
    sliceEA (F := Ideal) (Cert.Spec.embRows (padAttr attr) emb) = Cert.Spec.embRows attr emb := by
  funext i
  obtain ⟨e, j, rfl⟩ : ∃ (e : Fin 1600000) (j : Fin 128), i = ix2 e j := ⟨i 0, i 1, eq_ix2 i⟩
  have he : e.val < 1605632 := by have := e.isLt; omega
  -- below the 1,600,000 edges the padded edge types are the edge types
  have hpad : padAttr attr (ix1 (⟨e.val, he⟩ : Fin 1605632)) = attr (ix1 e) := by
    unfold padAttr
    exact pad_apply_of_inside _ _ _ _ _ _ _ (ix1 (⟨e.val, he⟩ : Fin 1605632)) (ix1 e)
      (fun a => match a with | ⟨0, _⟩ => by show e.val = 0 + e.val * (0 + 1); omega)
  unfold sliceEA
  -- the cut starts at (0, 0): row e of it is row e of the padded lookup
  refine (extractStridedSlice_apply _ _ _ (ix2 e j) (ix2 (⟨e.val, he⟩ : Fin 1605632) j)
    (fun a => match a with | ⟨0, _⟩ => (Nat.zero_add _).symm | ⟨1, _⟩ => (Nat.zero_add _).symm)).trans ?_
  -- the lookup reads the edge types at row e only
  show (if h : (padAttr attr (ix1 (⟨e.val, he⟩ : Fin 1605632))).toNat < 8 then
      emb (ix2 (⟨(padAttr attr (ix1 (⟨e.val, he⟩ : Fin 1605632))).toNat, h⟩ : Fin 8) j) else 0)
    = (if h : (attr (ix1 e)).toNat < 8 then emb (ix2 (⟨(attr (ix1 e)).toNat, h⟩ : Fin 8) j) else 0)
  rw [hpad]

end Cert.KernelIdeal.HostValue

end
-- ==== Proof.KOut.lean ====
/-
  The kernel program's result as one function of its twenty arguments, over the extended reals: h0 is the dense layer
  of x; the looked-up rows ea come from the edge types; each of the two message-passing steps feeds
  (1 + eps) * h + sum over edges into dst of relu(h(src) + ea) to the three-layer perceptron.
-/
import proofs.«427217_j52106543235221_1_alg».proof.Proof.KHost
import proofs.«427217_j52106543235221_1_alg».proof.Proof.Spec

noncomputable section

namespace Cert.KernelIdeal.HostValue

open Cert.KernelIdeal Cert.KernelIdeal.Gen Idealize.ShloMosaic

/-- The program's result, from its arguments. -/
def kOut (x : FVec Ideal S100000x128 .f32) (ei : IVec S2x1600000 32) (attr : IVec S1600000 32)
    (Wx : FVec Ideal S128x128 .f32) (bx : FVec Ideal S128 .f32) (emb : FVec Ideal S8x128 .f32) (eps1 eps2 : FVec Ideal S_ .f32)
    (W1a : FVec Ideal S128x128 .f32) (b1a : FVec Ideal S128 .f32) (W1b : FVec Ideal S128x128 .f32) (b1b : FVec Ideal S128 .f32)
    (W1c : FVec Ideal S128x128 .f32) (b1c : FVec Ideal S128 .f32)
    (W2a : FVec Ideal S128x128 .f32) (b2a : FVec Ideal S128 .f32) (W2b : FVec Ideal S128x128 .f32) (b2b : FVec Ideal S128 .f32)
    (W2c : FVec Ideal S128x128 .f32) (b2c : FVec Ideal S128 .f32) : FVec Ideal S100000x128 .f32 :=
  Cert.Spec.mlp3
    (kLayer (F := Ideal) eps2
      (Cert.Spec.mlp3
        (kLayer (F := Ideal) eps1 (Cert.Spec.dense x Wx bx) (srcOf ei) (dstOf ei) (Cert.Spec.embRows attr emb))
        W1a b1a W1b b1b W1c b1c)
      (srcOf ei) (dstOf ei) (Cert.Spec.embRows attr emb))
    W2a b2a W2b b2b W2c b2c

end Cert.KernelIdeal.HostValue

end
-- ==== Proof.KValue.lean ====
/-
  The value the kernel program returns: the result buffer's final contents, which the run leaves at what the fourth
  kernel launch wrote, is the function kOut of the launch memory's argument arrays. Each launch's output array is the
  shared mathematics of its input arrays (the four closed forms), and each input array is read back along the chain
  of buffer contents to the arguments.
-/
import proofs.«427217_j52106543235221_1_alg».proof.Proof.Reads
import proofs.«427217_j52106543235221_1_alg».proof.Proof.Region0
import proofs.«427217_j52106543235221_1_alg».proof.Proof.Region1
import proofs.«427217_j52106543235221_1_alg».proof.Proof.Region2
import proofs.«427217_j52106543235221_1_alg».proof.Proof.Region3
import proofs.«427217_j52106543235221_1_alg».proof.Proof.KHostLemmas
import proofs.«427217_j52106543235221_1_alg».proof.Proof.KOut

set_option maxRecDepth 16384

noncomputable section

namespace Cert.KernelIdeal.KValue

open Cert.KernelIdeal Cert.KernelIdeal.Gen Cert.KernelIdeal.HostValue Cert.KernelIdeal.Reads Cert.KernelIdeal.RegionValue
open Idealize.ShloMosaic Idealize.ShloMosaic.TcCoe Idealize.SL.Sem

variable (m : (ℓ : Loc nD τ sig) → Buf (Elt Ideal) ℓ) (ρ : Dev nD → PrngReg)

/-- The first launch leaves the dense layer of x. -/
theorem a0_eq (c : Dev nD) :
    A0 m ρ c = Cert.Spec.dense (m ((c : Thread nD τ).loc main_arg0)) (m ((c : Thread nD τ).loc main_arg3)) (m ((c : Thread nD τ).loc main_arg4)) := by
  show (dat0 (V1 m ρ) c).arrAt 3 cfg0.N = _
  rw [final0 (V1 m ρ) c, in0_0 m ρ c, in0_1 m ρ c, in0_2 m ρ c]

/-- The second launch leaves the looked-up rows of the padded edge types; cut back to the edges they are the
    looked-up rows of the edge types. -/
theorem a1_eq (c : Dev nD) :
    sliceEA (F := Ideal) (A1 m ρ c) = Cert.Spec.embRows (m ((c : Thread nD τ).loc main_arg2)) (m ((c : Thread nD τ).loc main_arg5)) := by
  show sliceEA (F := Ideal) ((dat1 (V4 m ρ) c).arrAt 2 cfg1.N) = _
  rw [final1 (V4 m ρ) c, in1_0 m ρ c, in1_1 m ρ c]
  exact sliceEA_embRows _ _

set_option maxHeartbeats 2000000 in
/-- The third launch leaves the perceptron of the first message-passing step. -/
theorem a2_eq (c : Dev nD) :
    A2 m ρ c = Cert.Spec.mlp3
      (kLayer (F := Ideal) (m ((c : Thread nD τ).loc main_arg6)) (A0 m ρ c) (srcOf (m ((c : Thread nD τ).loc main_arg1)))
        (dstOf (m ((c : Thread nD τ).loc main_arg1))) (sliceEA (A1 m ρ c)))
      (m ((c : Thread nD τ).loc main_arg8)) (m ((c : Thread nD τ).loc main_arg9)) (m ((c : Thread nD τ).loc main_arg10))
      (m ((c : Thread nD τ).loc main_arg11)) (m ((c : Thread nD τ).loc main_arg12)) (m ((c : Thread nD τ).loc main_arg13)) := by
  show (dat2 (V10 m ρ) c).arrAt 7 cfg2.N = _
  rw [final2 (V10 m ρ) c, in2_0 m ρ c, in2_1 m ρ c, in2_2 m ρ c, in2_3 m ρ c, in2_4 m ρ c, in2_5 m ρ c, in2_6 m ρ c]

set_option maxHeartbeats 2000000 in
/-- The fourth launch leaves the perceptron of the second message-passing step. -/
theorem a3_eq (c : Dev nD) :
    A3 m ρ c = Cert.Spec.mlp3
      (kLayer (F := Ideal) (m ((c : Thread nD τ).loc main_arg7)) (A2 m ρ c) (srcOf (m ((c : Thread nD τ).loc main_arg1)))
        (dstOf (m ((c : Thread nD τ).loc main_arg1))) (sliceEA (A1 m ρ c)))
      (m ((c : Thread nD τ).loc main_arg14)) (m ((c : Thread nD τ).loc main_arg15)) (m ((c : Thread nD τ).loc main_arg16))
      (m ((c : Thread nD τ).loc main_arg17)) (m ((c : Thread nD τ).loc main_arg18)) (m ((c : Thread nD τ).loc main_arg19)) := by
  show (dat3 (V15 m ρ) c).arrAt 7 cfg3.N = _
  rw [final3 (V15 m ρ) c, in3_0 m ρ c, in3_1 m ρ c, in3_2 m ρ c, in3_3 m ρ c, in3_4 m ρ c, in3_5 m ρ c, in3_6 m ρ c]

set_option maxHeartbeats 2000000 in
/-- The result buffer ends at kOut of the arguments. -/
theorem out_value (c : Dev nD) :
    W16 m ρ c (Proc.devRef .tc main_v29) = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  rw [out_eq m ρ c, a3_eq m ρ c, a2_eq m ρ c, a1_eq m ρ c, a0_eq m ρ c]
  rfl

end Cert.KernelIdeal.KValue

end
-- ==== Proof.LibGatherRows.lean ====
/-
  Two of jax's gathers read at an index, for any extents.
  Rows of a table: the table[idx] of an N x D table at a column of R start indices is, at (r, j), the table's
  entry (idx r, j) with the start index read signed and clamped into the table's rows.
  Along a row: take_along_axis of an R x N array at one index per row is, at (r, 0), the array's entry
  (r, idx r), the index read signed and clamped into the row.
-/
import Idealize.ShloMosaic.PureOps
import Idealize.ShloMosaic.Lib.ValueIdx

noncomputable section

namespace Cert.LibGatherRows

open Idealize.ShloMosaic Idealize.ShloMosaic.ValueIdx

variable {α : Type}

/-- Axis 1 of a rank-2 operand is not among the axes [0]. -/
private theorem one_notMem_zero : (1 : Fin 2) ∉ ([0] : List (Fin 2)) := by decide

/-- The dimension numbers of table[idx]: operand N x D, start indices R x 1, result R x D; the row axis is
    collapsed and indexed, the column axis is the offset axis, whole rows are sliced. -/
abbrev rowTakeDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The gathered rows read at (r, j): the table at the clamped start index of row r, column j. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (j : Fin D) :
    Host.gather (rowTakeDims N D R wf) x idx (ix2 r j)
      = x (ix2 (⟨min (idx (ix2 r (0 : Fin 1))).toInt.toNat (N - 1), by omega⟩ : Fin N) j) := by
  -- the gather reads the table at its operand index; compare the two operand indices axis by axis, as numbers:
  -- on each axis the operand index is (clamped start) + (batching coordinate) + (offset coordinate)
  unfold Host.gather
  congr 1
  funext a
  refine Fin.ext ?_
  match a with
  | ⟨0, _⟩ =>
    -- axis 0, the table's rows: collapsed and indexed. No batching axes, and a collapsed axis carries no offset,
    -- so only the start is left: the start index of result row r, clamped to N - 1 (rows minus the slice size 1)
    show (rowTakeDims N D R wf).start (ix2 r j) idx 0 + (rowTakeDims N D R wf).batchCoord (ix2 r j) 0
      + (rowTakeDims N D R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N D R wf).startIndexMap from List.mem_singleton.mpr rfl)]
    -- the start index is read at (r, 0): r from the result's batch axis 0, and component 0 on the index vector's axis 1
    have hsi : (rowTakeDims N D R wf).siIdx (ix2 r j) ⟨List.idxOf (0 : Fin 2) (rowTakeDims N D R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- axis 1, the table's columns: the offset axis. It is not in the start index map, so the start is 0; no batching
    -- axes; it is the only kept operand axis, paired with the result's offset axis 1, whose coordinate is j
    show (rowTakeDims N D R wf).start (ix2 r j) idx 1 + (rowTakeDims N D R wf).batchCoord (ix2 r j) 1
      + (rowTakeDims N D R wf).offCoord (ix2 r j) 1 = j.val
    rw [GatherDims.batchCoord_eq_zero _ _ _ List.not_mem_nil]
    unfold GatherDims.start
    rw [dif_neg (show (1 : Fin 2) ∉ (rowTakeDims N D R wf).startIndexMap from one_notMem_zero)]
    unfold GatherDims.offCoord
    rw [dif_pos (show (1 : Fin 2) ∈ (rowTakeDims N D R wf).sKept from
      (GatherDims.mem_sKept _ _).mpr ⟨one_notMem_zero, List.not_mem_nil⟩)]
    simp only [Nat.zero_add]
    rfl

/-- The dimension numbers of take_along_axis on the last axis with one index per row: operand R x N, start
    indices R x 1 x 1, result R x 1; the row axis is a batching axis on both sides, the column axis is collapsed
    and indexed. -/
abbrev alongDims (R N : Nat)
    (wf : GatherDims.WF ⟨2, ![R, N]⟩ ⟨3, ![R, 1, 1]⟩ ⟨2, ![R, 1]⟩ [] [1] [0] [1] [0] 2 ![1, 1]) :
    GatherDims ⟨2, ![R, N]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- The gathered column read at (r, 0): row r of the array at its clamped start index. -/
theorem gather_along_apply {R N w : Nat} (hN : 0 < N)
    (wf : GatherDims.WF ⟨2, ![R, N]⟩ ⟨3, ![R, 1, 1]⟩ ⟨2, ![R, 1]⟩ [] [1] [0] [1] [0] 2 ![1, 1])
    (x : (⟨2, ![R, N]⟩ : Shape).Idx → α) (idx : IVec ⟨3, ![R, 1, 1]⟩ w) (r : Fin R) :
    Host.gather (alongDims R N wf) x idx (ix2 r (0 : Fin 1))
      = x (ix2 r (⟨min (idx (ix3 r (0 : Fin 1) (0 : Fin 1))).toInt.toNat (N - 1), by omega⟩ : Fin N)) := by
  -- again the two operand indices are compared axis by axis, as numbers
  unfold Host.gather
  congr 1
  funext a
  refine Fin.ext ?_
  match a with
  | ⟨0, _⟩ =>
    -- axis 0, the array's rows: the batching axis. A batching axis has start 0 and no offset (no operand axis is kept);
    -- its batching coordinate is the result's coordinate for start-indices axis 0, that is result axis 0: r
    show (alongDims R N wf).start (ix2 r (0 : Fin 1)) idx 0 + (alongDims R N wf).batchCoord (ix2 r (0 : Fin 1)) 0
      + (alongDims R N wf).offCoord (ix2 r (0 : Fin 1)) 0 = r.val
    rw [GatherDims.start_batching _ _ _ _ (show (0 : Fin 2) ∈ (alongDims R N wf).operandBatchingDims from
        List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (alongDims R N wf).operandBatchingDims from List.mem_singleton.mpr rfl)]
    rfl
  | ⟨1, _⟩ =>
    -- axis 1, along a row: collapsed and indexed. Not a batching axis and it carries no offset, so only the start is
    -- left: the start index of result row r, clamped to N - 1 (row length minus the slice size 1)
    show (alongDims R N wf).start (ix2 r (0 : Fin 1)) idx 1 + (alongDims R N wf).batchCoord (ix2 r (0 : Fin 1)) 1
      + (alongDims R N wf).offCoord (ix2 r (0 : Fin 1)) 1 = _
    rw [GatherDims.batchCoord_eq_zero _ _ _ (show (1 : Fin 2) ∉ (alongDims R N wf).operandBatchingDims from
        one_notMem_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims R N wf).startIndexMap from List.mem_singleton.mpr rfl)]
    -- the start index is read at (r, 0, 0): r and 0 from the result's batch axes 0 and 1, and component 0 on the
    -- index vector's axis 2
    have hsi : (alongDims R N wf).siIdx (ix2 r (0 : Fin 1)) ⟨List.idxOf (1 : Fin 2) (alongDims R N wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGatherRows

end
-- ==== Proof.RefValue.lean ====
/-
  The reference program's result as a composition of named pieces, and each piece as the shared mathematics.
  The reference computes h0 = relu(x . Wx + bx), looks the edge types up in the 8-row table, and twice runs a
  message-passing step (gather h at the source nodes, add the looked-up rows, relu, sum into the destination nodes,
  add (1 + eps) * h) followed by three dense layers with relu.
-/
import proofs.«427217_j52106543235221_1_alg».proof.Defs
import proofs.«427217_j52106543235221_1_alg».proof.Proof.Gen.ReferenceIdeal.Run
import proofs.«427217_j52106543235221_1_alg».proof.Proof.Spec
import proofs.«427217_j52106543235221_1_alg».proof.Proof.LibGatherRows
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen
open Idealize.ShloMosaic Idealize.ShloMosaic.TcCoe Idealize.ShloMosaic.ValueIdx Idealize.SL.Sem

variable {F : FTy → Type} [FloatOps F]

/-- Row 0 of the edge list: the source node of every edge. -/
def rSrc (ei : IVec S2x1600000 32) : IVec S1600000 32 :=
  shapeCast S1600000 (extractStridedSlice S1x1600000 ![0, 0] ei slices_S2x1600000_S1x1600000_0_0) shapeCasts_S1x1600000_S1600000

/-- Row 1 of the edge list: the destination node of every edge. -/
def rDst (ei : IVec S2x1600000 32) : IVec S1600000 32 :=
  shapeCast S1600000 (extractStridedSlice S1x1600000 ![1, 0] ei slices_S2x1600000_S1x1600000_1_0) shapeCasts_S1x1600000_S1600000

/-- A dense layer with bias, then relu, as the host operations spell it. -/
def rDense (x : FVec F S100000x128 .f32) (W : FVec F S128x128 .f32) (b : FVec F S128 .f32) : FVec F S100000x128 .f32 :=
  maximumf
    (addf (Host.dotGeneral dot_S100000x128_S128x128_S100000x128_1_0_0_1_n_n none x W)
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The edge-type lookup: a negative type wrapped once by 8, then the table's rows gathered. -/
def rEmb (attr : IVec S1600000 32) (emb : FVec F S8x128 .f32) : FVec F S1600000x128 .f32 :=
  Host.gather gather_S8x128_S1600000x1_S1600000x128_1_0_n_n_0_1_1128 emb
    (broadcastInDim S1600000x1 ![0] bcast_S1600000_S1600000x1_0
      (select (cmpi .slt attr (broadcastInDim S1600000 ![] bcast_S_S1600000 (constantI S_ 32 0#32)))
        (addi attr (broadcastInDim S1600000 ![] bcast_S_S1600000 (constantI S_ 32 8#32))) attr))

/-- A source index with a negative value wrapped once by the number of nodes. -/
def rWrapSrc (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- One message-passing step's input to the perceptron: (1 + eps) * h + sum over edges into dst of relu(h(src) + ea). -/
def rLayer (eps : FVec F S_ .f32) (h : FVec F S100000x128 .f32) (src dst : IVec S1600000 32)
    (ea : FVec F S1600000x128 .f32) : FVec F S100000x128 .f32 :=
  addf (mulf (broadcastInDim S100000x128 ![] bcast_S_S100000x128 (addf (constant S_ .f32 0x3F800000#32) eps)) h)
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (maximumf
        (addf (Host.gather gather_S100000x128_S1600000x1_S1600000x128_1_0_n_n_0_1_1128 h
            (broadcastInDim S1600000x1 ![0] bcast_S1600000_S1600000x1_0 (rWrapSrc src))) ea)
        (broadcastInDim S1600000x128 ![] bcast_S_S1600000x128 (constant S_ .f32 0x00000000#32))))

/-- The whole reference: two message-passing steps, each followed by three dense layers. -/
def rOut (x : FVec F S100000x128 .f32) (ei : IVec S2x1600000 32) (attr : IVec S1600000 32)
    (Wx : FVec F S128x128 .f32) (bx : FVec F S128 .f32) (emb : FVec F S8x128 .f32) (eps1 eps2 : FVec F S_ .f32)
    (W1a : FVec F S128x128 .f32) (b1a : FVec F S128 .f32) (W1b : FVec F S128x128 .f32) (b1b : FVec F S128 .f32)
    (W1c : FVec F S128x128 .f32) (b1c : FVec F S128 .f32)
    (W2a : FVec F S128x128 .f32) (b2a : FVec F S128 .f32) (W2b : FVec F S128x128 .f32) (b2b : FVec F S128 .f32)
    (W2c : FVec F S128x128 .f32) (b2c : FVec F S128 .f32) : FVec F S100000x128 .f32 :=
  rDense (rDense (rDense
    (rLayer eps2
      (rDense (rDense (rDense
        (rLayer eps1 (rDense x Wx bx) (rSrc ei) (rDst ei) (rEmb attr emb))
        W1a b1a) W1b b1b) W1c b1c)
      (rSrc ei) (rDst ei) (rEmb attr emb))
    W2a b2a) W2b b2b) W2c b2c

/-- The generated run's composed term is that composition of the arguments. -/
theorem res_eq (m : (ℓ : Loc nD τ sig) → Buf (Elt F) ℓ) (c : Dev nD) :
    Cert.ReferenceIdeal.Value.res_main_v77 (F := F) m c
      = rOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13))
          (m ((c.tc : Thread nD τ).loc main_arg14)) (m ((c.tc : Thread nD τ).loc main_arg15)) (m ((c.tc : Thread nD τ).loc main_arg16))
          (m ((c.tc : Thread nD τ).loc main_arg17)) (m ((c.tc : Thread nD τ).loc main_arg18)) (m ((c.tc : Thread nD τ).loc main_arg19)) := by
  -- both sides are the same composition of the host operations: only the names of the pieces are opened
  unfold Cert.ReferenceIdeal.Value.res_main_v77 rOut rLayer rDense rEmb rWrapSrc rSrc rDst
  rfl

/-! ## The dense layer read at an index -/

/-- The left operand's index on axis 0 is the output row: axis 0 is the left operand's free axis. -/
theorem dense_lhs_0 (i : S100000x128.Idx) (t : dot_S100000x128_S128x128_S100000x128_1_0_0_1_n_n.contr.Idx) :
    (dot_S100000x128_S128x128_S100000x128_1_0_0_1_n_n.lhsIdx i t 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl

/-- The left operand's index on axis 1 is the contraction coordinate: axis 1 is its one contracted axis. -/
theorem dense_lhs_1 (i : S100000x128.Idx) (t : dot_S100000x128_S128x128_S100000x128_1_0_0_1_n_n.contr.Idx) :
    (dot_S100000x128_S128x128_S100000x128_1_0_0_1_n_n.lhsIdx i t 1).val = (t ⟨0, by decide⟩).val :=
  dot_S100000x128_S128x128_S100000x128_1_0_0_1_n_n.lhsIdx_val_of_single rfl i t

/-- The right operand's index on axis 0 is the contraction coordinate: axis 0 is its one contracted axis. -/
theorem dense_rhs_0 (i : S100000x128.Idx) (t : dot_S100000x128_S128x128_S100000x128_1_0_0_1_n_n.contr.Idx) :
    (dot_S100000x128_S128x128_S100000x128_1_0_0_1_n_n.rhsIdx i t 0).val = (t ⟨0, by decide⟩).val :=
  dot_S100000x128_S128x128_S100000x128_1_0_0_1_n_n.rhsIdx_val_of_single rfl i t

/-- The right operand's index on axis 1 is the output column: axis 1 is the right operand's free axis. -/
theorem dense_rhs_1 (i : S100000x128.Idx) (t : dot_S100000x128_S128x128_S100000x128_1_0_0_1_n_n.contr.Idx) :
    (dot_S100000x128_S128x128_S100000x128_1_0_0_1_n_n.rhsIdx i t 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

/-- The matrix product at (p, q): the sum over the shared axis k of x(p, k) * W(k, q). The host's dot_general over
    the extended reals is the sum over the contraction shape's indices; that shape has one axis of extent 128, so the
    sum is re-indexed over k, and the two operand indices are compared with (p, k) and (k, q) axis by axis. -/
theorem dense_dot_apply (x : FVec Ideal S100000x128 .f32) (W : FVec Ideal S128x128 .f32) (p : Fin 100000) (q : Fin 128) :
    Host.dotGeneral dot_S100000x128_S128x128_S100000x128_1_0_0_1_n_n none x W (ix2 p q) = ∑ k : Fin 128, x (ix2 p k) * W (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k :=
    funext fun a => Fin.ext (by
      match a with
      | ⟨0, _⟩ => exact dense_lhs_0 _ _
      | ⟨1, _⟩ => exact (dense_lhs_1 _ _).trans hk)
  have er : dot_S100000x128_S128x128_S100000x128_1_0_0_1_n_n.rhsIdx (ix2 p q) ((contrEquiv1 dot_S100000x128_S128x128_S100000x128_1_0_0_1_n_n 128 rfl rfl).symm k) = ix2 k q :=
    funext fun a => Fin.ext (by
      match a with
      | ⟨0, _⟩ => exact (dense_rhs_0 _ _).trans hk
      | ⟨1, _⟩ => exact dense_rhs_1 _ _)
  rw [el, er]

/-- The bias laid along the rows, [128] -> [1, 128] -> [100000, 128], read at (p, q) is b(q): the first broadcast
    keeps the column coordinate, the second reads row 0 of the one-row array. -/
theorem dense_bias_apply (b : FVec F S128 .f32) (p : Fin 100000) (q : Fin 128) :
    broadcastInDim S100000x128 ![0, 1] bcast_S1x128_S100000x128_0_1
      (broadcastInDim S1x128 ![1] bcast_S128_S1x128_1 b) (ix2 p q) = b (ix1 q) := by
  rw [broadcastInDim_apply _ bcast_S1x128_S100000x128_0_1 _ (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun a => match a with
    | ⟨0, _⟩ => by show q.val = if (128 : Nat) = 1 then 0 else q.val; rw [if_neg (by decide)])

/-- The broadcast zero constant read anywhere is 0. -/
theorem dense_zero_apply (i : S100000x128.Idx) :
    broadcastInDim S100000x128 ![] bcast_S_S100000x128 (constant (F := Ideal) S_ .f32 0x00000000#32) i = 0 := by
  rw [broadcastInDim_apply _ bcast_S_S100000x128 _ i ix0 (fun a => a.elim0), constant_apply]
  exact Ideal.ofBits_zero_f32

/-- The host's dense layer is the shared dense layer: a dot_general is the sum over the contracted axis. -/
theorem rDense_eq (x : FVec Ideal S100000x128 .f32) (W : FVec Ideal S128x128 .f32) (b : FVec Ideal S128 .f32) :
    rDense (F := Ideal) x W b = Cert.Spec.dense x W b := by
  funext i
  obtain ⟨p, q, rfl⟩ : ∃ (p : Fin 100000) (q : Fin 128), i = ix2 p q := ⟨i 0, i 1, eq_ix2 i⟩
  unfold rDense
  rw [maximumf_apply, addf_apply, dense_dot_apply, dense_bias_apply, dense_zero_apply]
  rfl

/-! ## The edge-type lookup read at an index -/

/-- This gather's dimension numbers are those of table rows taken at a column of start indices: the row axis is
    collapsed and indexed, the column axis is the offset axis, whole rows are sliced. -/
theorem emb_gather_dims :
    gather_S8x128_S1600000x1_S1600000x128_1_0_n_n_0_1_1128 = Cert.LibGatherRows.rowTakeDims 8 128 1600000 gather_S8x128_S1600000x1_S1600000x128_1_0_n_n_0_1_1128_wf := rfl

/-- A vector laid as an [n, 1] column reads, at (e, 0), the vector at e. -/
theorem emb_col_apply (v : IVec S1600000 32) (e : Fin 1600000) :
    broadcastInDim S1600000x1 ![0] bcast_S1600000_S1600000x1_0 v (ix2 e (0 : Fin 1)) = v (ix1 e) :=
  broadcastInDim_apply _ bcast_S1600000_S1600000x1_0 v (ix2 e (0 : Fin 1)) (ix1 e) (fun a => match a with
    | ⟨0, _⟩ => by show e.val = if (1600000 : Nat) = 1 then 0 else e.val; rw [if_neg (by decide)])

/-- A word whose signed value is not negative is not below zero in the signed order, so the wrap keeps it. -/
theorem emb_wrap_keep (a c : BitVec 32) (h : 0 ≤ a.toInt) :
    Scalar.select (IntOp.cmpi .slt a 0#32) (IntOp.addi a c) a = a := by
  have hlt : IntOp.cmpi .slt a 0#32 = 0#1 := by
    unfold IntOp.cmpi
    show BitVec.ofBool (a.slt 0#32) = 0#1
    have hf : a.slt 0#32 = false := by
      unfold BitVec.slt
      rw [BitVec.toInt_zero]
      exact decide_eq_false (by omega)
    rw [hf]
    rfl
  rw [hlt, select_zero]

/-- A word whose signed value lies in 0 .. 7 has that value unsigned too. -/
theorem emb_toNat_lt (a : BitVec 32) (h0 : 0 ≤ a.toInt) (h8 : a.toInt < 8) : a.toInt.toNat = a.toNat ∧ a.toNat < 8 := by
  have hl := a.isLt
  rw [BitVec.toInt_eq_toNat_cond] at h0 h8
  rw [BitVec.toInt_eq_toNat_cond]
  split at h0 <;> omega

/-- Where every edge type lies in 0 .. 7, the host's lookup is the shared lookup. -/
theorem rEmb_eq (attr : IVec S1600000 32) (emb : FVec Ideal S8x128 .f32)
    (hattr : ∀ e : Fin 1600000, 0 ≤ (attr (ix1 e)).toInt ∧ (attr (ix1 e)).toInt < 8) :
    rEmb (F := Ideal) attr emb = Cert.Spec.embRows attr emb := by
  funext i
  obtain ⟨e, j, rfl⟩ : ∃ (e : Fin 1600000) (j : Fin 128), i = ix2 e j := ⟨i 0, i 1, eq_ix2 i⟩
  obtain ⟨h0, h8⟩ := hattr e
  obtain ⟨hn, hlt⟩ := emb_toNat_lt _ h0 h8
  -- the start index of row e is the edge type itself: it is not negative, so it is not wrapped
  have hidx : broadcastInDim S1600000x1 ![0] bcast_S1600000_S1600000x1_0
      (select (cmpi .slt attr (broadcastInDim S1600000 ![] bcast_S_S1600000 (constantI S_ 32 0#32)))
        (addi attr (broadcastInDim S1600000 ![] bcast_S_S1600000 (constantI S_ 32 8#32))) attr)
      (ix2 e (0 : Fin 1)) = attr (ix1 e) := by
    rw [emb_col_apply, select_apply]
    exact emb_wrap_keep (attr (ix1 e)) _ h0
  -- a start index below 8 is not moved by the clamp to the last row
  have hrow : ∀ a : BitVec 32, a = attr (ix1 e) → min a.toInt.toNat (8 - 1) = (attr (ix1 e)).toNat := by
    intro a ha
    rw [ha, hn]
    omega
  unfold rEmb
  rw [emb_gather_dims, Cert.LibGatherRows.gather_rows_apply (by decide)]
  -- the shared lookup takes its first branch, the table's row of that number
  have hspec : Cert.Spec.embRows attr emb (ix2 e j) = emb (ix2 (⟨(attr (ix1 e)).toNat, hlt⟩ : Fin 8) j) := by
    unfold Cert.Spec.embRows
    exact dif_pos hlt
  rw [hspec]
  exact congrArg emb (congrArg (fun r : Fin 8 => ix2 r j) (Fin.ext (hrow _ hidx)))

end Cert.ReferenceIdeal.RefValue

end
-- ==== Proof.Bridge.lean ====
/-
  The two programs' results are one function of the arguments, where every source node index is a row of the node
  array and every edge type is a row of the 8-row table. The reference's dense layers and lookup are the shared ones.
  Its message-passing step gathers h at the (wrapped, clamped) source indices; the kernel program's step uses the
  filling gather, which in that range fills nothing and is the same gather at the same start indices. Everything
  else the two steps do is the same operations on the same operands.
-/
import proofs.«427217_j52106543235221_1_alg».proof.Proof.KOut
import proofs.«427217_j52106543235221_1_alg».proof.Proof.KHostLemmas
import proofs.«427217_j52106543235221_1_alg».proof.Proof.RefValue

noncomputable section

namespace Cert.Bridge

open Idealize.ShloMosaic Idealize.ShloMosaic.ValueIdx
open Cert.KernelIdeal.HostValue Cert.ReferenceIdeal.RefValue

/-- The two programs print the same dimension numbers for the scatter-add, and for the gather of node rows. -/
theorem scatter_eq : Cert.KernelIdeal.scatter_S100000x128_S1600000x1_S1600000x128_1_0_0_1 = Cert.ReferenceIdeal.scatter_S100000x128_S1600000x1_S1600000x128_1_0_0_1 := rfl
theorem gather_eq : Cert.KernelIdeal.gather_S100000x128_S1600000x1_S1600000x128_1_0_n_n_0_1_1128 = Cert.ReferenceIdeal.gather_S100000x128_S1600000x1_S1600000x128_1_0_n_n_0_1_1128 := rfl

/-- The two programs take the source and destination rows of the edge list by the same operations. -/
theorem src_eq (ei : IVec Cert.KernelIdeal.S2x1600000 32) : srcOf ei = rSrc ei := rfl
theorem dst_eq (ei : IVec Cert.KernelIdeal.S2x1600000 32) : dstOf ei = rDst ei := rfl

/-- One message-passing step: the kernel program's is the reference's where the source indices are rows. -/
theorem layer_eq (eps : FVec Ideal Cert.KernelIdeal.S_ .f32) (h : FVec Ideal Cert.KernelIdeal.S100000x128 .f32) (src dst : IVec Cert.KernelIdeal.S1600000 32)
    (ea : FVec Ideal Cert.KernelIdeal.S1600000x128 .f32)
    (hsrc : ∀ e : Fin 1600000, 0 ≤ (src (ix1 e)).toInt ∧ (src (ix1 e)).toInt < 100000) :
    kLayer (F := Ideal) eps h src dst ea = rLayer (F := Ideal) eps h src dst ea := by
  unfold kLayer rLayer
  rw [kTake_eq_gather h src hsrc, scatter_eq, gather_eq]
  rfl

/-- The reference's result is the kernel program's result. -/
theorem out_eq (x : FVec Ideal Cert.KernelIdeal.S100000x128 .f32) (ei : IVec Cert.KernelIdeal.S2x1600000 32) (attr : IVec Cert.KernelIdeal.S1600000 32)
    (Wx : FVec Ideal Cert.KernelIdeal.S128x128 .f32) (bx : FVec Ideal Cert.KernelIdeal.S128 .f32) (emb : FVec Ideal Cert.KernelIdeal.S8x128 .f32) (eps1 eps2 : FVec Ideal Cert.KernelIdeal.S_ .f32)
    (W1a : FVec Ideal Cert.KernelIdeal.S128x128 .f32) (b1a : FVec Ideal Cert.KernelIdeal.S128 .f32) (W1b : FVec Ideal Cert.KernelIdeal.S128x128 .f32) (b1b : FVec Ideal Cert.KernelIdeal.S128 .f32)
    (W1c : FVec Ideal Cert.KernelIdeal.S128x128 .f32) (b1c : FVec Ideal Cert.KernelIdeal.S128 .f32)
    (W2a : FVec Ideal Cert.KernelIdeal.S128x128 .f32) (b2a : FVec Ideal Cert.KernelIdeal.S128 .f32) (W2b : FVec Ideal Cert.KernelIdeal.S128x128 .f32) (b2b : FVec Ideal Cert.KernelIdeal.S128 .f32)
    (W2c : FVec Ideal Cert.KernelIdeal.S128x128 .f32) (b2c : FVec Ideal Cert.KernelIdeal.S128 .f32)
    (hsrc : ∀ e : Fin 1600000, 0 ≤ (ei (ix2 (0 : Fin 2) e)).toInt ∧ (ei (ix2 (0 : Fin 2) e)).toInt < 100000)
    (hattr : ∀ e : Fin 1600000, 0 ≤ (attr (ix1 e)).toInt ∧ (attr (ix1 e)).toInt < 8) :
    rOut (F := Ideal) x ei attr Wx bx emb eps1 eps2 W1a b1a W1b b1b W1c b1c W2a b2a W2b b2b W2c b2c = kOut x ei attr Wx bx emb eps1 eps2 W1a b1a W1b b1b W1c b1c W2a b2a W2b b2b W2c b2c := by
  have hs : ∀ e : Fin 1600000, 0 ≤ (srcOf ei (ix1 e)).toInt ∧ (srcOf ei (ix1 e)).toInt < 100000 := fun e => by
    rw [srcOf_apply]; exact hsrc e
  unfold rOut kOut
  rw [rEmb_eq attr emb hattr]
  simp only [rDense_eq, ← Cert.Spec.mlp3_def, ← src_eq, ← dst_eq]
  rw [layer_eq eps1 _ (srcOf ei) (dstOf ei) _ hs, layer_eq eps2 _ (srcOf ei) (dstOf ei) _ hs]

end Cert.Bridge

end
-- ==== Proof.PreDecode.lean ====
/-
  What the precondition says about the two integer inputs. The precondition is a conjunction: every float input is
  finite, every source node index (row 0 of the edge list) lies in 0 .. 99999, and every edge type lies in 0 .. 7.
  Here the last two conjuncts are read back, entry by entry, as facts about signed integers.
-/
import proofs.«427217_j52106543235221_1_alg».proof.Pre_finite_inputs
import proofs.«427217_j52106543235221_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

noncomputable section

namespace Cert.PreDecode

open Cert.Pre_finite_inputs Idealize.ShloMosaic Idealize.ShloMosaic.ValueIdx

variable {F : FTy → Type} [FloatOps F]

/-! ## The operations of the chain, read at an index -/

/-- The scalar shape has one index. -/
local instance : Subsingleton S_.Idx := ⟨fun a b => funext fun d => d.elim0⟩

/-- The pointwise and of two bit vectors, read at an index. -/
theorem andi_at {s : Shape} {w : Nat} (x y : IVec s w) (i : s.Idx) : andi x y i = IntOp.andi (x i) (y i) := rfl

/-- The pointwise comparison of two word vectors, read at an index. -/
theorem cmpi_at {s : Shape} {w : Nat} (p : CmpIPredicate) (x y : IVec s w) (i : s.Idx) :
    cmpi p x y i = IntOp.cmpi p (x i) (y i) := rfl

/-- A constant scalar broadcast to any shape reads the constant everywhere. -/
theorem bcast_const_at (t : Shape) (hb : S_.BroadcastsInDim t ![]) (w : Nat) (b : BitVec w) (j : t.Idx) :
    broadcastInDim t ![] hb (constantI S_ w b) j = b := rfl

/-- The three literal bounds, read signed. -/
theorem toInt_zero : (0#32 : BitVec 32).toInt = 0 := by decide
theorem toInt_eight : (8#32 : BitVec 32).toInt = 8 := by decide
theorem toInt_hundred_thousand : (100000#32 : BitVec 32).toInt = 100000 := by decide

/-- Row 0 of the edge list, flattened, read at edge e is the entry (0, e) of the edge list: the flattening keeps the
    row-major position (0 * 1600000 + e = e), and the slice starts at offset (0, 0). -/
theorem row0_at (a1 : IVec S2x1600000 32) (hs : S2x1600000.Slices ![0, 0] S1x1600000)
    (hc : S1x1600000.ShapeCasts S1600000) (e : Fin 1600000) :
    shapeCast S1600000 (extractStridedSlice S1x1600000 ![0, 0] a1 hs) hc (ix1 e) = a1 (ix2 (0 : Fin 2) e) := by
  refine (shapeCast_apply _ hc (ix1 e) (ix2 (0 : Fin 1) e) ?_).trans ?_
  · rw [Shape.rowMajor_val_two, Shape.rowMajor_val_one]
    show 0 * 1600000 + e.val = e.val
    omega
  · refine extractStridedSlice_apply _ a1 hs _ (ix2 (0 : Fin 2) e) fun a => ?_
    match a with
    | ⟨0, _⟩ => rfl
    | ⟨1, _⟩ => show e.val = 0 + e.val; omega

/-! ## The tail of the chain

The precondition's value is (finiteness ∧ all(0 ≤ src ∧ src < 100000)) ∧ all(0 ≤ type ∧ type < 8) at the scalar
shape's one index. The finiteness conjunct enters the tail of the chain as two opaque values and is dropped; each
"all" is a reduction by and that came out 1, so each of its entries is 1; an entry is an and of two signed comparisons
against a broadcast literal, read at edge e. -/

theorem tail_decode [Cert.Pre_finite_inputs.Facts] (a1 : IVec S2x1600000 32) (a2 : IVec S1600000 32) (v81 : IVec S_ 1) (v84 : IVec S128 1)
    (h : fn_part5 (F := F) a1 a2 v81 v84 ix0 = 1#1) (e : Fin 1600000) :
    (0 ≤ (a1 (ix2 (0 : Fin 2) e)).toInt ∧ (a1 (ix2 (0 : Fin 2) e)).toInt < 100000) ∧
      (0 ≤ (a2 (ix1 e)).toInt ∧ (a2 (ix1 e)).toInt < 8) := by
  unfold fn_part5 fn_part6 at h
  dsimp only at h
  -- the outer two conjunctions, at the one scalar index
  rw [andi_at, andi_at, IntOp.andi_eq_one, IntOp.andi_eq_one] at h
  obtain ⟨⟨-, hsrc⟩, hattr⟩ := h
  -- each reduction by and over the edges came out 1: every entry is 1
  have hs := Host.reduce_andi_all _ _ _ _ ix0 hsrc (ix1 e)
  have ha := Host.reduce_andi_all _ _ _ _ ix0 hattr (ix1 e)
  -- an entry: two signed comparisons against a broadcast literal, as inequalities between signed readings
  rw [andi_at, IntOp.andi_eq_one, cmpi_at, cmpi_at, row0_at, bcast_const_at, bcast_const_at,
    IntOp.cmpi_sge, IntOp.cmpi_slt, toInt_zero, toInt_hundred_thousand] at hs
  rw [andi_at, IntOp.andi_eq_one, cmpi_at, cmpi_at, bcast_const_at, bcast_const_at,
    IntOp.cmpi_sge, IntOp.cmpi_slt, toInt_zero, toInt_eight] at ha
  exact ⟨hs, ha⟩

/-! ## The two ranges

The whole chain unfolds to its tail applied to the edge list, the edge types and the finiteness values. -/

/-- Where the precondition holds, every source node index is a row of the node array. -/
theorem src_in_range [Cert.Pre_finite_inputs.Facts] (a0 : FVec F S100000x128 .f32) (a1 : IVec S2x1600000 32) (a2 : IVec S1600000 32) (a3 : FVec F S128x128 .f32) (a4 : FVec F S128 .f32)
    (a5 : FVec F S8x128 .f32) (a6 : FVec F S_ .f32) (a7 : FVec F S_ .f32) (a8 : FVec F S128x128 .f32) (a9 : FVec F S128 .f32)
    (a10 : FVec F S128x128 .f32) (a11 : FVec F S128 .f32) (a12 : FVec F S128x128 .f32) (a13 : FVec F S128 .f32)
    (a14 : FVec F S128x128 .f32) (a15 : FVec F S128 .f32) (a16 : FVec F S128x128 .f32) (a17 : FVec F S128 .f32)
    (a18 : FVec F S128x128 .f32) (a19 : FVec F S128 .f32)
    (h : Cert.Pre_finite_inputs.fn (F := F) a0 a1 a2 a3 a4 a5 a6 a7 a8 a9 a10 a11 a12 a13 a14 a15 a16 a17 a18 a19 = fun _ => 1#1)
    (e : Fin 1600000) :
    0 ≤ (a1 (ix2 (0 : Fin 2) e)).toInt ∧ (a1 (ix2 (0 : Fin 2) e)).toInt < 100000 :=
  (tail_decode (F := F) a1 a2 _ _ (congrFun h ix0) e).1

/-- Where the precondition holds, every edge type is a row of the 8-row table. -/
theorem attr_in_range [Cert.Pre_finite_inputs.Facts] (a0 : FVec F S100000x128 .f32) (a1 : IVec S2x1600000 32) (a2 : IVec S1600000 32) (a3 : FVec F S128x128 .f32) (a4 : FVec F S128 .f32)
    (a5 : FVec F S8x128 .f32) (a6 : FVec F S_ .f32) (a7 : FVec F S_ .f32) (a8 : FVec F S128x128 .f32) (a9 : FVec F S128 .f32)
    (a10 : FVec F S128x128 .f32) (a11 : FVec F S128 .f32) (a12 : FVec F S128x128 .f32) (a13 : FVec F S128 .f32)
    (a14 : FVec F S128x128 .f32) (a15 : FVec F S128 .f32) (a16 : FVec F S128x128 .f32) (a17 : FVec F S128 .f32)
    (a18 : FVec F S128x128 .f32) (a19 : FVec F S128 .f32)
    (h : Cert.Pre_finite_inputs.fn (F := F) a0 a1 a2 a3 a4 a5 a6 a7 a8 a9 a10 a11 a12 a13 a14 a15 a16 a17 a18 a19 = fun _ => 1#1)
    (e : Fin 1600000) :
    0 ≤ (a2 (ix1 e)).toInt ∧ (a2 (ix1 e)).toInt < 8 :=
  (tail_decode (F := F) a1 a2 _ _ (congrFun h ix0) e).2

end Cert.PreDecode

end
-- ==== Proof.lean ====
/-
  The kernel program and the reference compute one function of their arguments over the extended reals, where every
  source node index is a row of the node array and every edge type is a row of the 8-row table (the two conjuncts the
  precondition carries beside finiteness, which the proof does not use). The model: h0 = relu(x . Wx + bx); ea is the
  row of the edge-type table each edge names; a message-passing step sends h to
  (1 + eps) * h + sum over edges e into dst(e) of relu(h(src e) + ea(e)), and is followed by three dense layers with relu.
  The kernel program runs the dense layers, the lookup (as a one-hot product with the table) and the perceptrons in
  four kernel launches, blocks of rows at a time, and the gather and scatter-add on the host; its gather is the
  filling kind, which in that range fills nothing. The reference does everything on the host.
  The three frames: both kernel programs' frames are the launch of @main's segments; the reference's is its run.
  The equivalence: the kernel program's run ends with the result buffer at what the fourth launch leaves, which is
  kOut of the arguments (KValue); the reference's run ends at its composed term, which is rOut of the arguments
  (RefValue); the two are one function (Bridge) under the two range facts read out of the precondition (PreDecode).
-/
import proofs.«427217_j52106543235221_1_alg».proof.Defs
import proofs.«427217_j52106543235221_1_alg».proof.Proof.Gen.Kernel
import proofs.«427217_j52106543235221_1_alg».proof.Proof.Gen.Kernel.Skeleton
import proofs.«427217_j52106543235221_1_alg».proof.Proof.Gen.Kernel.Launch
import proofs.«427217_j52106543235221_1_alg».proof.Proof.Gen.Kernel.Points
import proofs.«427217_j52106543235221_1_alg».proof.Proof.Gen.Kernel.Frame
import proofs.«427217_j52106543235221_1_alg».proof.Proof.Gen.KernelIdeal
import proofs.«427217_j52106543235221_1_alg».proof.Proof.Gen.KernelIdeal.Skeleton
import proofs.«427217_j52106543235221_1_alg».proof.Proof.Gen.KernelIdeal.Launch
import proofs.«427217_j52106543235221_1_alg».proof.Proof.Gen.KernelIdeal.Points
import proofs.«427217_j52106543235221_1_alg».proof.Proof.Gen.KernelIdeal.Frame
import proofs.«427217_j52106543235221_1_alg».proof.Proof.Gen.ReferenceIdeal
import proofs.«427217_j52106543235221_1_alg».proof.Proof.Gen.ReferenceIdeal.Run
import proofs.«427217_j52106543235221_1_alg».proof.Proof.Gen.Pre_finite_inputs
import proofs.«427217_j52106543235221_1_alg».proof.Proof.ValueRun
import proofs.«427217_j52106543235221_1_alg».proof.Proof.KValue
import proofs.«427217_j52106543235221_1_alg».proof.Proof.RefValue
import proofs.«427217_j52106543235221_1_alg».proof.Proof.Bridge
import proofs.«427217_j52106543235221_1_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

set_option maxHeartbeats 4000000 in
/-- Both runs end, the kernel program's at kOut of its arguments and the reference's at rOut of its own, which
    agree with the kernel program's; under the precondition's two range facts rOut is kOut. -/
theorem algebraic : Cert.algebraic_KernelIdeal_ReferenceIdeal := by
  intro m ρ m' ρ' hpre hagree
  refine ⟨fun c => Cert.KernelIdeal.HostValue.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Cert.KernelIdeal.KValue.out_value m ρ c), (h c).2⟩)
      (Cert.KernelIdeal.ValueRun.value_run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.res_eq m' c]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]
    exact Cert.Bridge.out_eq _ _ _ _ _ _ _ _ _ _ _ _ _ _ _ _ _ _ _ _
      (fun e => Cert.PreDecode.src_in_range _ _ _ _ _ _ _ _ _ _ _ _ _ _ _ _ _ _ _ _ (hpre c) e)
      (fun e => Cert.PreDecode.attr_in_range _ _ _ _ _ _ _ _ _ _ _ _ _ _ _ _ _ _ _ _ (hpre c) e)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
